-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x128x512 : Shape := ⟨4, ![128, 3, 128, 512]⟩
abbrev S4096x10000 : Shape := ⟨2, ![4096, 10000]⟩
abbrev S4096 : Shape := ⟨1, ![4096]⟩
abbrev S_ : Shape := ⟨0, ![]⟩

class Facts : Prop where
  bcast_S_S128x3x128x512 : S_.BroadcastsInDim S128x3x128x512 (![] : Fin 0 → Fin S128x3x128x512.rank)
  reducesTo_S128x3x128x512_S_d0_1_2_3 : S128x3x128x512.ReducesTo [0, 1, 2, 3] S_
  h_S_ : 0 < S_.numel
  bcast_S_S4096x10000 : S_.BroadcastsInDim S4096x10000 (![] : Fin 0 → Fin S4096x10000.rank)
  reducesTo_S4096x10000_S_d0_1 : S4096x10000.ReducesTo [0, 1] S_

variable [Facts]

def fn {F : FTy → Type} [FloatOps F] (main_arg0 : FVec F S128x3x128x512 .f32) (main_arg1 : FVec F S128x3x128x512 .f32) (main_arg2 : FVec F S4096x10000 .f32) (main_arg3 : IVec S4096 32) : IVec S_ 1 :=
  let main_v0 : FVec F S128x3x128x512 .f32 := Host.absf main_arg0
  let main_cst : FVec F S_ .f32 := constant S_ .f32 0x7F800000#32
  let main_v1 : FVec F S128x3x128x512 .f32 := broadcastInDim S128x3x128x512 ![] bcast_S_S128x3x128x512 main_cst
  let main_v2 : IVec S128x3x128x512 1 := cmpf .olt main_v0 main_v1
  let main_c : IVec S_ 1 := constantI S_ 1 1#1
  let main_v3 : IVec S_ 1 := (fun x v => Host.reduce IntOp.andi x v reducesTo_S128x3x128x512_S_d0_1_2_3 h_S_) main_v2 main_c
  let main_v4 : FVec F S128x3x128x512 .f32 := Host.absf main_arg1
  let main_cst_0 : FVec F S_ .f32 := constant S_ .f32 0x7F800000#32
  let main_v5 : FVec F S128x3x128x512 .f32 := broadcastInDim S128x3x128x512 ![] bcast_S_S128x3x128x512 main_cst_0
  let main_v6 : IVec S128x3x128x512 1 := cmpf .olt main_v4 main_v5
  let main_c_1 : IVec S_ 1 := constantI S_ 1 1#1
  let main_v7 : IVec S_ 1 := (fun x v => Host.reduce IntOp.andi x v reducesTo_S128x3x128x512_S_d0_1_2_3 h_S_) main_v6 main_c_1
  let main_v8 : IVec S_ 1 := andi main_v3 main_v7
  let main_v9 : FVec F S4096x10000 .f32 := Host.absf main_arg2
  let main_cst_2 : FVec F S_ .f32 := constant S_ .f32 0x7F800000#32
  let main_v10 : FVec F S4096x10000 .f32 := broadcastInDim S4096x10000 ![] bcast_S_S4096x10000 main_cst_2
  let main_v11 : IVec S4096x10000 1 := cmpf .olt main_v9 main_v10
  let main_c_3 : IVec S_ 1 := constantI S_ 1 1#1
  let main_v12 : IVec S_ 1 := (fun x v => Host.reduce IntOp.andi x v reducesTo_S4096x10000_S_d0_1 h_S_) main_v11 main_c_3
  let main_v13 : IVec S_ 1 := andi main_v8 main_v12
  main_v13
-- ==== Kernel.lean ====
abbrev S128x3x128x512 : Shape := ⟨4, ![128, 3, 128, 512]⟩
abbrev S4096x10000 : Shape := ⟨2, ![4096, 10000]⟩
abbrev S4096 : Shape := ⟨1, ![4096]⟩
abbrev S16x128 : Shape := ⟨2, ![16, 128]⟩
abbrev S4x3x128x512 : Shape := ⟨4, ![4, 3, 128, 512]⟩
abbrev S8x128 : Shape := ⟨2, ![8, 128]⟩
abbrev S1x4x3x128x512 : Shape := ⟨5, ![1, 4, 3, 128, 512]⟩
abbrev S1 : Shape := ⟨1, ![1]⟩
abbrev S1x1x1x1x1 : Shape := ⟨5, ![1, 1, 1, 1, 1]⟩
abbrev S4x1x128x512 : Shape := ⟨4, ![4, 1, 128, 512]⟩
abbrev S4x128x512 : Shape := ⟨3, ![4, 128, 512]⟩
abbrev S4x128 : Shape := ⟨2, ![4, 128]⟩
abbrev S4x128x1 : Shape := ⟨3, ![4, 128, 1]⟩
abbrev S4x1 : Shape := ⟨2, ![4, 1]⟩
abbrev S4x1x1 : Shape := ⟨3, ![4, 1, 1]⟩
abbrev S1x4x128x512 : Shape := ⟨4, ![1, 4, 128, 512]⟩
abbrev S1x1x1x1 : Shape := ⟨4, ![1, 1, 1, 1]⟩
abbrev S1x1 : Shape := ⟨2, ![1, 1]⟩
abbrev S_ : Shape := ⟨0, ![]⟩
abbrev S4096x1 : Shape := ⟨2, ![4096, 1]⟩
abbrev S4096x1x1 : Shape := ⟨3, ![4096, 1, 1]⟩
abbrev S1x1x1 : Shape := ⟨3, ![1, 1, 1]⟩
abbrev S128x10000 : Shape := ⟨2, ![128, 10000]⟩
abbrev S128x1 : Shape := ⟨2, ![128, 1]⟩
abbrev S128 : Shape := ⟨1, ![128]⟩
abbrev S1x128x1 : Shape := ⟨3, ![1, 128, 1]⟩

abbrev nBuf : Space → Nat
  | .hbm => 53
  | .vmem => 17
  | .smem => 0
  | _ => 0

abbrev bufTy : (tb : Table) → Fin (tcTables nBuf tb) → BufTy
  | .hbm, ⟨0, _⟩ => ⟨S128x3x128x512, .f32⟩
  | .hbm, ⟨1, _⟩ => ⟨S128x3x128x512, .f32⟩
  | .hbm, ⟨2, _⟩ => ⟨S4096x10000, .f32⟩
  | .hbm, ⟨3, _⟩ => ⟨S4096, .i32⟩
  | .hbm, ⟨4, _⟩ => ⟨S16x128, .f32⟩
  | .hbm, ⟨5, _⟩ => ⟨S16x128, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S4096x1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S4096x1, .i32⟩
  | .hbm, ⟨24, _⟩ => ⟨S4096x1x1, .i32⟩
  | .hbm, ⟨25, _⟩ => ⟨S1, .i32⟩
  | .hbm, ⟨26, _⟩ => ⟨S_, .i32⟩
  | .hbm, ⟨27, _⟩ => ⟨S4096x1x1, .i32⟩
  | .hbm, ⟨28, _⟩ => ⟨S4096x1x1, .i1⟩
  | .hbm, ⟨29, _⟩ => ⟨S1x1x1, .i32⟩
  | .hbm, ⟨30, _⟩ => ⟨S4096x1x1, .i32⟩
  | .hbm, ⟨31, _⟩ => ⟨S4096x1x1, .i1⟩
  | .hbm, ⟨32, _⟩ => ⟨S4096x1x1, .i1⟩
  | .hbm, ⟨33, _⟩ => ⟨S_, .i1⟩
  | .hbm, ⟨34, _⟩ => ⟨S4096x1, .i1⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S16x128, .f32⟩
  | .hbm, ⟨40, _⟩ => ⟨S1x1, .f32⟩
  | .hbm, ⟨41, _⟩ => ⟨S_, .f32⟩
  | .hbm, ⟨42, _⟩ => ⟨S1x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S4x3x128x512, .f32⟩
  | .local _ .vmem, ⟨1, _⟩ => ⟨S4x3x128x512, .f32⟩
  | .local _ .vmem, ⟨2, _⟩ => ⟨S4x3x128x512, .f32⟩
  | .local _ .vmem, ⟨3, _⟩ => ⟨S4x3x128x512, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S128x10000, .f32⟩
  | .local _ .vmem, ⟨11, _⟩ => ⟨S128x10000, .f32⟩
  | .local _ .vmem, ⟨12, _⟩ => ⟨S128x1, .f32⟩
  | .local _ .vmem, ⟨13, _⟩ => ⟨S128x1, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | _, _ => ⟨S128x3x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_cst_0 : Ref sig .tc := ⟨.hbm, 47, rfl⟩
abbrev main_v20 : Ref sig .tc := ⟨.hbm, 48, rfl⟩
abbrev main_v21 : Ref sig .tc := ⟨.hbm, 49, rfl⟩
abbrev main_cst_1 : Ref sig .tc := ⟨.hbm, 50, rfl⟩
abbrev main_v22 : Ref sig .tc := ⟨.hbm, 51, rfl⟩
abbrev main_v23 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v171 : BitVec 1 := Scalar.cmpi .eq arg1 c15_i32
  let v172 : BitVec 32 := Scalar.extui v171
  let c0_i32_68 : BitVec 32 := 0#32
  let v173 : BitVec 1 := Scalar.cmpi .ne v172 c0_i32_68
  v173

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x3x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_10 : BitVec 32 := 0#32
  let v28 : BitVec 1 := Scalar.cmpi .ne v27 c0_i32_10
  v28

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S4x3x128x512_S4x3x128x512_0_0_0_0 : ∀ a, (![0, 0, 0, 0] : Fin 4 → Nat) a + S4x3x128x512.size a ≤ S4x3x128x512.size a
  h_S4x3x128x512 : 0 < S4x3x128x512.numel
  shapeCasts_S4x3x128x512_S1x4x3x128x512 : S4x3x128x512.ShapeCasts S1x4x3x128x512
  reduces_S1x4x3x128x512_S1 : S1x4x3x128x512.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  slices_S4x3x128x512_o0_0_0_0_S4x1x128x512 : S4x3x128x512.Slices ![0, 0, 0, 0] S4x1x128x512
  shapeCasts_S4x1x128x512_S4x128x512 : S4x1x128x512.ShapeCasts S4x128x512
  slices_S4x3x128x512_o0_1_0_0_S4x1x128x512 : S4x3x128x512.Slices ![0, 1, 0, 0] S4x1x128x512
  slices_S4x3x128x512_o0_2_0_0_S4x1x128x512 : S4x3x128x512.Slices ![0, 2, 0, 0] S4x1x128x512
  reduces_S4x128x512_S4x128 : S4x128x512.Reduces [2] S4x128
  shapeCasts_S4x128_S4x128x1 : S4x128.ShapeCasts S4x128x1
  reduces_S4x128x1_S4x1 : S4x128x1.Reduces [1] S4x1
  shapeCasts_S4x1_S4x1x1 : S4x1.ShapeCasts S4x1x1
  broadcasts_S4x1x1_S4x128x512 : S4x1x1.Broadcasts S4x128x512
  rotates_S4x128x512_d2 : S4x128x512.Rotates 2 none
  iota_S4x128x512_d2_w32 : S4x128x512.Iotas .tc 32 [2]
  rotates_S4x128x512_d1 : S4x128x512.Rotates 1 none
  iota_S4x128x512_d1_w32 : S4x128x512.Iotas .tc 32 [1]
  shapeCasts_S4x128x512_S1x4x128x512 : S4x128x512.ShapeCasts S1x4x128x512
  reduces_S1x4x128x512_S1 : S1x4x128x512.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  slices_S16x128_S1x1_0_0 : S16x128.Slices ![0, 0] S1x1
  shapeCasts_S1x1_S_ : S1x1.ShapeCasts S_
  slices_S16x128_S1x1_8_0 : S16x128.Slices ![8, 0] S1x1
  shapeCasts_S4096_S4096x1 : S4096.ShapeCasts S4096x1
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  inb_S128x10000_S128x10000_0_0 : ∀ a, (![0, 0] : Fin 2 → Nat) a + S128x10000.size a ≤ S128x10000.size a
  h_S128x10000 : 0 < S128x10000.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x10000_S128 : S128x10000.Reduces [1] S128
  shapeCasts_S128_S128x1 : S128.ShapeCasts S128x1
  broadcasts_S128x1_S128x10000 : S128x1.Broadcasts S128x10000
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  gather_S4096x10000_S4096x1x1_S4096x1_n_1_0_0_1_2_11_wf : GatherDims.WF S4096x10000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x128x512.size a ≤ S128x3x128x512.size a
  hwx0_0 : ∀ i : grid0.Coords, EltTy.bits .f32 = 32 ∨ (Rect.block (s := S128x3x128x512) S4x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x128x512.size a ≤ S128x3x128x512.size a
  hwx0_1 : ∀ i : grid0.Coords, EltTy.bits .f32 = 32 ∨ (Rect.block (s := S128x3x128x512) S4x3x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x10000.size a ≤ S4096x10000.size a
  hwx1_0 : ∀ i : grid1.Coords, EltTy.bits .f32 = 32 ∨ (Rect.block (s := S4096x10000) S128x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S4096x1.size a
  hwx1_1 : ∀ i : grid1.Coords, EltTy.bits .f32 = 32 ∨ (Rect.block (s := S4096x1) S128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S16x128.size a
  hwx1_2 : ∀ i : grid1.Coords, EltTy.bits .f32 = 32 ∨ (Rect.block (s := S16x128) S8x128.size (cc1_transform_2 i) (hinb1_2 i)).WholeWords (EltTy.packing .f32)

variable [Facts₀]

def gather_S4096x10000_S4096x1x1_S4096x1_n_1_0_0_1_2_11 : GatherDims S4096x10000 S4096x1x1 S4096x1 where
  offsetDims := []
  collapsedSliceDims := [1]
  operandBatchingDims := [0]
  startIndicesBatchingDims := [0]
  startIndexMap := [1]
  indexVectorDim := 2
  sliceSizes := ![1, 1]
  wf := gather_S4096x10000_S4096x1x1_S4096x1_n_1_0_0_1_2_11_wf

abbrev win0_0 : Pipeline.Window sig grid0 :=
  Pipeline.Window.ofSpec (Memref.whole main_arg0) S4x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S128x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S128x3x128x512 : Shape := ⟨4, ![128, 3, 128, 512]⟩
abbrev S4096x10000 : Shape := ⟨2, ![4096, 10000]⟩
abbrev S4096 : Shape := ⟨1, ![4096]⟩
abbrev S_ : Shape := ⟨0, ![]⟩
abbrev S128x1x128x512 : Shape := ⟨4, ![128, 1, 128, 512]⟩
abbrev S128x128x512 : Shape := ⟨3, ![128, 128, 512]⟩
abbrev S128 : Shape := ⟨1, ![128]⟩
abbrev S128x1x1 : Shape := ⟨3, ![128, 1, 1]⟩
abbrev S128x3x128x513 : Shape := ⟨4, ![128, 3, 128, 513]⟩
abbrev S128x3x129x512 : Shape := ⟨4, ![128, 3, 129, 512]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 210
  | .vmem => 0
  | .smem => 0
  | _ => 0

abbrev hbmTy0_0 (i : Nat) : BufTy := match i % 128 with
  | 0 => ⟨S128x3x128x512, .f32⟩
  | 1 => ⟨S128x3x128x512, .f32⟩
  | 2 => ⟨S4096x10000, .f32⟩
  | 3 => ⟨S4096, .i32⟩
  | 4 => ⟨S128x3x128x512, .f32⟩
  | 5 => ⟨S128x3x128x512, .f32⟩
  | 6 => ⟨S_, .f32⟩
  | 7 => ⟨S_, .f32⟩
  | 8 => ⟨S_, .f32⟩
  | 9 => ⟨S_, .f32⟩
  | 10 => ⟨S_, .f32⟩
  | 11 => ⟨S128x3x128x512, .f32⟩
  | 12 => ⟨S128x3x128x512, .f32⟩
  | 13 => ⟨S128x3x128x512, .f32⟩
  | 14 => ⟨S128x1x128x512, .f32⟩
  | 15 => ⟨S128x128x512, .f32⟩
  | 16 => ⟨S_, .f32⟩
  | 17 => ⟨S128x128x512, .f32⟩
  | 18 => ⟨S128x128x512, .f32⟩
  | 19 => ⟨S128x1x128x512, .f32⟩
  | 20 => ⟨S128x128x512, .f32⟩
  | 21 => ⟨S_, .f32⟩
  | 22 => ⟨S128x128x512, .f32⟩
  | 23 => ⟨S128x128x512, .f32⟩
  | 24 => ⟨S128x128x512, .f32⟩
  | 25 => ⟨S128x1x128x512, .f32⟩
  | 26 => ⟨S128x128x512, .f32⟩
  | 27 => ⟨S_, .f32⟩
  | 28 => ⟨S128x128x512, .f32⟩
  | 29 => ⟨S128x128x512, .f32⟩
  | 30 => ⟨S128x128x512, .f32⟩
  | 31 => ⟨S_, .f32⟩
  | 32 => ⟨S128x128x512, .f32⟩
  | 33 => ⟨S128x128x512, .f32⟩
  | 34 => ⟨S128x128x512, .f32⟩
  | 35 => ⟨S_, .f32⟩
  | 36 => ⟨S128, .f32⟩
  | 37 => ⟨S128x1x1, .f32⟩
  | 38 => ⟨S_, .f32⟩
  | 39 => ⟨S128x1x1, .f32⟩
  | 40 => ⟨S128x1x1, .f32⟩
  | 41 => ⟨S128x128x512, .f32⟩
  | 42 => ⟨S128x128x512, .i1⟩
  | 43 => ⟨S_, .f32⟩
  | 44 => ⟨S_, .f32⟩
  | 45 => ⟨S128x128x512, .f32⟩
  | 46 => ⟨S128x128x512, .f32⟩
  | 47 => ⟨S128x128x512, .f32⟩
  | 48 => ⟨S128x1x128x512, .f32⟩
  | 49 => ⟨S128x3x128x512, .f32⟩
  | 50 => ⟨S_, .f32⟩
  | 51 => ⟨S128x3x128x512, .f32⟩
  | 52 => ⟨S128x3x128x512, .f32⟩
  | 53 => ⟨S128x3x128x512, .f32⟩
  | 54 => ⟨S128x1x128x512, .f32⟩
  | 55 => ⟨S128x128x512, .f32⟩
  | 56 => ⟨S_, .f32⟩
  | 57 => ⟨S128x128x512, .f32⟩
  | 58 => ⟨S128x128x512, .f32⟩
  | 59 => ⟨S128x1x128x512, .f32⟩
  | 60 => ⟨S128x128x512, .f32⟩
  | 61 => ⟨S_, .f32⟩
  | 62 => ⟨S128x128x512, .f32⟩
  | 63 => ⟨S128x128x512, .f32⟩
  | 64 => ⟨S128x128x512, .f32⟩
  | 65 => ⟨S128x1x128x512, .f32⟩
  | 66 => ⟨S128x128x512, .f32⟩
  | 67 => ⟨S_, .f32⟩
  | 68 => ⟨S128x128x512, .f32⟩
  | 69 => ⟨S128x128x512, .f32⟩
  | 70 => ⟨S128x128x512, .f32⟩
  | 71 => ⟨S_, .f32⟩
  | 72 => ⟨S128x128x512, .f32⟩
  | 73 => ⟨S128x128x512, .f32⟩
  | 74 => ⟨S128x128x512, .f32⟩
  | 75 => ⟨S_, .f32⟩
  | 76 => ⟨S128, .f32⟩
  | 77 => ⟨S128x1x1, .f32⟩
  | 78 => ⟨S_, .f32⟩
  | 79 => ⟨S128x1x1, .f32⟩
  | 80 => ⟨S128x1x1, .f32⟩
  | 81 => ⟨S128x128x512, .f32⟩
  | 82 => ⟨S128x128x512, .i1⟩
  | 83 => ⟨S_, .f32⟩
  | 84 => ⟨S_, .f32⟩
  | 85 => ⟨S128x128x512, .f32⟩
  | 86 => ⟨S128x128x512, .f32⟩
  | 87 => ⟨S128x128x512, .f32⟩
  | 88 => ⟨S128x1x128x512, .f32⟩
  | 89 => ⟨S128x3x128x512, .f32⟩
  | 90 => ⟨S_, .i32⟩
  | 91 => ⟨S_, .f32⟩
  | 92 => ⟨S128x3x128x513, .f32⟩
  | 93 => ⟨S128x3x128x512, .f32⟩
  | 94 => ⟨S_, .i32⟩
  | 95 => ⟨S_, .f32⟩
  | 96 => ⟨S128x3x128x513, .f32⟩
  | 97 => ⟨S128x3x128x512, .f32⟩
  | 98 => ⟨S_, .i32⟩
  | 99 => ⟨S_, .f32⟩
  | 100 => ⟨S128x3x129x512, .f32⟩
  | 101 => ⟨S128x3x128x512, .f32⟩
  | 102 => ⟨S_, .i32⟩
  | 103 => ⟨S_, .f32⟩
  | 104 => ⟨S128x3x129x512, .f32⟩
  | 105 => ⟨S128x3x128x512, .f32⟩
  | 106 => ⟨S128x3x128x512, .f32⟩
  | 107 => ⟨S_, .f32⟩
  | 108 => ⟨S128x3x128x512, .f32⟩
  | 109 => ⟨S128x3x128x512, .f32⟩
  | 110 => ⟨S128x3x128x512, .f32⟩
  | 111 => ⟨S128x3x128x512, .f32⟩
  | 112 => ⟨S_, .f32⟩
  | 113 => ⟨S128x3x128x512, .f32⟩
  | 114 => ⟨S128x3x128x512, .f32⟩
  | 115 => ⟨S128x3x128x512, .f32⟩
  | 116 => ⟨S128x3x128x512, .f32⟩
  | 117 => ⟨S_, .f32⟩
  | 118 => ⟨S128x3x128x512, .f32⟩
  | 119 => ⟨S128x3x128x512, .f32⟩
  | 120 => ⟨S128x3x128x512, .f32⟩
  | 121 => ⟨S_, .i32⟩
  | 122 => ⟨S_, .f32⟩
  | 123 => ⟨S128x3x128x513, .f32⟩
  | 124 => ⟨S128x3x128x512, .f32⟩
  | 125 => ⟨S_, .i32⟩
  | 126 => ⟨S_, .f32⟩
  | 127 => ⟨S128x3x128x513, .f32⟩
  | _ => ⟨S128x3x128x512, .f32⟩

abbrev hbmTy0_1 (i : Nat) : BufTy := match i % 128 with
  | 0 => ⟨S128x3x128x512, .f32⟩
  | 1 => ⟨S_, .i32⟩
  | 2 => ⟨S_, .f32⟩
  | 3 => ⟨S128x3x129x512, .f32⟩
  | 4 => ⟨S128x3x128x512, .f32⟩
  | 5 => ⟨S_, .i32⟩
  | 6 => ⟨S_, .f32⟩
  | 7 => ⟨S128x3x129x512, .f32⟩
  | 8 => ⟨S128x3x128x512, .f32⟩
  | 9 => ⟨S128x3x128x512, .f32⟩
  | 10 => ⟨S_, .f32⟩
  | 11 => ⟨S128x3x128x512, .f32⟩
  | 12 => ⟨S128x3x128x512, .f32⟩
  | 13 => ⟨S128x3x128x512, .f32⟩
  | 14 => ⟨S128x3x128x512, .f32⟩
  | 15 => ⟨S_, .f32⟩
  | 16 => ⟨S128x3x128x512, .f32⟩
  | 17 => ⟨S128x3x128x512, .f32⟩
  | 18 => ⟨S128x3x128x512, .f32⟩
  | 19 => ⟨S128x3x128x512, .f32⟩
  | 20 => ⟨S_, .f32⟩
  | 21 => ⟨S128x3x128x512, .f32⟩
  | 22 => ⟨S128x3x128x512, .f32⟩
  | 23 => ⟨S128x3x128x512, .f32⟩
  | 24 => ⟨S128x3x128x512, .f32⟩
  | 25 => ⟨S128x3x128x512, .f32⟩
  | 26 => ⟨S128x3x128x512, .f32⟩
  | 27 => ⟨S_, .f32⟩
  | 28 => ⟨S_, .f32⟩
  | 29 => ⟨S_, .f32⟩
  | 30 => ⟨S_, .f32⟩
  | 31 => ⟨S_, .f32⟩
  | 32 => ⟨S4096, .f32⟩
  | 33 => ⟨S_, .f32⟩
  | 34 => ⟨S4096, .f32⟩
  | 35 => ⟨S4096, .f32⟩
  | 36 => ⟨S4096x1, .f32⟩
  | 37 => ⟨S4096x10000, .f32⟩
  | 38 => ⟨S4096x10000, .f32⟩
  | 39 => ⟨S4096x10000, .f32⟩
  | 40 => ⟨S_, .f32⟩
  | 41 => ⟨S4096, .f32⟩
  | 42 => ⟨S4096x1, .f32⟩
  | 43 => ⟨S4096x1, .f32⟩
  | 44 => ⟨S4096x10000, .f32⟩
  | 45 => ⟨S4096x10000, .f32⟩
  | 46 => ⟨S4096x1, .i32⟩
  | 47 => ⟨S_, .i32⟩
  | 48 => ⟨S4096x1, .i32⟩
  | 49 => ⟨S4096x1, .i1⟩
  | 50 => ⟨S_, .i32⟩
  | 51 => ⟨S4096x1, .i32⟩
  | 52 => ⟨S4096x1, .i32⟩
  | 53 => ⟨S4096x1, .i32⟩
  | 54 => ⟨S4096x1x1, .i32⟩
  | 55 => ⟨S1, .i32⟩
  | 56 => ⟨S_, .i32⟩
  | 57 => ⟨S4096x1x1, .i32⟩
  | 58 => ⟨S4096x1x1, .i1⟩
  | 59 => ⟨S1x1x1, .i32⟩
  | 60 => ⟨S4096x1x1, .i32⟩
  | 61 => ⟨S4096x1x1, .i1⟩
  | 62 => ⟨S4096x1x1, .i1⟩
  | 63 => ⟨S_, .i1⟩
  | 64 => ⟨S4096x1, .i1⟩
  | 65 => ⟨S4096x1, .f32⟩
  | 66 => ⟨S_, .f32⟩
  | 67 => ⟨S4096x1, .f32⟩
  | 68 => ⟨S4096x1, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | _ => ⟨S128x3x128x512, .f32⟩

abbrev hbmTy (i : Nat) : BufTy := match i / 128 with
  | 0 => hbmTy0_0 i
  | 1 => hbmTy0_1 i
  | _ => ⟨S128x3x128x512, .f32⟩

abbrev bufTy : (tb : Table) → Fin (tcTables nBuf tb) → BufTy
  | .hbm, ⟨i, _⟩ => hbmTy i
  | _, _ => ⟨S128x3x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_cst_9 : Ref sig .tc := ⟨.hbm, 44, rfl⟩
abbrev main_call0_v0 : Ref sig .tc := ⟨.hbm, 45, rfl⟩
abbrev main_call0_v1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_cst_18 : Ref sig .tc := ⟨.hbm, 84, rfl⟩
abbrev main_call1_v0 : Ref sig .tc := ⟨.hbm, 85, rfl⟩
abbrev main_call1_v1 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c : Ref sig .tc := ⟨.hbm, 90, rfl⟩
abbrev main_call2_v0 : Ref sig .tc := ⟨.hbm, 91, rfl⟩
abbrev main_v62 : Ref sig .tc := ⟨.hbm, 92, rfl⟩
abbrev main_v63 : Ref sig .tc := ⟨.hbm, 93, rfl⟩
abbrev main_c_19 : Ref sig .tc := ⟨.hbm, 94, rfl⟩
abbrev main_call3_v0 : Ref sig .tc := ⟨.hbm, 95, rfl⟩
abbrev main_v64 : Ref sig .tc := ⟨.hbm, 96, rfl⟩
abbrev main_v65 : Ref sig .tc := ⟨.hbm, 97, rfl⟩
abbrev main_c_20 : Ref sig .tc := ⟨.hbm, 98, rfl⟩
abbrev main_call4_v0 : Ref sig .tc := ⟨.hbm, 99, rfl⟩
abbrev main_v66 : Ref sig .tc := ⟨.hbm, 100, rfl⟩
abbrev main_v67 : Ref sig .tc := ⟨.hbm, 101, rfl⟩
abbrev main_c_21 : Ref sig .tc := ⟨.hbm, 102, rfl⟩
abbrev main_call5_v0 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_22 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_23 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_24 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_25 : Ref sig .tc := ⟨.hbm, 121, rfl⟩
abbrev main_call6_v0 : Ref sig .tc := ⟨.hbm, 122, rfl⟩
abbrev main_v82 : Ref sig .tc := ⟨.hbm, 123, rfl⟩
abbrev main_v83 : Ref sig .tc := ⟨.hbm, 124, rfl⟩
abbrev main_c_26 : Ref sig .tc := ⟨.hbm, 125, rfl⟩
abbrev main_call7_v0 : Ref sig .tc := ⟨.hbm, 126, rfl⟩
abbrev main_v84 : Ref sig .tc := ⟨.hbm, 127, rfl⟩
abbrev main_v85 : Ref sig .tc := ⟨.hbm, 128, rfl⟩
abbrev main_c_27 : Ref sig .tc := ⟨.hbm, 129, rfl⟩
abbrev main_call8_v0 : Ref sig .tc := ⟨.hbm, 130, rfl⟩
abbrev main_v86 : Ref sig .tc := ⟨.hbm, 131, rfl⟩
abbrev main_v87 : Ref sig .tc := ⟨.hbm, 132, rfl⟩
abbrev main_c_28 : Ref sig .tc := ⟨.hbm, 133, rfl⟩
abbrev main_call9_v0 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_29 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_30 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_31 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_32 : Ref sig .tc := ⟨.hbm, 155, rfl⟩
abbrev main_v105 : Ref sig .tc := ⟨.hbm, 156, rfl⟩
abbrev main_cst_33 : Ref sig .tc := ⟨.hbm, 157, rfl⟩
abbrev main_v106 : Ref sig .tc := ⟨.hbm, 158, rfl⟩
abbrev main_call10_cst : Ref sig .tc := ⟨.hbm, 159, rfl⟩
abbrev main_call10_v0 : Ref sig .tc := ⟨.hbm, 160, rfl⟩
abbrev main_call10_cst_0 : Ref sig .tc := ⟨.hbm, 161, rfl⟩
abbrev main_call10_v1 : Ref sig .tc := ⟨.hbm, 162, rfl⟩
abbrev main_call10_v2 : Ref sig .tc := ⟨.hbm, 163, rfl⟩
abbrev main_call10_v3 : Ref sig .tc := ⟨.hbm, 164, rfl⟩
abbrev main_call10_v4 : Ref sig .tc := ⟨.hbm, 165, rfl⟩
abbrev main_call10_v5 : Ref sig .tc := ⟨.hbm, 166, rfl⟩
abbrev main_call10_v6 : Ref sig .tc := ⟨.hbm, 167, rfl⟩
abbrev main_call10_cst_1 : Ref sig .tc := ⟨.hbm, 168, rfl⟩
abbrev main_call10_v7 : Ref sig .tc := ⟨.hbm, 169, rfl⟩
abbrev main_call10_v8 : Ref sig .tc := ⟨.hbm, 170, rfl⟩
abbrev main_call10_v9 : Ref sig .tc := ⟨.hbm, 171, rfl⟩
abbrev main_call10_v10 : Ref sig .tc := ⟨.hbm, 172, rfl⟩
abbrev main_v107 : Ref sig .tc := ⟨.hbm, 173, rfl⟩
abbrev main_v108 : Ref sig .tc := ⟨.hbm, 174, rfl⟩
abbrev main_call11_c : Ref sig .tc := ⟨.hbm, 175, rfl⟩
abbrev main_call11_v0 : Ref sig .tc := ⟨.hbm, 176, rfl⟩
abbrev main_call11_v1 : Ref sig .tc := ⟨.hbm, 177, rfl⟩
abbrev main_call11_c_0 : Ref sig .tc := ⟨.hbm, 178, rfl⟩
abbrev main_call11_v2 : Ref sig .tc := ⟨.hbm, 179, rfl⟩
abbrev main_call11_v3 : Ref sig .tc := ⟨.hbm, 180, rfl⟩
abbrev main_call11_v4 : Ref sig .tc := ⟨.hbm, 181, rfl⟩
abbrev main_call11_v5 : Ref sig .tc := ⟨.hbm, 182, rfl⟩
abbrev main_call11_c_1 : Ref sig .tc := ⟨.hbm, 183, rfl⟩
abbrev main_call11_c_2 : Ref sig .tc := ⟨.hbm, 184, rfl⟩
abbrev main_call11_v6 : Ref sig .tc := ⟨.hbm, 185, rfl⟩
abbrev main_call11_v7 : Ref sig .tc := ⟨.hbm, 186, rfl⟩
abbrev main_call11_v8 : Ref sig .tc := ⟨.hbm, 187, rfl⟩
abbrev main_call11_v9 : Ref sig .tc := ⟨.hbm, 188, rfl⟩
abbrev main_call11_v10 : Ref sig .tc := ⟨.hbm, 189, rfl⟩
abbrev main_call11_v11 : Ref sig .tc := ⟨.hbm, 190, rfl⟩
abbrev main_call11_c_3 : Ref sig .tc := ⟨.hbm, 191, rfl⟩
abbrev main_call11_v12 : Ref sig .tc := ⟨.hbm, 192, rfl⟩
abbrev main_call11_v13 : Ref sig .tc := ⟨.hbm, 193, rfl⟩
abbrev main_call11_cst : Ref sig .tc := ⟨.hbm, 194, rfl⟩
abbrev main_call11_v14 : Ref sig .tc := ⟨.hbm, 195, rfl⟩
abbrev main_v109 : Ref sig .tc := ⟨.hbm, 196, rfl⟩
abbrev main_cst_34 : Ref sig .tc := ⟨.hbm, 197, rfl⟩
abbrev main_v110 : Ref sig .tc := ⟨.hbm, 198, rfl⟩
abbrev main_cst_35 : Ref sig .tc := ⟨.hbm, 199, rfl⟩
abbrev main_v111 : Ref sig .tc := ⟨.hbm, 200, rfl⟩
abbrev main_v112 : Ref sig .tc := ⟨.hbm, 201, rfl⟩
abbrev main_cst_36 : Ref sig .tc := ⟨.hbm, 202, rfl⟩
abbrev main_v113 : Ref sig .tc := ⟨.hbm, 203, rfl⟩
abbrev main_cst_37 : Ref sig .tc := ⟨.hbm, 204, rfl⟩
abbrev main_v114 : Ref sig .tc := ⟨.hbm, 205, rfl⟩
abbrev main_v115 : Ref sig .tc := ⟨.hbm, 206, rfl⟩
abbrev main_cst_38 : Ref sig .tc := ⟨.hbm, 207, rfl⟩
abbrev main_v116 : Ref sig .tc := ⟨.hbm, 208, rfl⟩
abbrev main_v117 : Ref sig .tc := ⟨.hbm, 209, rfl⟩

abbrev nD : Nat := 1
abbrev τ : Topo := Topo.v7x

variable {F : FTy → Type} [FloatOps F]

class Facts₀ : Prop where
  reducesTo_S128x3x128x512_S_d0_1_2_3 : S128x3x128x512.ReducesTo [0, 1, 2, 3] S_
  h_S_ : 0 < S_.numel
  bcast_S_S128x3x128x512 : S_.BroadcastsInDim S128x3x128x512 (![] : Fin 0 → Fin S128x3x128x512.rank)
  slices_S128x3x128x512_S128x1x128x512_0_0_0_0 : S128x3x128x512.Slices ![0, 0, 0, 0] S128x1x128x512
  shapeCasts_S128x1x128x512_S128x128x512 : S128x1x128x512.ShapeCasts S128x128x512
  bcast_S_S128x128x512 : S_.BroadcastsInDim S128x128x512 (![] : Fin 0 → Fin S128x128x512.rank)
  slices_S128x3x128x512_S128x1x128x512_0_1_0_0 : S128x3x128x512.Slices ![0, 1, 0, 0] S128x1x128x512
  slices_S128x3x128x512_S128x1x128x512_0_2_0_0 : S128x3x128x512.Slices ![0, 2, 0, 0] S128x1x128x512
  reducesTo_S128x128x512_S128_d1_2 : S128x128x512.ReducesTo [1, 2] S128
  bcast_S128_S128x1x1_0 : S128.BroadcastsInDim S128x1x1 (![0] : Fin 1 → Fin S128x1x1.rank)
  bcast_S_S128x1x1 : S_.BroadcastsInDim S128x1x1 (![] : Fin 0 → Fin S128x1x1.rank)
  bcast_S128x1x1_S128x128x512_0_1_2 : S128x1x1.BroadcastsInDim S128x128x512 (![0, 1, 2] : Fin 3 → Fin S128x128x512.rank)
  bcast_S128x128x512_S128x1x128x512_0_2_3 : S128x128x512.BroadcastsInDim S128x1x128x512 (![0, 2, 3] : Fin 3 → Fin S128x1x128x512.rank)
  bcast_S128x1x128x512_S128x3x128x512_0_1_2_3 : S128x1x128x512.BroadcastsInDim S128x3x128x512 (![0, 1, 2, 3] : Fin 4 → Fin S128x3x128x512.rank)
  pads_S128x3x128x512_S128x3x128x513_000_000_000_010 : S128x3x128x512.Pads (![0, 0, 0, 0] : Fin 4 → Nat) ![0, 0, 0, 1] ![0, 0, 0, 0] S128x3x128x513
  slices_S128x3x128x513_S128x3x128x512_0_0_0_1 : S128x3x128x513.Slices ![0, 0, 0, 1] S128x3x128x512
  pads_S128x3x128x512_S128x3x128x513_000_000_000_100 : S128x3x128x512.Pads (![0, 0, 0, 1] : Fin 4 → Nat) ![0, 0, 0, 0] ![0, 0, 0, 0] S128x3x128x513
  slices_S128x3x128x513_S128x3x128x512_0_0_0_0 : S128x3x128x513.Slices ![0, 0, 0, 0] S128x3x128x512
  pads_S128x3x128x512_S128x3x129x512_000_000_100_000 : S128x3x128x512.Pads (![0, 0, 1, 0] : Fin 4 → Nat) ![0, 0, 0, 0] ![0, 0, 0, 0] S128x3x129x512
  slices_S128x3x129x512_S128x3x128x512_0_0_0_0 : S128x3x129x512.Slices ![0, 0, 0, 0] S128x3x128x512
  pads_S128x3x128x512_S128x3x129x512_000_000_010_000 : S128x3x128x512.Pads (![0, 0, 0, 0] : Fin 4 → Nat) ![0, 0, 1, 0] ![0, 0, 0, 0] S128x3x129x512
  slices_S128x3x129x512_S128x3x128x512_0_0_1_0 : S128x3x129x512.Slices ![0, 0, 1, 0] S128x3x128x512
  reducesTo_S4096x10000_S4096_d1 : S4096x10000.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10000_0_1 : S4096x1.BroadcastsInDim S4096x10000 (![0, 1] : Fin 2 → Fin S4096x10000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  gather_S4096x10000_S4096x1x1_S4096x1_n_1_0_0_1_2_11_wf : GatherDims.WF S4096x10000 S4096x1x1 S4096x1 [] [1] [0] [1] [0] 2 ![1, 1]

variable [Facts₀]

def gather_S4096x10000_S4096x1x1_S4096x1_n_1_0_0_1_2_11 : GatherDims S4096x10000 S4096x1x1 S4096x1 where
  offsetDims := []
  collapsedSliceDims := [1]
  operandBatchingDims := [0]
  startIndicesBatchingDims := [0]
  startIndexMap := [1]
  indexVectorDim := 2
  sliceSizes := ![1, 1]
  wf := gather_S4096x10000_S4096x1x1_S4096x1_n_1_0_0_1_2_11_wf

class Facts : Prop extends Facts₀ where

variable [Facts]
-- ==== Proof.KAcc.lean ====
/-
  The two kernels' accumulators as pure recursions over the grid's points.

  Each kernel keeps a running sum in a scratch buffer of 8 × 128 equal entries: at a point whose second grid
  coordinate is 0 (the point's number is a multiple of 16) the buffer is reset to zero before the point's tile
  is added, and otherwise the tile is added to what the point before left.  At the last point of each half the
  output block is the buffer divided by the term's count.
-/
import proofs.«424299_j59854664237538_3_alg».proof.Proof.Gen.Kernel.Skeleton

noncomputable section

namespace Cert.Kernel.Hand

open Idealize.ShloMosaic Cert.Kernel Cert.Kernel.Gen

variable {F : FTy → Type} [FloatOps F]

/-- The image kernel's gradient term of one tile: a scalar, from the two input blocks. -/
def lgp (x0 x1 : Vec F S4x3x128x512 .f32) : F .f32 :=
  k0_pay15 (k0_pay10 (k0_pay9 (k0_pay7 x0) (k0_pay8 x0)) (Scalar.ofBits .f32 0x358637BD#32))
    (k0_pay11 x1) (k0_pay12 x1) (k0_pay13 x1) (iota .tc S4x128x512 32 [2] Facts₀.iota_S4x128x512_d2_w32) k0_pay14

/-- The image kernel's first scratch buffer (squared differences) after point `n`, given each point's two input blocks. -/
def acc0a (x0 x1 : ℕ → Vec F S4x3x128x512 .f32) : ℕ → Vec F S8x128 .f32
  | 0 => k0_pay16 (k0_pay6 (x0 0) (x1 0)) k0_pay4
  | n + 1 => k0_pay16 (k0_pay6 (x0 (n + 1)) (x1 (n + 1))) (if (n + 1) % 16 = 0 then k0_pay4 else acc0a x0 x1 n)

/-- The image kernel's second scratch buffer (gradient differences) after point `n`. -/
def acc0b (x0 x1 : ℕ → Vec F S4x3x128x512 .f32) : ℕ → Vec F S8x128 .f32
  | 0 => k0_pay1 (lgp (x0 0) (x1 0)) k0_pay5
  | n + 1 => k0_pay1 (lgp (x0 (n + 1)) (x1 (n + 1))) (if (n + 1) % 16 = 0 then k0_pay5 else acc0b x0 x1 n)

/-- The cross-entropy kernel's scratch buffer after point `n`, given each point's logits block and picked-logit block. -/
def acc1 (x : ℕ → Vec F S128x10000 .f32) (g : ℕ → Vec F S128x1 .f32) : ℕ → Vec F S8x128 .f32
  | 0 => k1_pay2 (x 0) (g 0) k1_pay1
  | n + 1 => k1_pay2 (x (n + 1)) (g (n + 1)) (if (n + 1) % 16 = 0 then k1_pay1 else acc1 x g n)

end Cert.Kernel.Hand

end
-- ==== Proof.KRegion0.lean ====
/-
  The image kernel's region (the first of the two pallas_call regions), stated at the contents the region is
  entered with: each window's block at a grid point, the kernel body's run on whole staging buffers, the
  region's proof data and invariant, and the body obligation at every grid point.

  The kernel keeps two running sums in two scratch buffers.  At a point whose second grid coordinate is 0 both
  are reset before the point's tile is added; at every point the tile's terms are added; at a point whose second
  grid coordinate is 15 the two output blocks are stored from the scratch buffers.  Between points the invariant
  holds the two scratch buffers at the accumulators' values after the point before.
-/
import proofs.«424299_j59854664237538_3_alg».proof.Proof.Gen.Kernel.Launch
import proofs.«424299_j59854664237538_3_alg».proof.Proof.Gen.Kernel.Skeleton
import proofs.«424299_j59854664237538_3_alg».proof.Proof.Gen.Kernel.Points
import proofs.«424299_j59854664237538_3_alg».proof.Proof.KAcc
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid has a point. -/
theorem N0_pos : 0 < cfg0.N := by rw [show cfg0.N = 32 from N_0]; decide

/-- The first input's block as a sequence over all naturals: point `n` modulo the number of points. -/
def oblk0 (c : Dev nD) (n : ℕ) : Vec F S4x3x128x512 .f32 := iblk0 V c 0 ⟨n % cfg0.N, Nat.mod_lt _ N0_pos⟩
/-- The second input's block as a sequence over all naturals. -/
def tblk0 (c : Dev nD) (n : ℕ) : Vec F S4x3x128x512 .f32 := iblk0 V c 1 ⟨n % cfg0.N, Nat.mod_lt _ N0_pos⟩

/-- At a point of the grid the sequence is the point's block. -/
theorem oblk0_eq (c : Dev nD) (t : Fin cfg0.N) : oblk0 V c t.val = iblk0 V c 0 t := by
  have h : (⟨t.val % cfg0.N, Nat.mod_lt _ N0_pos⟩ : Fin cfg0.N) = t := Fin.ext (Nat.mod_eq_of_lt t.isLt)
  unfold oblk0; rw [h]
theorem tblk0_eq (c : Dev nD) (t : Fin cfg0.N) : tblk0 V c t.val = iblk0 V c 1 t := by
  have h : (⟨t.val % cfg0.N, Nat.mod_lt _ N0_pos⟩ : Fin cfg0.N) = t := Fin.ext (Nat.mod_eq_of_lt t.isLt)
  unfold tblk0; rw [h]

/-! ## The scratch buffers and the region's invariant -/

/-- The two scratch buffers, whole. -/
abbrev scM0 : Memref sig .tc .vmem S8x128 .f32 := Memref.whole cc0_scratch0
abbrev scM1 : Memref sig .tc .vmem S8x128 .f32 := Memref.whole cc0_scratch1

/-- The core's other scoped buffers that are no staging buffer of this region, each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The region invariant before position `n`: before the first point what the launch hands over (every scratch at
    anything); afterwards the first scratch at the first accumulator after point `n - 1`, the second scratch at the
    second accumulator there, the other scoped buffers at anything and the generator register at some state. -/
def PhiS0 (c : Dev nD) : ℕ → sProp 𝕄
  | 0 => Pipeline.ΦA spec0 c
  | n + 1 => iprop((owns (c : Thread nD τ) scM0 fullShare (acc0a (oblk0 V c) (tblk0 V c) n)
      ∗ owns (c : Thread nD τ) scM1 fullShare (acc0b (oblk0 V c) (tblk0 V c) n) ∗ rest0 (F := F) c) ∗ (∃ r, prngReg c r))

/-! ## The pipeline's proof data -/

/-- The proof data of the region on core `c`: the arrays as the region finds them; after the body at point `t` each
    input's buffer at its block, the first output's at the first accumulator's mean and the second output's at the
    second accumulator's; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (acc0a (oblk0 V c) (tblk0 V c) t.val)
    | ⟨3, _⟩ => k0_pay3 (acc0b (oblk0 V c) (tblk0 V c) t.val)
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (acc0a (oblk0 V c) (tblk0 V c) t.val) := by dsimp only [dat0]
theorem after0_3 (c : Dev nD) (t : Fin cfg0.N) : (dat0 V c).after 3 t = k0_pay3 (acc0b (oblk0 V c) (tblk0 V c) t.val) := by dsimp only [dat0]

/-! ## The body's branch conditions -/

/-- The condition of the body's first branch (the reset of the two scratch buffers), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second branch (the store of the two output blocks), from the grid coordinates. -/
abbrev cond0_1 (i : grid0.Coords) : Prop := k0_cond2 i = 1#1
/-- It holds at the points ≡ 15 (mod 16): decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the second branch is not taken the two output windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## Loads and stores through a whole buffer -/

/-- The zero offsets of a load or store through a whole buffer, of rank 2 and of rank 4. -/
theorem img_hz2 : (![0, 0] : Fin 2 → Nat) = fun _ => 0 := funext fun a => by fin_cases a <;> rfl
theorem img_hz4 : (![0, 0, 0, 0] : Fin 4 → Nat) = fun _ => 0 := funext fun a => by fin_cases a <;> rfl

/-- A buffer whose last store was whole reads that store's payload, whatever was stored before. -/
theorem img_read_writes_last {κ : Kind} {sp : Space} (v : View sig κ sp S8x128 .f32) (f : v.ty.Contents (Elt F))
    (inb : ∀ a, (![0, 0] : Fin 2 → Nat) a + S8x128.size a ≤ S8x128.size a) (w : Vec F S8x128 .f32)
    (L : List (View.Piece (Elt F) S8x128 .f32)) :
    v.read (Elt F) (v.writes (Elt F) f ((⟨Rect.unit (s := S8x128) ![0, 0] S8x128.size inb, w⟩ : View.Piece (Elt F) S8x128 .f32) :: L)) = w := by
  rw [View.read_writes_eq_canon _ _ _ (fun y => ⟨_, List.mem_cons_self, View.mem_set_unit_zero img_hz2 inb y⟩),
    View.canon_cons_unit_zero img_hz2]

set_option maxHeartbeats 4000000 in
/-- The body at a point whose second coordinate is 0: both scratch buffers are reset, then the tile's terms added; the output buffers are left as found. -/
theorem imgRun_A (c : Dev nD) (i : grid0.Coords) (arg2 : Memref sig .tc .vmem S4x3x128x512 .f32) (harg2 : arg2.IsWhole) (arg3 : Memref sig .tc .vmem S4x3x128x512 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 x1 : Vec F S4x3x128x512 .f32) (y4 y5 s0 s1 : Vec F S8x128 .f32) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare y4 ∗ owns (c : Thread nD τ) arg5 fullShare y5
            ∗ owns (c : Thread nD τ) arg6 fullShare (k0_pay16 (k0_pay6 x0 x1) k0_pay4)
            ∗ owns (c : Thread nD τ) arg7 fullShare (k0_pay1 (lgp x0 x1) k0_pay5)) -∗ K ⟨⟩))
      ⊢ wp frame (wpE (defs₀ (F := F)) Variants.none c none) E (cc0__image_kernel i arg2 harg2 arg3 harg3 arg4 harg4 arg5 harg5 arg6 harg6 arg7 harg7) K := by
  simp only [cc0__image_kernel_eq_skeleton]; unfold cc0__image_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  iexists _; isplitr
  swap; · iexact H7
  ipureintro
  refine (img_read_writes_last _ _ _ _ _).trans ?_
  (try dsimp only)
  sl_unfold_words
  simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl

set_option maxHeartbeats 4000000 in
/-- The body at a point whose second coordinate is neither 0 nor 15: the tile's terms are added to what the scratch buffers held; the output buffers are left as found. -/
theorem imgRun_B (c : Dev nD) (i : grid0.Coords) (arg2 : Memref sig .tc .vmem S4x3x128x512 .f32) (harg2 : arg2.IsWhole) (arg3 : Memref sig .tc .vmem S4x3x128x512 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 x1 : Vec F S4x3x128x512 .f32) (y4 y5 s0 s1 : Vec F S8x128 .f32) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare y4 ∗ owns (c : Thread nD τ) arg5 fullShare y5
            ∗ owns (c : Thread nD τ) arg6 fullShare (k0_pay16 (k0_pay6 x0 x1) s0)
            ∗ owns (c : Thread nD τ) arg7 fullShare (k0_pay1 (lgp x0 x1) s1)) -∗ K ⟨⟩))
      ⊢ wp frame (wpE (defs₀ (F := F)) Variants.none c none) E (cc0__image_kernel i arg2 harg2 arg3 harg3 arg4 harg4 arg5 harg5 arg6 harg6 arg7 harg7) K := by
  simp only [cc0__image_kernel_eq_skeleton]; unfold cc0__image_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  iexists _; isplitr
  swap; · iexact H7
  ipureintro
  refine (img_read_writes_last _ _ _ _ _).trans ?_
  (try dsimp only)
  sl_unfold_words
  simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl

set_option maxHeartbeats 4000000 in
/-- The body at a point whose second coordinate is 15: the tile's terms are added to what the scratch buffers held, and the two output buffers are stored whole from the two scratch buffers. -/
theorem imgRun_C (c : Dev nD) (i : grid0.Coords) (arg2 : Memref sig .tc .vmem S4x3x128x512 .f32) (harg2 : arg2.IsWhole) (arg3 : Memref sig .tc .vmem S4x3x128x512 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 x1 : Vec F S4x3x128x512 .f32) (y4 y5 s0 s1 : Vec F S8x128 .f32) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare (k0_pay2 (k0_pay16 (k0_pay6 x0 x1) s0))
            ∗ owns (c : Thread nD τ) arg5 fullShare (k0_pay3 (k0_pay1 (lgp x0 x1) s1))
            ∗ owns (c : Thread nD τ) arg6 fullShare (k0_pay16 (k0_pay6 x0 x1) s0)
            ∗ owns (c : Thread nD τ) arg7 fullShare (k0_pay1 (lgp x0 x1) s1)) -∗ K ⟨⟩))
      ⊢ wp frame (wpE (defs₀ (F := F)) Variants.none c none) E (cc0__image_kernel i arg2 harg2 arg3 harg3 arg4 harg4 arg5 harg5 arg6 harg6 arg7 harg7) K := by
  simp only [cc0__image_kernel_eq_skeleton]; unfold cc0__image_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  isplitl [H5]
  · iexists _; isplitr
    swap; · iexact H5
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  isplitl [H6]
  · iexists _; isplitr
    swap; · iexact H6
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  iexists _; isplitr
  swap; · iexact H7
  ipureintro
  refine (img_read_writes_last _ _ _ _ _).trans ?_
  (try dsimp only)
  sl_unfold_words
  simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl

/-! ## The accumulators, one point at a time -/

/-- The first accumulator after point `n`: the tile's term added to the reset value at a point whose number is a
    multiple of 16, to the accumulator after the point before otherwise. -/
theorem acc0a_eq (x0 x1 : ℕ → Vec F S4x3x128x512 .f32) (n : ℕ) :
    acc0a x0 x1 n = k0_pay16 (k0_pay6 (x0 n) (x1 n)) (if n % 16 = 0 then k0_pay4 else acc0a x0 x1 (n - 1)) := by
  cases n with
  | zero => rfl
  | succ n => rfl

/-- The second accumulator after point `n`, likewise. -/
theorem acc0b_eq (x0 x1 : ℕ → Vec F S4x3x128x512 .f32) (n : ℕ) :
    acc0b x0 x1 n = k0_pay1 (lgp (x0 n) (x1 n)) (if n % 16 = 0 then k0_pay5 else acc0b x0 x1 (n - 1)) := by
  cases n with
  | zero => rfl
  | succ n => rfl

/-! ## The invariant, unfolded -/

/-- After point `n` (before point `n + 1`): the scratch buffers at that point's accumulators. -/
theorem PhiS0_succ (c : Dev nD) (n : ℕ) :
    PhiS0 V c (n + 1) = iprop((owns (c : Thread nD τ) scM0 fullShare (acc0a (oblk0 V c) (tblk0 V c) n)
      ∗ owns (c : Thread nD τ) scM1 fullShare (acc0b (oblk0 V c) (tblk0 V c) n) ∗ rest0 (F := F) c) ∗ (∃ r, prngReg c r)) := rfl

/-- Before a point that is not the first: the scratch buffers at what the point before left. -/
theorem PhiS0_pos (c : Dev nD) (n : ℕ) (hn : n ≠ 0) :
    PhiS0 V c n = iprop((owns (c : Thread nD τ) scM0 fullShare (acc0a (oblk0 V c) (tblk0 V c) (n - 1))
      ∗ owns (c : Thread nD τ) scM1 fullShare (acc0b (oblk0 V c) (tblk0 V c) (n - 1)) ∗ rest0 (F := F) c) ∗ (∃ r, prngReg c r)) := by
  cases n with
  | zero => exact absurd rfl hn
  | succ n => rfl

/-- What the launch hands over, with the two scratch buffers as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ rest0 (F := F) c) ∗ (∃ r, prngReg c r)) := by
  unfold Pipeline.ΦA rest0; rw [scopedRest0_eq]; simp only [scM0, scM1, owns_whole]; try rfl

/-! ## The input windows' buffers at a point -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at point `t`, as the pipeline passes it to the body, and its wholeness. -/
abbrev ms0_0 (t : Fin cfg0.N) : Memref sig .tc .vmem S4x3x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their blocks; the point's second coordinate says which of the three
    runs applies; the invariant hands the body the two scratch buffers at what the point before left (at anything at the
    first point) and takes them back at this point's accumulators; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) from rfl, PhiS0_succ]
  rw [show (dat0 V c).Φ t.castSucc = PhiS0 V c t.val from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 32 := lt_of_lt_of_eq t.isLt (show cfg0.N = 32 from N_0)
  by_cases h1 : t.val % 16 = 15
  · have h0 : ¬t.val % 16 = 0 := by omega
    have hz : t.val ≠ 0 := fun h => by rw [h] at h1; omega
    have hc0 : ¬cond0_0 (grid0.coords t) := fun h => h0 ((hcond0_0 t).mp h)
    have hc1 : cond0_1 (grid0.coords t) := (hcond0_1 t).mpr h1
    rw [show (dat0 V c).leavesExact 2 t = owns (c : Thread nD τ) (ms0_2 t) fullShare ((dat0 V c).after 2 t) from by
      unfold Dat.leavesExact; rw [liveAt0_2 t hc1], after0_2]
    rw [show (dat0 V c).leavesExact 3 t = owns (c : Thread nD τ) (ms0_3 t) fullShare ((dat0 V c).after 3 t) from by
      unfold Dat.leavesExact; rw [liveAt0_3 t hc1], after0_3]
    rw [acc0a_eq, acc0b_eq, oblk0_eq, tblk0_eq, if_neg h0, if_neg h0, PhiS0_pos V c _ hz]
    iintro ⟨⟨⟨HS0, HS1, Hr⟩, Hg⟩, Ho, ⟨%d0, H0⟩, ⟨%d1, H1⟩, ⟨%d2, H2⟩, ⟨%d3, H3⟩⟩
    iapply (imgRun_C c (grid0.coords t) _ _ _ _ _ _ _ _ _ _ _ _ hc0 hc1 (iblk0 V c 0 t) (iblk0 V c 1 t) _ _ _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    iexact H3
  · have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    rw [acc0a_eq, acc0b_eq, oblk0_eq, tblk0_eq]
    by_cases h0 : t.val % 16 = 0
    · have hc0 : cond0_0 (grid0.coords t) := (hcond0_0 t).mpr h0
      rw [if_pos h0, if_pos h0]
      by_cases hz : t.val = 0
      · rw [hz, show PhiS0 V c 0 = Pipeline.ΦA spec0 c from rfl, PhiA0_eq]
        iintro ⟨⟨⟨⟨%e0, HS0⟩, ⟨%e1, HS1⟩, Hr⟩, Hg⟩, Ho, ⟨%d0, H0⟩, ⟨%d1, H1⟩, ⟨%d2, H2⟩, ⟨%d3, H3⟩⟩
        iapply (imgRun_A c (grid0.coords t) _ _ _ _ _ _ _ _ _ _ _ _ hc0 hc1 (iblk0 V c 0 t) (iblk0 V c 1 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hr Hg]
        · isplitl [HS0 HS1 Hr]
          · isplitl [HS0]; · iexact HS0
            isplitl [HS1]; · iexact HS1
            iexact Hr
          iexact Hg
        isplitl [Ho]; · iexact Ho
        isplitl [H0]; · iexact H0
        isplitl [H1]; · iexact H1
        isplitl [H2]; · iexists _; iexact H2
        iexists _; iexact H3
      · rw [PhiS0_pos V c _ hz]
        iintro ⟨⟨⟨HS0, HS1, Hr⟩, Hg⟩, Ho, ⟨%d0, H0⟩, ⟨%d1, H1⟩, ⟨%d2, H2⟩, ⟨%d3, H3⟩⟩
        iapply (imgRun_A c (grid0.coords t) _ _ _ _ _ _ _ _ _ _ _ _ hc0 hc1 (iblk0 V c 0 t) (iblk0 V c 1 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hr Hg]
        · isplitl [HS0 HS1 Hr]
          · isplitl [HS0]; · iexact HS0
            isplitl [HS1]; · iexact HS1
            iexact Hr
          iexact Hg
        isplitl [Ho]; · iexact Ho
        isplitl [H0]; · iexact H0
        isplitl [H1]; · iexact H1
        isplitl [H2]; · iexists _; iexact H2
        iexists _; iexact H3
    · have hc0 : ¬cond0_0 (grid0.coords t) := fun h => h0 ((hcond0_0 t).mp h)
      have hz : t.val ≠ 0 := fun h => by rw [h] at h0; exact h0 rfl
      rw [if_neg h0, if_neg h0, PhiS0_pos V c _ hz]
      iintro ⟨⟨⟨HS0, HS1, Hr⟩, Hg⟩, Ho, ⟨%d0, H0⟩, ⟨%d1, H1⟩, ⟨%d2, H2⟩, ⟨%d3, H3⟩⟩
      iapply (imgRun_B c (grid0.coords t) _ _ _ _ _ _ _ _ _ _ _ _ hc0 hc1 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives back what the launch handed over: the scratch buffers' named contents
    are forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c _ (by have : cfg0.N = 32 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Hand

end
-- ==== Proof.KRegion1.lean ====
/-
  Region 1: the cross-entropy kernel's half of the frame, at the buffer contents the region is entered with.

  The kernel keeps a running sum in a scratch buffer of 8 × 128 entries.  At a point whose second grid coordinate is 0
  the buffer is reset to zero; at every point the point's term (from the logits block and the picked-logit block) is
  added; at a point whose second grid coordinate is 15 the output block is stored as the buffer divided by the count.
  So after point n the scratch holds the accumulator of Acc (`acc1`) at n, and the output block, where it is
  written back, is that accumulator divided by the count.
-/
import proofs.«424299_j59854664237538_3_alg».proof.Proof.Gen.Kernel.Launch
import proofs.«424299_j59854664237538_3_alg».proof.Proof.Gen.Kernel.Skeleton
import proofs.«424299_j59854664237538_3_alg».proof.Proof.Gen.Kernel.Points
import proofs.«424299_j59854664237538_3_alg».proof.Proof.KAcc
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid has a point. -/
theorem N1_pos : 0 < cfg1.N := lt_of_lt_of_eq (by decide : 0 < 32) N_1.symm

/-- The logits block of point `n` (points counted modulo the grid's 32). -/
def xblk1 (c : Dev nD) (n : ℕ) : Vec F S128x10000 .f32 := iblk1 V c 0 ⟨n % cfg1.N, Nat.mod_lt _ N1_pos⟩

/-- The picked-logit block of point `n`. -/
def gblk1 (c : Dev nD) (n : ℕ) : Vec F S128x1 .f32 := iblk1 V c 1 ⟨n % cfg1.N, Nat.mod_lt _ N1_pos⟩

theorem xblk1_eq (c : Dev nD) (t : Fin cfg1.N) : xblk1 V c t.val = iblk1 V c 0 t := by
  have h : ∀ s : Fin cfg1.N, s = t → (iblk1 V c 0 s : Vec F S128x10000 .f32) = iblk1 V c 0 t := fun s hs => by subst hs; rfl
  exact h _ (Fin.ext (Nat.mod_eq_of_lt t.isLt))

theorem gblk1_eq (c : Dev nD) (t : Fin cfg1.N) : gblk1 V c t.val = iblk1 V c 1 t := by
  have h : ∀ s : Fin cfg1.N, s = t → (iblk1 V c 1 s : Vec F S128x1 .f32) = iblk1 V c 1 t := fun s hs => by subst hs; rfl
  exact h _ (Fin.ext (Nat.mod_eq_of_lt t.isLt))

/-! ## The invariant between points -/

/-- The scratch operand: a whole scoped buffer of the kernel's own. -/
abbrev ceScM : Memref sig .tc .vmem S8x128 .f32 := Memref.whole cc1_scratch0

/-- A scoped buffer of the core, whole, at some contents. -/
def ceAnyAt (c : Dev nD) (b : Ref sig .tc) : sProp 𝕄 :=
  iprop(∃ f : Buf (Elt F) ((c : Thread nD τ).loc b), ((c : Thread nD τ).loc b) ↦{fullShare} f)

/-- The core's scoped buffers that are neither this region's staging buffers nor its scratch, each at some contents. -/
def others1 (c : Dev nD) : sProp 𝕄 :=
  iprop(ceAnyAt c cc0_stg0_0 ∗ ceAnyAt c cc0_stg0_1 ∗ ceAnyAt c cc0_stg1_0 ∗ ceAnyAt c cc0_stg1_1 ∗ ceAnyAt c cc0_stg2_0 ∗ ceAnyAt c cc0_stg2_1
    ∗ ceAnyAt c cc0_stg3_0 ∗ ceAnyAt c cc0_stg3_1 ∗ ceAnyAt c cc0_scratch0 ∗ ceAnyAt c cc0_scratch1)

/-- The invariant before position `n`: before the first point what the launch hands the region; afterwards the scratch
    at the accumulator after point `n - 1`, the other scoped buffers at anything, the generator register at some state. -/
def PhiS1 (c : Dev nD) : ℕ → sProp 𝕄
  | 0 => Pipeline.ΦA spec1 c
  | n + 1 => iprop(owns (c : Thread nD τ) ceScM fullShare (acc1 (xblk1 V c) (gblk1 V c) n) ∗ others1 c ∗ (∃ r, prngReg c r))

/-! ## The proof data -/

/-- The proof data of the region on core `c`: the arrays as the region finds them; after the body at point `t` each
    input's buffer at its block and the output's at the accumulator after `t` divided by the count. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 (xblk1 V c) (gblk1 V c) t.val)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 (xblk1 V c) (gblk1 V c) t.val) := by
  dsimp only [dat1]

/-! ## The body's branch conditions -/

/-- The condition of the body's first conditional (the reset), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The condition of the body's second conditional (the output's store), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The zero offsets, as a function. -/
theorem hz1 : (![0, 0] : Fin 2 → Nat) = fun _ => 0 := by funext a; fin_cases a <;> rfl

/-- One store through the whole buffer covers it. -/
theorem ceCover1 (w : Vec F S8x128 .f32) (y : S8x128.Idx) :
    ∃ pc ∈ ([⟨Rect.unit (s := S8x128) ![0, 0] S8x128.size inb_S8x128_S8x128_0_0, w⟩] : List (View.Piece (Elt F) S8x128 .f32)), y ∈ pc.1.set :=
  ⟨_, List.mem_singleton_self _, View.mem_set_unit_zero hz1 inb_S8x128_S8x128_0_0 y⟩

/-- Two stores through the whole buffer cover it. -/
theorem ceCover2 (w w' : Vec F S8x128 .f32) (y : S8x128.Idx) :
    ∃ pc ∈ ([⟨Rect.unit (s := S8x128) ![0, 0] S8x128.size inb_S8x128_S8x128_0_0, w⟩, ⟨Rect.unit (s := S8x128) ![0, 0] S8x128.size inb_S8x128_S8x128_0_0, w'⟩] : List (View.Piece (Elt F) S8x128 .f32)), y ∈ pc.1.set :=
  ⟨_, List.mem_cons_self, View.mem_set_unit_zero hz1 inb_S8x128_S8x128_0_0 y⟩

/-! ## The body's runs, case by case -/

set_option maxHeartbeats 1000000 in
/-- A point that neither begins nor ends a run of 16: the scratch at `s` is left at `s` plus the point's term; the
    output's buffer is not touched. -/
theorem ceRun1_mid (c : Dev nD) (E : Set ℕ) (i : grid1.Coords) (arg2 : Memref sig .tc .vmem S128x10000 .f32) (harg2 : arg2.IsWhole) (arg3 : Memref sig .tc .vmem S128x1 .f32) (harg3 : arg3.IsWhole) (arg4 : Memref sig .tc .vmem S8x128 .f32) (harg4 : arg4.IsWhole) (arg5 : Memref sig .tc .vmem S8x128 .f32) (harg5 : arg5.IsWhole)
    (hc0 : ¬cond1_0 i) (hc1 : ¬cond1_1 i)
    (x : Vec F S128x10000 .f32) (g : Vec F S128x1 .f32) (o s : Vec F S8x128 .f32) (K : PUnit → sProp 𝕄) :
    iprop(owns (c : Thread nD τ) arg2 fullShare x ∗ owns (c : Thread nD τ) arg3 fullShare g ∗ owns (c : Thread nD τ) arg4 fullShare o ∗ owns (c : Thread nD τ) arg5 fullShare s
        ∗ (iprop(owns (c : Thread nD τ) arg2 fullShare x ∗ owns (c : Thread nD τ) arg3 fullShare g ∗ owns (c : Thread nD τ) arg4 fullShare o ∗ owns (c : Thread nD τ) arg5 fullShare (k1_pay2 x g s)) -∗ K ⟨⟩))
      ⊢ wp frame (wpE (defs₀ (F := F)) Variants.none c none) E (cc1__ce_kernel i arg2 harg2 arg3 harg3 arg4 harg4 arg5 harg5) K := by
  simp only [cc1__ce_kernel_eq_skeleton]; unfold cc1__ce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (ceCover1 _), View.canon_unit_zero hz1]
  simp only [View.readAt_eq_ld, View.ld_unit_zero (S := S128x10000) hz1, View.ld_unit_zero (S := S128x1) hz1, View.ld_unit_zero (S := S8x128) hz1]

set_option maxHeartbeats 1000000 in
/-- A point that begins a run of 16: the scratch, at anything, is left at zero plus the point's term; the output's
    buffer is not touched. -/
theorem ceRun1_first (c : Dev nD) (E : Set ℕ) (i : grid1.Coords) (arg2 : Memref sig .tc .vmem S128x10000 .f32) (harg2 : arg2.IsWhole) (arg3 : Memref sig .tc .vmem S128x1 .f32) (harg3 : arg3.IsWhole) (arg4 : Memref sig .tc .vmem S8x128 .f32) (harg4 : arg4.IsWhole) (arg5 : Memref sig .tc .vmem S8x128 .f32) (harg5 : arg5.IsWhole)
    (hc0 : cond1_0 i) (hc1 : ¬cond1_1 i)
    (x : Vec F S128x10000 .f32) (g : Vec F S128x1 .f32) (o : Vec F S8x128 .f32) (K : PUnit → sProp 𝕄) :
    iprop(owns (c : Thread nD τ) arg2 fullShare x ∗ owns (c : Thread nD τ) arg3 fullShare g ∗ owns (c : Thread nD τ) arg4 fullShare o ∗ (∃ d, owns (c : Thread nD τ) arg5 fullShare d)
        ∗ (iprop(owns (c : Thread nD τ) arg2 fullShare x ∗ owns (c : Thread nD τ) arg3 fullShare g ∗ owns (c : Thread nD τ) arg4 fullShare o ∗ owns (c : Thread nD τ) arg5 fullShare (k1_pay2 x g k1_pay1)) -∗ K ⟨⟩))
      ⊢ wp frame (wpE (defs₀ (F := F)) Variants.none c none) E (cc1__ce_kernel i arg2 harg2 arg3 harg3 arg4 harg4 arg5 harg5) K := by
  simp only [cc1__ce_kernel_eq_skeleton]; unfold cc1__ce_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (ceCover2 _ _), View.canon_cons_unit_zero hz1]
  simp only [View.readAt_eq_ld, View.ld_unit_zero (S := S128x10000) hz1, View.ld_unit_zero (S := S128x1) hz1, View.ld_unit_zero (S := S8x128) hz1, View.readCov_unit_zero (S := S8x128) _ hz1]

set_option maxHeartbeats 1000000 in
/-- A point that ends a run of 16: the scratch at `s` is left at `s` plus the point's term, and the output's buffer
    at that divided by the count. -/
theorem ceRun1_last (c : Dev nD) (E : Set ℕ) (i : grid1.Coords) (arg2 : Memref sig .tc .vmem S128x10000 .f32) (harg2 : arg2.IsWhole) (arg3 : Memref sig .tc .vmem S128x1 .f32) (harg3 : arg3.IsWhole) (arg4 : Memref sig .tc .vmem S8x128 .f32) (harg4 : arg4.IsWhole) (arg5 : Memref sig .tc .vmem S8x128 .f32) (harg5 : arg5.IsWhole)
    (hc0 : ¬cond1_0 i) (hc1 : cond1_1 i)
    (x : Vec F S128x10000 .f32) (g : Vec F S128x1 .f32) (s : Vec F S8x128 .f32) (K : PUnit → sProp 𝕄) :
    iprop(owns (c : Thread nD τ) arg2 fullShare x ∗ owns (c : Thread nD τ) arg3 fullShare g ∗ (∃ d, owns (c : Thread nD τ) arg4 fullShare d) ∗ owns (c : Thread nD τ) arg5 fullShare s
        ∗ (iprop(owns (c : Thread nD τ) arg2 fullShare x ∗ owns (c : Thread nD τ) arg3 fullShare g ∗ owns (c : Thread nD τ) arg4 fullShare (k1_pay3 (k1_pay2 x g s)) ∗ owns (c : Thread nD τ) arg5 fullShare (k1_pay2 x g s)) -∗ K ⟨⟩))
      ⊢ wp frame (wpE (defs₀ (F := F)) Variants.none c none) E (cc1__ce_kernel i arg2 harg2 arg3 harg3 arg4 harg4 arg5 harg5) K := by
  simp only [cc1__ce_kernel_eq_skeleton]; unfold cc1__ce_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (ceCover1 _), View.canon_unit_zero hz1]
    simp only [View.readAt_eq_ld, View.ld_unit_zero (S := S128x10000) hz1, View.ld_unit_zero (S := S128x1) hz1, View.ld_unit_zero (S := S8x128) hz1, View.readCov_unit_zero (S := S8x128) _ hz1]
  iexists _; isplitr
  swap; · iexact HS
  ipureintro
  sl_unfold_words
  rw [View.read_writes_eq_canon _ _ _ (ceCover1 _), View.canon_unit_zero hz1]
  simp only [View.readAt_eq_ld, View.ld_unit_zero (S := S128x10000) hz1, View.ld_unit_zero (S := S128x1) hz1, View.ld_unit_zero (S := S8x128) hz1]

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional fails the output window is idle and its block is not written back; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- where it holds the window is live. -/
theorem liveAt1_2 : ∀ t : Fin cfg1.N, cond1_1 (grid1.coords t) → cfg1.idle 2 (grid1.coords t) = false := by decide +kernel

/-! ## The accumulator, unfolded one point -/

theorem ceAcc_first (x : ℕ → Vec F S128x10000 .f32) (g : ℕ → Vec F S128x1 .f32) (n : ℕ) (h : n % 16 = 0) :
    acc1 x g n = k1_pay2 (x n) (g n) k1_pay1 := by
  cases n with
  | zero => rfl
  | succ n => rw [acc1, if_pos h]

theorem ceAcc_next (x : ℕ → Vec F S128x10000 .f32) (g : ℕ → Vec F S128x1 .f32) (n : ℕ) (h : ¬n % 16 = 0) :
    acc1 x g n = k1_pay2 (x n) (g n) (acc1 x g (n - 1)) := by
  cases n with
  | zero => exact absurd (Nat.zero_mod _) h
  | succ n => rw [acc1, if_neg h, Nat.add_sub_cancel]

/-! ## The invariant, unfolded -/

theorem PhiS1_zero (c : Dev nD) (n : ℕ) (hz : n = 0) : PhiS1 V c n = Pipeline.ΦA spec1 c := by
  subst hz; rfl

theorem PhiS1_succ (c : Dev nD) (n : ℕ) :
    PhiS1 V c (n + 1) = iprop(owns (c : Thread nD τ) ceScM fullShare (acc1 (xblk1 V c) (gblk1 V c) n) ∗ others1 c ∗ (∃ r, prngReg c r)) := rfl

theorem PhiS1_pos (c : Dev nD) (n : ℕ) (hz : n ≠ 0) :
    PhiS1 V c n = iprop(owns (c : Thread nD τ) ceScM fullShare (acc1 (xblk1 V c) (gblk1 V c) (n - 1)) ∗ others1 c ∗ (∃ r, prngReg c r)) := by
  cases n with
  | zero => exact absurd rfl hz
  | succ n => rfl

/-- What the launch hands the region, with the scratch as a memref owned at some contents. -/
theorem PhiA1_eq (c : Dev nD) :
    (Pipeline.ΦA spec1 c : sProp 𝕄)
      = iprop((ceAnyAt c cc0_stg0_0 ∗ ceAnyAt c cc0_stg0_1 ∗ ceAnyAt c cc0_stg1_0 ∗ ceAnyAt c cc0_stg1_1 ∗ ceAnyAt c cc0_stg2_0 ∗ ceAnyAt c cc0_stg2_1 ∗ ceAnyAt c cc0_stg3_0 ∗ ceAnyAt c cc0_stg3_1 ∗ ceAnyAt c cc0_scratch0 ∗ ceAnyAt c cc0_scratch1 ∗ (∃ d, owns (c : Thread nD τ) ceScM fullShare d)) ∗ (∃ r, prngReg c r)) := by
  unfold Pipeline.ΦA ceAnyAt; rw [scopedRest1_eq]; simp only [ceScM, owns_whole]; rfl

/-- It is the scratch at some contents, the other scoped buffers and the generator register; -/
theorem PhiA1_split (c : Dev nD) :
    (Pipeline.ΦA spec1 c : sProp 𝕄) ⊢ iprop((∃ d, owns (c : Thread nD τ) ceScM fullShare d) ∗ others1 c ∗ (∃ r, prngReg c r)) := by
  rw [PhiA1_eq]; unfold others1
  iintro ⟨⟨A0, A1, A2, A3, A4, A5, A6, A7, A8, A9, HS⟩, Hg⟩
  isplitl [HS]; · iexact HS
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

/-- and back. -/
theorem PhiA1_join (c : Dev nD) :
    iprop((∃ d, owns (c : Thread nD τ) ceScM fullShare d) ∗ others1 c ∗ (∃ r, prngReg c r)) ⊢ (Pipeline.ΦA spec1 c : sProp 𝕄) := by
  rw [PhiA1_eq]; unfold others1
  iintro ⟨HS, ⟨A0, A1, A2, A3, A4, A5, A6, A7, A8, A9⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact HS

/-! ## What the body finds in the inputs' buffers -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The invariant at a point's start, restated at the point's number. -/
theorem PhiS1_castSucc (c : Dev nD) (t : Fin cfg1.N) : (dat1 V c).Φ t.castSucc = PhiS1 V c t.val := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The inputs' buffers hold their blocks; the point's number modulo 16 says which of the
    three runs applies; the invariant hands the run the scratch at the accumulator after the point before (at anything,
    at the first point) and takes it back at the accumulator after this point, which is that run's sum by the
    accumulator's recursion; at the points that end a run of 16 the output's buffer is left at the accumulator divided
    by the count, elsewhere as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) from rfl, PhiS1_succ, PhiS1_castSucc V c t]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt N_1
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [ceAcc_first _ _ _ h0, xblk1_eq, gblk1_eq]
    by_cases hz : t.val = 0
    · rw [PhiS1_zero V c _ hz]
      iintro ⟨HΦ, Ho, ⟨%d0, H0⟩, ⟨%d1, H1⟩, ⟨%d2, H2⟩⟩
      icases (PhiA1_split c) $$ HΦ with ⟨HS, HR, Hg⟩
      iapply (ceRun1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS1_pos V c _ hz]
      iintro ⟨⟨HS, HR, Hg⟩, Ho, ⟨%d0, H0⟩, ⟨%d1, H1⟩, ⟨%d2, H2⟩⟩
      iapply (ceRun1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    rw [PhiS1_pos V c _ hz, ceAcc_next _ _ _ h0, xblk1_eq, gblk1_eq]
    by_cases h1 : t.val % 16 = 15
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [ceAcc_next _ _ _ h0, xblk1_eq, gblk1_eq]
      iintro ⟨⟨HS, HR, Hg⟩, Ho, ⟨%d0, H0⟩, ⟨%d1, H1⟩, ⟨%d2, H2⟩⟩
      iapply (ceRun1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨HS, HR, Hg⟩, Ho, ⟨%d0, H0⟩, ⟨%d1, H1⟩, ⟨%d2, H2⟩⟩
      iapply (ceRun1_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 from rfl, PhiS1_zero V c 0 rfl]

/-- After any point the invariant gives back what the launch handed over: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val from rfl, PhiS1_pos V c _ ht]
  iintro ⟨HS, HR, Hg⟩
  iapply (PhiA1_join c)
  isplitl [HS]; · iexists _; iexact HS
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.KAsmA.lean ====
/-
  The two kernel regions as segments of @main, and the run of the whole program.

  Region 0 (the image kernel) is entered from the launch contents and leaves its two output arrays at what its
  pipeline wrote back; the host lines between the regions slice and add those and gather each row's target logit;
  region 1 (the cross-entropy kernel) is entered from there and leaves its output array; the last host lines
  combine the three terms.  Every other buffer passes through a region unchanged.
-/
import proofs.«424299_j59854664237538_3_alg».proof.Proof.KRegion0
import proofs.«424299_j59854664237538_3_alg».proof.Proof.KRegion1
import proofs.«424299_j59854664237538_3_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents: the launch memory. -/
abbrev Vin0 : (c : Dev nD) → (b : Ref sig .tc) → Buf (Elt F) ((c : Thread nD τ).loc b) := fun c b => V0 m c b

/-- What region 0 leaves in a buffer: its pipeline's final array where the buffer is one of its arrays. -/
def outs0 : Outs (F := F) := fun _ r c =>
  Pipeline.withArrays spec0 c (V0 m c) (fun w => (dat0 (Vin0 m) c).arrAt w cfg0.N) (Proc.devRef .tc r)

/-- Region 1's entry contents: after region 0 and the host lines between. -/
abbrev Vin1 : (c : Dev nD) → (b : Ref sig .tc) → Buf (Elt F) ((c : Thread nD τ).loc b) := fun c b => V3 m (outs0 m) c b

/-- What the regions leave, by item: after item 3 (region 1) its pipeline's final arrays, before that region 0's. -/
def outs : Outs (F := F) := fun J r c =>
  if J = 4 then Pipeline.withArrays spec1 c (V3 m (outs0 m) c) (fun w => (dat1 (Vin1 m) c).arrAt w cfg1.N) (Proc.devRef .tc r)
  else outs0 m J r c

theorem V1_outs (c : Dev nD) : V1 m (outs m) c = V1 m (outs0 m) c := rfl
theorem V3_outs (c : Dev nD) : V3 m (outs m) c = V3 m (outs0 m) c := rfl

theorem outs_v0_0 (c : Dev nD) : outs m 1 main_v0_0 c = (dat0 (Vin0 m) c).arrAt 2 cfg0.N := by
  unfold outs; rw [if_neg (by decide)]; unfold outs0
  exact Pipeline.withArrays_arr spec0 launch0.win.arr_inj c _ _ 2
theorem outs_v0_1 (c : Dev nD) : outs m 1 main_v0_1 c = (dat0 (Vin0 m) c).arrAt 3 cfg0.N := by
  unfold outs; rw [if_neg (by decide)]; unfold outs0
  exact Pipeline.withArrays_arr spec0 launch0.win.arr_inj c _ _ 3
theorem outs_v13 (c : Dev nD) : outs m 4 main_v13 c = (dat1 (Vin1 m) c).arrAt 2 cfg1.N := by
  unfold outs; rw [if_pos rfl]
  exact Pipeline.withArrays_arr spec1 launch1.win.arr_inj c _ _ 2

/-- After region 0 its two output arrays hold what the pipeline left. -/
theorem V1_v0_0 (c : Dev nD) : V1 m (outs m) c main_v0_0 = (dat0 (Vin0 m) c).arrAt 2 cfg0.N := by
  rw [← outs_v0_0]
  simp only [V1, Function.update_of_ne (StableHlo.devRef_ne_of_ne (by decide) : (Proc.devRef .tc main_v0_0 : DevRef τ sig) ≠ Proc.devRef .tc main_v0_1), Function.update_self]
theorem V1_v0_1 (c : Dev nD) : V1 m (outs m) c main_v0_1 = (dat0 (Vin0 m) c).arrAt 3 cfg0.N := by
  rw [← outs_v0_1]
  simp only [V1, Function.update_self]
/-- After region 1 its output array holds what the pipeline left. -/
theorem V4_v13 (c : Dev nD) : V4 m (outs m) c main_v13 = (dat1 (Vin1 m) c).arrAt 2 cfg1.N := by
  rw [← outs_v13]
  simp only [V4, Function.update_self]

/-- Region 0's arrays after it, window by window: an input's as entered, an output's as left. -/
theorem hF0 (c : Dev nD) (w : Fin cfg0.W) : (dat0 (Vin0 m) c).arrAt w cfg0.N = V1 m (outs m) c (Pipeline.arrRef spec0 w) :=
  match w with
  | ⟨0, _⟩ => (((dat0 (Vin0 m) c).arrAt_in 0 rfl _).trans (A_eq0 (Vin0 m) c 0)).trans (V1_of m (outs m) c main_arg0 (by decide)).symm
  | ⟨1, _⟩ => (((dat0 (Vin0 m) c).arrAt_in 1 rfl _).trans (A_eq0 (Vin0 m) c 1)).trans (V1_of m (outs m) c main_arg1 (by decide)).symm
  | ⟨2, _⟩ => (V1_v0_0 m c).symm
  | ⟨3, _⟩ => (V1_v0_1 m c).symm

/-- Every buffer that is no array of region 0 passes through it. -/
theorem hrest0 (c : Dev nD) : ∀ b : Ref sig .tc, b ∉ Finset.univ.image (Pipeline.arrRef spec0) → V1 m (outs m) c b = Vin0 m c b :=
  fun b hb => V1_of m (outs m) c b (by
    intro h
    simp only [List.mem_cons, List.mem_nil_iff, or_false] at h
    rcases h with rfl | rfl
    · exact hb (Finset.mem_image.mpr ⟨2, Finset.mem_univ _, rfl⟩)
    · exact hb (Finset.mem_image.mpr ⟨3, Finset.mem_univ _, rfl⟩))

theorem hF1 (c : Dev nD) (w : Fin cfg1.W) : (dat1 (Vin1 m) c).arrAt w cfg1.N = V4 m (outs m) c (Pipeline.arrRef spec1 w) :=
  match w with
  | ⟨0, _⟩ => (((dat1 (Vin1 m) c).arrAt_in 0 rfl _).trans (A_eq1 (Vin1 m) c 0)).trans (V4_of m (outs m) c main_arg2 (by decide)).symm
  | ⟨1, _⟩ => (((dat1 (Vin1 m) c).arrAt_in 1 rfl _).trans (A_eq1 (Vin1 m) c 1)).trans (V4_of m (outs m) c main_v12 (by decide)).symm
  | ⟨2, _⟩ => (V4_v13 m c).symm

theorem hrest1 (c : Dev nD) : ∀ b : Ref sig .tc, b ∉ Finset.univ.image (Pipeline.arrRef spec1) → V4 m (outs m) c b = Vin1 m c b :=
  fun b hb => V4_of m (outs m) c b (by
    intro h
    simp only [List.mem_cons, List.mem_nil_iff, or_false] at h
    rcases h with rfl
    exact hb (Finset.mem_image.mpr ⟨2, Finset.mem_univ _, rfl⟩))

/-! ## The proof data family and what rides beside the buffers -/

/-- Each pipeline's proof data at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
abbrev L : GSem nD τ sig → Finset Unit := fun _ => ∅
abbrev lv : GSem nD τ sig → Unit → ℕ := fun _ _ => 0

/-- Beside the buffers: the generator register at some state, and the core owing nothing. -/
abbrev R (c : Dev nD) : sProp 𝕄 := iprop((∃ r, prngReg c r) ∗ ∃ W, owes (c : Thread nD τ) (0 : CellTallies nD τ sig Unit) W)

end Cert.Kernel.Hand

end
-- ==== Proof.KAsmB.lean ====
/-
  The two kernel regions as segment records, and the program's run: every weakly fair execution terminates with
  every unscoped buffer at the contents the items' fold gives it.
-/
import proofs.«424299_j59854664237538_3_alg».proof.Proof.KAsmA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 0: entered from every unscoped buffer at its entry contents, left with its arrays at what the pipeline wrote
    back and every other buffer as entered; the generator register goes into the kernel's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vin0 m) c).Φ 0 from rfl]
    refine .trans ?_ (hin0 (Vin0 m) c)
    unfold Pipeline.ΦA
    iintro ⟨Hp, -, Hr⟩
    isplitl [Hr]; · iexact Hr
    iexact Hp
  hout c := by
    rw [Pipeline.ownSems0_none, show (pdats m 0 c).Φ (Fin.last _) = (dat0 (Vin0 m) c).Φ (Fin.last cfg0.N) from rfl]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at its entry contents, left with its arrays at what the pipeline wrote
    back and every other buffer as entered; the generator register goes into the kernel's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V3 m (outs0 m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vin1 m) c).Φ 0 from rfl]
    refine .trans ?_ (hin1 (Vin1 m) c)
    unfold Pipeline.ΦA
    iintro ⟨Hp, -, Hr⟩
    isplitl [Hr]; · iexact Hr
    iexact Hp
  hout c := by
    rw [Pipeline.ownSems0_none, show (pdats m 1 c).Φ (Fin.last _) = (dat1 (Vin1 m) c).Φ (Fin.last cfg1.N) from rfl]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl)
    (reg1 m) (fun c => by rw [V3_outs]; exact .rfl) (fun c => .rfl)

end Cert.Kernel.Hand

end
-- ==== Proof.Acc.lean ====
/-
  The two kernels' accumulators as pure recursions over the grid's points.

  Each kernel keeps a running sum in a scratch buffer of 8 × 128 equal entries: at a point whose second grid
  coordinate is 0 (the point's number is a multiple of 16) the buffer is reset to zero before the point's tile
  is added, and otherwise the tile is added to what the point before left.  At the last point of each half the
  output block is the buffer divided by the term's count.
-/
import proofs.«424299_j59854664237538_3_alg».proof.Proof.Gen.KernelIdeal.Skeleton

noncomputable section

namespace Cert.KernelIdeal.Hand

open Idealize.ShloMosaic Cert.KernelIdeal Cert.KernelIdeal.Gen

variable {F : FTy → Type} [FloatOps F]

/-- The image kernel's gradient term of one tile: a scalar, from the two input blocks. -/
def lgp (x0 x1 : Vec F S4x3x128x512 .f32) : F .f32 :=
  k0_pay15 (k0_pay10 (k0_pay9 (k0_pay7 x0) (k0_pay8 x0)) (Scalar.ofBits .f32 0x358637BD#32))
    (k0_pay11 x1) (k0_pay12 x1) (k0_pay13 x1) (iota .tc S4x128x512 32 [2] Facts₀.iota_S4x128x512_d2_w32) k0_pay14

/-- The image kernel's first scratch buffer (squared differences) after point `n`, given each point's two input blocks. -/
def acc0a (x0 x1 : ℕ → Vec F S4x3x128x512 .f32) : ℕ → Vec F S8x128 .f32
  | 0 => k0_pay16 (k0_pay6 (x0 0) (x1 0)) k0_pay4
  | n + 1 => k0_pay16 (k0_pay6 (x0 (n + 1)) (x1 (n + 1))) (if (n + 1) % 16 = 0 then k0_pay4 else acc0a x0 x1 n)

/-- The image kernel's second scratch buffer (gradient differences) after point `n`. -/
def acc0b (x0 x1 : ℕ → Vec F S4x3x128x512 .f32) : ℕ → Vec F S8x128 .f32
  | 0 => k0_pay1 (lgp (x0 0) (x1 0)) k0_pay5
  | n + 1 => k0_pay1 (lgp (x0 (n + 1)) (x1 (n + 1))) (if (n + 1) % 16 = 0 then k0_pay5 else acc0b x0 x1 n)

/-- The cross-entropy kernel's scratch buffer after point `n`, given each point's logits block and picked-logit block. -/
def acc1 (x : ℕ → Vec F S128x10000 .f32) (g : ℕ → Vec F S128x1 .f32) : ℕ → Vec F S8x128 .f32
  | 0 => k1_pay2 (x 0) (g 0) k1_pay1
  | n + 1 => k1_pay2 (x (n + 1)) (g (n + 1)) (if (n + 1) % 16 = 0 then k1_pay1 else acc1 x g n)

end Cert.KernelIdeal.Hand

end
-- ==== Proof.Region0.lean ====
/-
  The image kernel's region (the first of the two pallas_call regions), stated at the contents the region is
  entered with: each window's block at a grid point, the kernel body's run on whole staging buffers, the
  region's proof data and invariant, and the body obligation at every grid point.

  The kernel keeps two running sums in two scratch buffers.  At a point whose second grid coordinate is 0 both
  are reset before the point's tile is added; at every point the tile's terms are added; at a point whose second
  grid coordinate is 15 the two output blocks are stored from the scratch buffers.  Between points the invariant
  holds the two scratch buffers at the accumulators' values after the point before.
-/
import proofs.«424299_j59854664237538_3_alg».proof.Proof.Gen.KernelIdeal.Launch
import proofs.«424299_j59854664237538_3_alg».proof.Proof.Gen.KernelIdeal.Skeleton
import proofs.«424299_j59854664237538_3_alg».proof.Proof.Gen.KernelIdeal.Points
import proofs.«424299_j59854664237538_3_alg».proof.Proof.Acc
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid has a point. -/
theorem N0_pos : 0 < cfg0.N := by rw [show cfg0.N = 32 from N_0]; decide

/-- The first input's block as a sequence over all naturals: point `n` modulo the number of points. -/
def oblk0 (c : Dev nD) (n : ℕ) : Vec F S4x3x128x512 .f32 := iblk0 V c 0 ⟨n % cfg0.N, Nat.mod_lt _ N0_pos⟩
/-- The second input's block as a sequence over all naturals. -/
def tblk0 (c : Dev nD) (n : ℕ) : Vec F S4x3x128x512 .f32 := iblk0 V c 1 ⟨n % cfg0.N, Nat.mod_lt _ N0_pos⟩

/-- At a point of the grid the sequence is the point's block. -/
theorem oblk0_eq (c : Dev nD) (t : Fin cfg0.N) : oblk0 V c t.val = iblk0 V c 0 t := by
  have h : (⟨t.val % cfg0.N, Nat.mod_lt _ N0_pos⟩ : Fin cfg0.N) = t := Fin.ext (Nat.mod_eq_of_lt t.isLt)
  unfold oblk0; rw [h]
theorem tblk0_eq (c : Dev nD) (t : Fin cfg0.N) : tblk0 V c t.val = iblk0 V c 1 t := by
  have h : (⟨t.val % cfg0.N, Nat.mod_lt _ N0_pos⟩ : Fin cfg0.N) = t := Fin.ext (Nat.mod_eq_of_lt t.isLt)
  unfold tblk0; rw [h]

/-! ## The scratch buffers and the region's invariant -/

/-- The two scratch buffers, whole. -/
abbrev scM0 : Memref sig .tc .vmem S8x128 .f32 := Memref.whole cc0_scratch0
abbrev scM1 : Memref sig .tc .vmem S8x128 .f32 := Memref.whole cc0_scratch1

/-- The core's other scoped buffers that are no staging buffer of this region, each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The region invariant before position `n`: before the first point what the launch hands over (every scratch at
    anything); afterwards the first scratch at the first accumulator after point `n - 1`, the second scratch at the
    second accumulator there, the other scoped buffers at anything and the generator register at some state. -/
def PhiS0 (c : Dev nD) : ℕ → sProp 𝕄
  | 0 => Pipeline.ΦA spec0 c
  | n + 1 => iprop((owns (c : Thread nD τ) scM0 fullShare (acc0a (oblk0 V c) (tblk0 V c) n)
      ∗ owns (c : Thread nD τ) scM1 fullShare (acc0b (oblk0 V c) (tblk0 V c) n) ∗ rest0 (F := F) c) ∗ (∃ r, prngReg c r))

/-! ## The pipeline's proof data -/

/-- The proof data of the region on core `c`: the arrays as the region finds them; after the body at point `t` each
    input's buffer at its block, the first output's at the first accumulator's mean and the second output's at the
    second accumulator's; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (acc0a (oblk0 V c) (tblk0 V c) t.val)
    | ⟨3, _⟩ => k0_pay3 (acc0b (oblk0 V c) (tblk0 V c) t.val)
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (acc0a (oblk0 V c) (tblk0 V c) t.val) := by dsimp only [dat0]
theorem after0_3 (c : Dev nD) (t : Fin cfg0.N) : (dat0 V c).after 3 t = k0_pay3 (acc0b (oblk0 V c) (tblk0 V c) t.val) := by dsimp only [dat0]

/-! ## The body's branch conditions -/

/-- The condition of the body's first branch (the reset of the two scratch buffers), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16): decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second branch (the store of the two output blocks), from the grid coordinates. -/
abbrev cond0_1 (i : grid0.Coords) : Prop := k0_cond2 i = 1#1
/-- It holds at the points ≡ 15 (mod 16): decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Where the second branch is not taken the two output windows are idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is taken they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## Loads and stores through a whole buffer -/

/-- The zero offsets of a load or store through a whole buffer, of rank 2 and of rank 4. -/
theorem img_hz2 : (![0, 0] : Fin 2 → Nat) = fun _ => 0 := funext fun a => by fin_cases a <;> rfl
theorem img_hz4 : (![0, 0, 0, 0] : Fin 4 → Nat) = fun _ => 0 := funext fun a => by fin_cases a <;> rfl

/-- A buffer whose last store was whole reads that store's payload, whatever was stored before. -/
theorem img_read_writes_last {κ : Kind} {sp : Space} (v : View sig κ sp S8x128 .f32) (f : v.ty.Contents (Elt F))
    (inb : ∀ a, (![0, 0] : Fin 2 → Nat) a + S8x128.size a ≤ S8x128.size a) (w : Vec F S8x128 .f32)
    (L : List (View.Piece (Elt F) S8x128 .f32)) :
    v.read (Elt F) (v.writes (Elt F) f ((⟨Rect.unit (s := S8x128) ![0, 0] S8x128.size inb, w⟩ : View.Piece (Elt F) S8x128 .f32) :: L)) = w := by
  rw [View.read_writes_eq_canon _ _ _ (fun y => ⟨_, List.mem_cons_self, View.mem_set_unit_zero img_hz2 inb y⟩),
    View.canon_cons_unit_zero img_hz2]

set_option maxHeartbeats 4000000 in
/-- The body at a point whose second coordinate is 0: both scratch buffers are reset, then the tile's terms added; the output buffers are left as found. -/
theorem imgRun_A (c : Dev nD) (i : grid0.Coords) (arg2 : Memref sig .tc .vmem S4x3x128x512 .f32) (harg2 : arg2.IsWhole) (arg3 : Memref sig .tc .vmem S4x3x128x512 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 x1 : Vec F S4x3x128x512 .f32) (y4 y5 s0 s1 : Vec F S8x128 .f32) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare y4 ∗ owns (c : Thread nD τ) arg5 fullShare y5
            ∗ owns (c : Thread nD τ) arg6 fullShare (k0_pay16 (k0_pay6 x0 x1) k0_pay4)
            ∗ owns (c : Thread nD τ) arg7 fullShare (k0_pay1 (lgp x0 x1) k0_pay5)) -∗ K ⟨⟩))
      ⊢ wp frame (wpE (defs₀ (F := F)) Variants.none c none) E (cc0__image_kernel i arg2 harg2 arg3 harg3 arg4 harg4 arg5 harg5 arg6 harg6 arg7 harg7) K := by
  simp only [cc0__image_kernel_eq_skeleton]; unfold cc0__image_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  iexists _; isplitr
  swap; · iexact H7
  ipureintro
  refine (img_read_writes_last _ _ _ _ _).trans ?_
  (try dsimp only)
  sl_unfold_words
  simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl

set_option maxHeartbeats 4000000 in
/-- The body at a point whose second coordinate is neither 0 nor 15: the tile's terms are added to what the scratch buffers held; the output buffers are left as found. -/
theorem imgRun_B (c : Dev nD) (i : grid0.Coords) (arg2 : Memref sig .tc .vmem S4x3x128x512 .f32) (harg2 : arg2.IsWhole) (arg3 : Memref sig .tc .vmem S4x3x128x512 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 x1 : Vec F S4x3x128x512 .f32) (y4 y5 s0 s1 : Vec F S8x128 .f32) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare y4 ∗ owns (c : Thread nD τ) arg5 fullShare y5
            ∗ owns (c : Thread nD τ) arg6 fullShare (k0_pay16 (k0_pay6 x0 x1) s0)
            ∗ owns (c : Thread nD τ) arg7 fullShare (k0_pay1 (lgp x0 x1) s1)) -∗ K ⟨⟩))
      ⊢ wp frame (wpE (defs₀ (F := F)) Variants.none c none) E (cc0__image_kernel i arg2 harg2 arg3 harg3 arg4 harg4 arg5 harg5 arg6 harg6 arg7 harg7) K := by
  simp only [cc0__image_kernel_eq_skeleton]; unfold cc0__image_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  iexists _; isplitr
  swap; · iexact H7
  ipureintro
  refine (img_read_writes_last _ _ _ _ _).trans ?_
  (try dsimp only)
  sl_unfold_words
  simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl

set_option maxHeartbeats 4000000 in
/-- The body at a point whose second coordinate is 15: the tile's terms are added to what the scratch buffers held, and the two output buffers are stored whole from the two scratch buffers. -/
theorem imgRun_C (c : Dev nD) (i : grid0.Coords) (arg2 : Memref sig .tc .vmem S4x3x128x512 .f32) (harg2 : arg2.IsWhole) (arg3 : Memref sig .tc .vmem S4x3x128x512 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 x1 : Vec F S4x3x128x512 .f32) (y4 y5 s0 s1 : Vec F S8x128 .f32) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare (k0_pay2 (k0_pay16 (k0_pay6 x0 x1) s0))
            ∗ owns (c : Thread nD τ) arg5 fullShare (k0_pay3 (k0_pay1 (lgp x0 x1) s1))
            ∗ owns (c : Thread nD τ) arg6 fullShare (k0_pay16 (k0_pay6 x0 x1) s0)
            ∗ owns (c : Thread nD τ) arg7 fullShare (k0_pay1 (lgp x0 x1) s1)) -∗ K ⟨⟩))
      ⊢ wp frame (wpE (defs₀ (F := F)) Variants.none c none) E (cc0__image_kernel i arg2 harg2 arg3 harg3 arg4 harg4 arg5 harg5 arg6 harg6 arg7 harg7) K := by
  simp only [cc0__image_kernel_eq_skeleton]; unfold cc0__image_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  isplitl [H5]
  · iexists _; isplitr
    swap; · iexact H5
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  isplitl [H6]
  · iexists _; isplitr
    swap; · iexact H6
    ipureintro
    refine (img_read_writes_last _ _ _ _ _).trans ?_
    (try dsimp only)
    sl_unfold_words
    simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl
  iexists _; isplitr
  swap; · iexact H7
  ipureintro
  refine (img_read_writes_last _ _ _ _ _).trans ?_
  (try dsimp only)
  sl_unfold_words
  simp only [View.readAt_eq_ld, harg2.read_unread, harg3.read_unread, harg6.read_unread, harg7.read_unread, View.ld_unit_zero (S := S8x128) img_hz2, View.ld_unit_zero (S := S4x3x128x512) img_hz4, View.readCov_unit_zero (S := S8x128) _ img_hz2, View.readCov_cons_toLoadRect] <;> rfl

/-! ## The accumulators, one point at a time -/

/-- The first accumulator after point `n`: the tile's term added to the reset value at a point whose number is a
    multiple of 16, to the accumulator after the point before otherwise. -/
theorem acc0a_eq (x0 x1 : ℕ → Vec F S4x3x128x512 .f32) (n : ℕ) :
    acc0a x0 x1 n = k0_pay16 (k0_pay6 (x0 n) (x1 n)) (if n % 16 = 0 then k0_pay4 else acc0a x0 x1 (n - 1)) := by
  cases n with
  | zero => rfl
  | succ n => rfl

/-- The second accumulator after point `n`, likewise. -/
theorem acc0b_eq (x0 x1 : ℕ → Vec F S4x3x128x512 .f32) (n : ℕ) :
    acc0b x0 x1 n = k0_pay1 (lgp (x0 n) (x1 n)) (if n % 16 = 0 then k0_pay5 else acc0b x0 x1 (n - 1)) := by
  cases n with
  | zero => rfl
  | succ n => rfl

/-! ## The invariant, unfolded -/

/-- After point `n` (before point `n + 1`): the scratch buffers at that point's accumulators. -/
theorem PhiS0_succ (c : Dev nD) (n : ℕ) :
    PhiS0 V c (n + 1) = iprop((owns (c : Thread nD τ) scM0 fullShare (acc0a (oblk0 V c) (tblk0 V c) n)
      ∗ owns (c : Thread nD τ) scM1 fullShare (acc0b (oblk0 V c) (tblk0 V c) n) ∗ rest0 (F := F) c) ∗ (∃ r, prngReg c r)) := rfl

/-- Before a point that is not the first: the scratch buffers at what the point before left. -/
theorem PhiS0_pos (c : Dev nD) (n : ℕ) (hn : n ≠ 0) :
    PhiS0 V c n = iprop((owns (c : Thread nD τ) scM0 fullShare (acc0a (oblk0 V c) (tblk0 V c) (n - 1))
      ∗ owns (c : Thread nD τ) scM1 fullShare (acc0b (oblk0 V c) (tblk0 V c) (n - 1)) ∗ rest0 (F := F) c) ∗ (∃ r, prngReg c r)) := by
  cases n with
  | zero => exact absurd rfl hn
  | succ n => rfl

/-- What the launch hands over, with the two scratch buffers as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ rest0 (F := F) c) ∗ (∃ r, prngReg c r)) := by
  unfold Pipeline.ΦA rest0; rw [scopedRest0_eq]; simp only [scM0, scM1, owns_whole]; try rfl

/-! ## The input windows' buffers at a point -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- Each window's current staging memref at point `t`, as the pipeline passes it to the body, and its wholeness. -/
abbrev ms0_0 (t : Fin cfg0.N) : Memref sig .tc .vmem S4x3x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x128 .f32 := win0_3.stage (cfg0.slots t 3)
abbrev hs0_3 (t : Fin cfg0.N) : (ms0_3 t).IsWhole := hstage0_3 ((cfg0.slots t 3).cast nbuf0_3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their blocks; the point's second coordinate says which of the three
    runs applies; the invariant hands the body the two scratch buffers at what the point before left (at anything at the
    first point) and takes them back at this point's accumulators; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) from rfl, PhiS0_succ]
  rw [show (dat0 V c).Φ t.castSucc = PhiS0 V c t.val from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 32 := lt_of_lt_of_eq t.isLt (show cfg0.N = 32 from N_0)
  by_cases h1 : t.val % 16 = 15
  · have h0 : ¬t.val % 16 = 0 := by omega
    have hz : t.val ≠ 0 := fun h => by rw [h] at h1; omega
    have hc0 : ¬cond0_0 (grid0.coords t) := fun h => h0 ((hcond0_0 t).mp h)
    have hc1 : cond0_1 (grid0.coords t) := (hcond0_1 t).mpr h1
    rw [show (dat0 V c).leavesExact 2 t = owns (c : Thread nD τ) (ms0_2 t) fullShare ((dat0 V c).after 2 t) from by
      unfold Dat.leavesExact; rw [liveAt0_2 t hc1], after0_2]
    rw [show (dat0 V c).leavesExact 3 t = owns (c : Thread nD τ) (ms0_3 t) fullShare ((dat0 V c).after 3 t) from by
      unfold Dat.leavesExact; rw [liveAt0_3 t hc1], after0_3]
    rw [acc0a_eq, acc0b_eq, oblk0_eq, tblk0_eq, if_neg h0, if_neg h0, PhiS0_pos V c _ hz]
    iintro ⟨⟨⟨HS0, HS1, Hr⟩, Hg⟩, Ho, ⟨%d0, H0⟩, ⟨%d1, H1⟩, ⟨%d2, H2⟩, ⟨%d3, H3⟩⟩
    iapply (imgRun_C c (grid0.coords t) _ _ _ _ _ _ _ _ _ _ _ _ hc0 hc1 (iblk0 V c 0 t) (iblk0 V c 1 t) _ _ _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexact H2
    iexact H3
  · have hc1 : ¬cond0_1 (grid0.coords t) := fun h => h1 ((hcond0_1 t).mp h)
    rw [Dat.leavesExact_idle (dat0 V c) 2 t (idleAt0_2 t hc1) (noFlush0_2 t hc1)]
    rw [Dat.leavesExact_idle (dat0 V c) 3 t (idleAt0_3 t hc1) (noFlush0_3 t hc1)]
    rw [acc0a_eq, acc0b_eq, oblk0_eq, tblk0_eq]
    by_cases h0 : t.val % 16 = 0
    · have hc0 : cond0_0 (grid0.coords t) := (hcond0_0 t).mpr h0
      rw [if_pos h0, if_pos h0]
      by_cases hz : t.val = 0
      · rw [hz, show PhiS0 V c 0 = Pipeline.ΦA spec0 c from rfl, PhiA0_eq]
        iintro ⟨⟨⟨⟨%e0, HS0⟩, ⟨%e1, HS1⟩, Hr⟩, Hg⟩, Ho, ⟨%d0, H0⟩, ⟨%d1, H1⟩, ⟨%d2, H2⟩, ⟨%d3, H3⟩⟩
        iapply (imgRun_A c (grid0.coords t) _ _ _ _ _ _ _ _ _ _ _ _ hc0 hc1 (iblk0 V c 0 t) (iblk0 V c 1 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hr Hg]
        · isplitl [HS0 HS1 Hr]
          · isplitl [HS0]; · iexact HS0
            isplitl [HS1]; · iexact HS1
            iexact Hr
          iexact Hg
        isplitl [Ho]; · iexact Ho
        isplitl [H0]; · iexact H0
        isplitl [H1]; · iexact H1
        isplitl [H2]; · iexists _; iexact H2
        iexists _; iexact H3
      · rw [PhiS0_pos V c _ hz]
        iintro ⟨⟨⟨HS0, HS1, Hr⟩, Hg⟩, Ho, ⟨%d0, H0⟩, ⟨%d1, H1⟩, ⟨%d2, H2⟩, ⟨%d3, H3⟩⟩
        iapply (imgRun_A c (grid0.coords t) _ _ _ _ _ _ _ _ _ _ _ _ hc0 hc1 (iblk0 V c 0 t) (iblk0 V c 1 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hr Hg]
        · isplitl [HS0 HS1 Hr]
          · isplitl [HS0]; · iexact HS0
            isplitl [HS1]; · iexact HS1
            iexact Hr
          iexact Hg
        isplitl [Ho]; · iexact Ho
        isplitl [H0]; · iexact H0
        isplitl [H1]; · iexact H1
        isplitl [H2]; · iexists _; iexact H2
        iexists _; iexact H3
    · have hc0 : ¬cond0_0 (grid0.coords t) := fun h => h0 ((hcond0_0 t).mp h)
      have hz : t.val ≠ 0 := fun h => by rw [h] at h0; exact h0 rfl
      rw [if_neg h0, if_neg h0, PhiS0_pos V c _ hz]
      iintro ⟨⟨⟨HS0, HS1, Hr⟩, Hg⟩, Ho, ⟨%d0, H0⟩, ⟨%d1, H1⟩, ⟨%d2, H2⟩, ⟨%d3, H3⟩⟩
      iapply (imgRun_B c (grid0.coords t) _ _ _ _ _ _ _ _ _ _ _ _ hc0 hc1 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives back what the launch handed over: the scratch buffers' named contents
    are forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c _ (by have : cfg0.N = 32 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Hand

end
-- ==== Proof.Region1.lean ====
/-
  Region 1: the cross-entropy kernel's half of the frame, at the buffer contents the region is entered with.

  The kernel keeps a running sum in a scratch buffer of 8 × 128 entries.  At a point whose second grid coordinate is 0
  the buffer is reset to zero; at every point the point's term (from the logits block and the picked-logit block) is
  added; at a point whose second grid coordinate is 15 the output block is stored as the buffer divided by the count.
  So after point n the scratch holds the accumulator of Acc (`acc1`) at n, and the output block, where it is
  written back, is that accumulator divided by the count.
-/
import proofs.«424299_j59854664237538_3_alg».proof.Proof.Gen.KernelIdeal.Launch
import proofs.«424299_j59854664237538_3_alg».proof.Proof.Gen.KernelIdeal.Skeleton
import proofs.«424299_j59854664237538_3_alg».proof.Proof.Gen.KernelIdeal.Points
import proofs.«424299_j59854664237538_3_alg».proof.Proof.Acc
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid has a point. -/
theorem N1_pos : 0 < cfg1.N := lt_of_lt_of_eq (by decide : 0 < 32) N_1.symm

/-- The logits block of point `n` (points counted modulo the grid's 32). -/
def xblk1 (c : Dev nD) (n : ℕ) : Vec F S128x10000 .f32 := iblk1 V c 0 ⟨n % cfg1.N, Nat.mod_lt _ N1_pos⟩

/-- The picked-logit block of point `n`. -/
def gblk1 (c : Dev nD) (n : ℕ) : Vec F S128x1 .f32 := iblk1 V c 1 ⟨n % cfg1.N, Nat.mod_lt _ N1_pos⟩

theorem xblk1_eq (c : Dev nD) (t : Fin cfg1.N) : xblk1 V c t.val = iblk1 V c 0 t := by
  have h : ∀ s : Fin cfg1.N, s = t → (iblk1 V c 0 s : Vec F S128x10000 .f32) = iblk1 V c 0 t := fun s hs => by subst hs; rfl
  exact h _ (Fin.ext (Nat.mod_eq_of_lt t.isLt))

theorem gblk1_eq (c : Dev nD) (t : Fin cfg1.N) : gblk1 V c t.val = iblk1 V c 1 t := by
  have h : ∀ s : Fin cfg1.N, s = t → (iblk1 V c 1 s : Vec F S128x1 .f32) = iblk1 V c 1 t := fun s hs => by subst hs; rfl
  exact h _ (Fin.ext (Nat.mod_eq_of_lt t.isLt))

/-! ## The invariant between points -/

/-- The scratch operand: a whole scoped buffer of the kernel's own. -/
abbrev ceScM : Memref sig .tc .vmem S8x128 .f32 := Memref.whole cc1_scratch0

/-- A scoped buffer of the core, whole, at some contents. -/
def ceAnyAt (c : Dev nD) (b : Ref sig .tc) : sProp 𝕄 :=
  iprop(∃ f : Buf (Elt F) ((c : Thread nD τ).loc b), ((c : Thread nD τ).loc b) ↦{fullShare} f)

/-- The core's scoped buffers that are neither this region's staging buffers nor its scratch, each at some contents. -/
def others1 (c : Dev nD) : sProp 𝕄 :=
  iprop(ceAnyAt c cc0_stg0_0 ∗ ceAnyAt c cc0_stg0_1 ∗ ceAnyAt c cc0_stg1_0 ∗ ceAnyAt c cc0_stg1_1 ∗ ceAnyAt c cc0_stg2_0 ∗ ceAnyAt c cc0_stg2_1
    ∗ ceAnyAt c cc0_stg3_0 ∗ ceAnyAt c cc0_stg3_1 ∗ ceAnyAt c cc0_scratch0 ∗ ceAnyAt c cc0_scratch1)

/-- The invariant before position `n`: before the first point what the launch hands the region; afterwards the scratch
    at the accumulator after point `n - 1`, the other scoped buffers at anything, the generator register at some state. -/
def PhiS1 (c : Dev nD) : ℕ → sProp 𝕄
  | 0 => Pipeline.ΦA spec1 c
  | n + 1 => iprop(owns (c : Thread nD τ) ceScM fullShare (acc1 (xblk1 V c) (gblk1 V c) n) ∗ others1 c ∗ (∃ r, prngReg c r))

/-! ## The proof data -/

/-- The proof data of the region on core `c`: the arrays as the region finds them; after the body at point `t` each
    input's buffer at its block and the output's at the accumulator after `t` divided by the count. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 (xblk1 V c) (gblk1 V c) t.val)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 (xblk1 V c) (gblk1 V c) t.val) := by
  dsimp only [dat1]

/-! ## The body's branch conditions -/

/-- The condition of the body's first conditional (the reset), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The condition of the body's second conditional (the output's store), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The zero offsets, as a function. -/
theorem hz1 : (![0, 0] : Fin 2 → Nat) = fun _ => 0 := by funext a; fin_cases a <;> rfl

/-- One store through the whole buffer covers it. -/
theorem ceCover1 (w : Vec F S8x128 .f32) (y : S8x128.Idx) :
    ∃ pc ∈ ([⟨Rect.unit (s := S8x128) ![0, 0] S8x128.size inb_S8x128_S8x128_0_0, w⟩] : List (View.Piece (Elt F) S8x128 .f32)), y ∈ pc.1.set :=
  ⟨_, List.mem_singleton_self _, View.mem_set_unit_zero hz1 inb_S8x128_S8x128_0_0 y⟩

/-- Two stores through the whole buffer cover it. -/
theorem ceCover2 (w w' : Vec F S8x128 .f32) (y : S8x128.Idx) :
    ∃ pc ∈ ([⟨Rect.unit (s := S8x128) ![0, 0] S8x128.size inb_S8x128_S8x128_0_0, w⟩, ⟨Rect.unit (s := S8x128) ![0, 0] S8x128.size inb_S8x128_S8x128_0_0, w'⟩] : List (View.Piece (Elt F) S8x128 .f32)), y ∈ pc.1.set :=
  ⟨_, List.mem_cons_self, View.mem_set_unit_zero hz1 inb_S8x128_S8x128_0_0 y⟩

/-! ## The body's runs, case by case -/

set_option maxHeartbeats 1000000 in
/-- A point that neither begins nor ends a run of 16: the scratch at `s` is left at `s` plus the point's term; the
    output's buffer is not touched. -/
theorem ceRun1_mid (c : Dev nD) (E : Set ℕ) (i : grid1.Coords) (arg2 : Memref sig .tc .vmem S128x10000 .f32) (harg2 : arg2.IsWhole) (arg3 : Memref sig .tc .vmem S128x1 .f32) (harg3 : arg3.IsWhole) (arg4 : Memref sig .tc .vmem S8x128 .f32) (harg4 : arg4.IsWhole) (arg5 : Memref sig .tc .vmem S8x128 .f32) (harg5 : arg5.IsWhole)
    (hc0 : ¬cond1_0 i) (hc1 : ¬cond1_1 i)
    (x : Vec F S128x10000 .f32) (g : Vec F S128x1 .f32) (o s : Vec F S8x128 .f32) (K : PUnit → sProp 𝕄) :
    iprop(owns (c : Thread nD τ) arg2 fullShare x ∗ owns (c : Thread nD τ) arg3 fullShare g ∗ owns (c : Thread nD τ) arg4 fullShare o ∗ owns (c : Thread nD τ) arg5 fullShare s
        ∗ (iprop(owns (c : Thread nD τ) arg2 fullShare x ∗ owns (c : Thread nD τ) arg3 fullShare g ∗ owns (c : Thread nD τ) arg4 fullShare o ∗ owns (c : Thread nD τ) arg5 fullShare (k1_pay2 x g s)) -∗ K ⟨⟩))
      ⊢ wp frame (wpE (defs₀ (F := F)) Variants.none c none) E (cc1__ce_kernel i arg2 harg2 arg3 harg3 arg4 harg4 arg5 harg5) K := by
  simp only [cc1__ce_kernel_eq_skeleton]; unfold cc1__ce_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (ceCover1 _), View.canon_unit_zero hz1]
  simp only [View.readAt_eq_ld, View.ld_unit_zero (S := S128x10000) hz1, View.ld_unit_zero (S := S128x1) hz1, View.ld_unit_zero (S := S8x128) hz1]

set_option maxHeartbeats 1000000 in
/-- A point that begins a run of 16: the scratch, at anything, is left at zero plus the point's term; the output's
    buffer is not touched. -/
theorem ceRun1_first (c : Dev nD) (E : Set ℕ) (i : grid1.Coords) (arg2 : Memref sig .tc .vmem S128x10000 .f32) (harg2 : arg2.IsWhole) (arg3 : Memref sig .tc .vmem S128x1 .f32) (harg3 : arg3.IsWhole) (arg4 : Memref sig .tc .vmem S8x128 .f32) (harg4 : arg4.IsWhole) (arg5 : Memref sig .tc .vmem S8x128 .f32) (harg5 : arg5.IsWhole)
    (hc0 : cond1_0 i) (hc1 : ¬cond1_1 i)
    (x : Vec F S128x10000 .f32) (g : Vec F S128x1 .f32) (o : Vec F S8x128 .f32) (K : PUnit → sProp 𝕄) :
    iprop(owns (c : Thread nD τ) arg2 fullShare x ∗ owns (c : Thread nD τ) arg3 fullShare g ∗ owns (c : Thread nD τ) arg4 fullShare o ∗ (∃ d, owns (c : Thread nD τ) arg5 fullShare d)
        ∗ (iprop(owns (c : Thread nD τ) arg2 fullShare x ∗ owns (c : Thread nD τ) arg3 fullShare g ∗ owns (c : Thread nD τ) arg4 fullShare o ∗ owns (c : Thread nD τ) arg5 fullShare (k1_pay2 x g k1_pay1)) -∗ K ⟨⟩))
      ⊢ wp frame (wpE (defs₀ (F := F)) Variants.none c none) E (cc1__ce_kernel i arg2 harg2 arg3 harg3 arg4 harg4 arg5 harg5) K := by
  simp only [cc1__ce_kernel_eq_skeleton]; unfold cc1__ce_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (ceCover2 _ _), View.canon_cons_unit_zero hz1]
  simp only [View.readAt_eq_ld, View.ld_unit_zero (S := S128x10000) hz1, View.ld_unit_zero (S := S128x1) hz1, View.ld_unit_zero (S := S8x128) hz1, View.readCov_unit_zero (S := S8x128) _ hz1]

set_option maxHeartbeats 1000000 in
/-- A point that ends a run of 16: the scratch at `s` is left at `s` plus the point's term, and the output's buffer
    at that divided by the count. -/
theorem ceRun1_last (c : Dev nD) (E : Set ℕ) (i : grid1.Coords) (arg2 : Memref sig .tc .vmem S128x10000 .f32) (harg2 : arg2.IsWhole) (arg3 : Memref sig .tc .vmem S128x1 .f32) (harg3 : arg3.IsWhole) (arg4 : Memref sig .tc .vmem S8x128 .f32) (harg4 : arg4.IsWhole) (arg5 : Memref sig .tc .vmem S8x128 .f32) (harg5 : arg5.IsWhole)
    (hc0 : ¬cond1_0 i) (hc1 : cond1_1 i)
    (x : Vec F S128x10000 .f32) (g : Vec F S128x1 .f32) (s : Vec F S8x128 .f32) (K : PUnit → sProp 𝕄) :
    iprop(owns (c : Thread nD τ) arg2 fullShare x ∗ owns (c : Thread nD τ) arg3 fullShare g ∗ (∃ d, owns (c : Thread nD τ) arg4 fullShare d) ∗ owns (c : Thread nD τ) arg5 fullShare s
        ∗ (iprop(owns (c : Thread nD τ) arg2 fullShare x ∗ owns (c : Thread nD τ) arg3 fullShare g ∗ owns (c : Thread nD τ) arg4 fullShare (k1_pay3 (k1_pay2 x g s)) ∗ owns (c : Thread nD τ) arg5 fullShare (k1_pay2 x g s)) -∗ K ⟨⟩))
      ⊢ wp frame (wpE (defs₀ (F := F)) Variants.none c none) E (cc1__ce_kernel i arg2 harg2 arg3 harg3 arg4 harg4 arg5 harg5) K := by
  simp only [cc1__ce_kernel_eq_skeleton]; unfold cc1__ce_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (ceCover1 _), View.canon_unit_zero hz1]
    simp only [View.readAt_eq_ld, View.ld_unit_zero (S := S128x10000) hz1, View.ld_unit_zero (S := S128x1) hz1, View.ld_unit_zero (S := S8x128) hz1, View.readCov_unit_zero (S := S8x128) _ hz1]
  iexists _; isplitr
  swap; · iexact HS
  ipureintro
  sl_unfold_words
  rw [View.read_writes_eq_canon _ _ _ (ceCover1 _), View.canon_unit_zero hz1]
  simp only [View.readAt_eq_ld, View.ld_unit_zero (S := S128x10000) hz1, View.ld_unit_zero (S := S128x1) hz1, View.ld_unit_zero (S := S8x128) hz1]

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional fails the output window is idle and its block is not written back; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- where it holds the window is live. -/
theorem liveAt1_2 : ∀ t : Fin cfg1.N, cond1_1 (grid1.coords t) → cfg1.idle 2 (grid1.coords t) = false := by decide +kernel

/-! ## The accumulator, unfolded one point -/

theorem ceAcc_first (x : ℕ → Vec F S128x10000 .f32) (g : ℕ → Vec F S128x1 .f32) (n : ℕ) (h : n % 16 = 0) :
    acc1 x g n = k1_pay2 (x n) (g n) k1_pay1 := by
  cases n with
  | zero => rfl
  | succ n => rw [acc1, if_pos h]

theorem ceAcc_next (x : ℕ → Vec F S128x10000 .f32) (g : ℕ → Vec F S128x1 .f32) (n : ℕ) (h : ¬n % 16 = 0) :
    acc1 x g n = k1_pay2 (x n) (g n) (acc1 x g (n - 1)) := by
  cases n with
  | zero => exact absurd (Nat.zero_mod _) h
  | succ n => rw [acc1, if_neg h, Nat.add_sub_cancel]

/-! ## The invariant, unfolded -/

theorem PhiS1_zero (c : Dev nD) (n : ℕ) (hz : n = 0) : PhiS1 V c n = Pipeline.ΦA spec1 c := by
  subst hz; rfl

theorem PhiS1_succ (c : Dev nD) (n : ℕ) :
    PhiS1 V c (n + 1) = iprop(owns (c : Thread nD τ) ceScM fullShare (acc1 (xblk1 V c) (gblk1 V c) n) ∗ others1 c ∗ (∃ r, prngReg c r)) := rfl

theorem PhiS1_pos (c : Dev nD) (n : ℕ) (hz : n ≠ 0) :
    PhiS1 V c n = iprop(owns (c : Thread nD τ) ceScM fullShare (acc1 (xblk1 V c) (gblk1 V c) (n - 1)) ∗ others1 c ∗ (∃ r, prngReg c r)) := by
  cases n with
  | zero => exact absurd rfl hz
  | succ n => rfl

/-- What the launch hands the region, with the scratch as a memref owned at some contents. -/
theorem PhiA1_eq (c : Dev nD) :
    (Pipeline.ΦA spec1 c : sProp 𝕄)
      = iprop((ceAnyAt c cc0_stg0_0 ∗ ceAnyAt c cc0_stg0_1 ∗ ceAnyAt c cc0_stg1_0 ∗ ceAnyAt c cc0_stg1_1 ∗ ceAnyAt c cc0_stg2_0 ∗ ceAnyAt c cc0_stg2_1 ∗ ceAnyAt c cc0_stg3_0 ∗ ceAnyAt c cc0_stg3_1 ∗ ceAnyAt c cc0_scratch0 ∗ ceAnyAt c cc0_scratch1 ∗ (∃ d, owns (c : Thread nD τ) ceScM fullShare d)) ∗ (∃ r, prngReg c r)) := by
  unfold Pipeline.ΦA ceAnyAt; rw [scopedRest1_eq]; simp only [ceScM, owns_whole]; rfl

/-- It is the scratch at some contents, the other scoped buffers and the generator register; -/
theorem PhiA1_split (c : Dev nD) :
    (Pipeline.ΦA spec1 c : sProp 𝕄) ⊢ iprop((∃ d, owns (c : Thread nD τ) ceScM fullShare d) ∗ others1 c ∗ (∃ r, prngReg c r)) := by
  rw [PhiA1_eq]; unfold others1
  iintro ⟨⟨A0, A1, A2, A3, A4, A5, A6, A7, A8, A9, HS⟩, Hg⟩
  isplitl [HS]; · iexact HS
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

/-- and back. -/
theorem PhiA1_join (c : Dev nD) :
    iprop((∃ d, owns (c : Thread nD τ) ceScM fullShare d) ∗ others1 c ∗ (∃ r, prngReg c r)) ⊢ (Pipeline.ΦA spec1 c : sProp 𝕄) := by
  rw [PhiA1_eq]; unfold others1
  iintro ⟨HS, ⟨A0, A1, A2, A3, A4, A5, A6, A7, A8, A9⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact HS

/-! ## What the body finds in the inputs' buffers -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The invariant at a point's start, restated at the point's number. -/
theorem PhiS1_castSucc (c : Dev nD) (t : Fin cfg1.N) : (dat1 V c).Φ t.castSucc = PhiS1 V c t.val := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The inputs' buffers hold their blocks; the point's number modulo 16 says which of the
    three runs applies; the invariant hands the run the scratch at the accumulator after the point before (at anything,
    at the first point) and takes it back at the accumulator after this point, which is that run's sum by the
    accumulator's recursion; at the points that end a run of 16 the output's buffer is left at the accumulator divided
    by the count, elsewhere as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) from rfl, PhiS1_succ, PhiS1_castSucc V c t]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt N_1
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [ceAcc_first _ _ _ h0, xblk1_eq, gblk1_eq]
    by_cases hz : t.val = 0
    · rw [PhiS1_zero V c _ hz]
      iintro ⟨HΦ, Ho, ⟨%d0, H0⟩, ⟨%d1, H1⟩, ⟨%d2, H2⟩⟩
      icases (PhiA1_split c) $$ HΦ with ⟨HS, HR, Hg⟩
      iapply (ceRun1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
    · rw [PhiS1_pos V c _ hz]
      iintro ⟨⟨HS, HR, Hg⟩, Ho, ⟨%d0, H0⟩, ⟨%d1, H1⟩, ⟨%d2, H2⟩⟩
      iapply (ceRun1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun e => h0 (by rw [e])
    rw [PhiS1_pos V c _ hz, ceAcc_next _ _ _ h0, xblk1_eq, gblk1_eq]
    by_cases h1 : t.val % 16 = 15
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [ceAcc_next _ _ _ h0, xblk1_eq, gblk1_eq]
      iintro ⟨⟨HS, HR, Hg⟩, Ho, ⟨%d0, H0⟩, ⟨%d1, H1⟩, ⟨%d2, H2⟩⟩
      iapply (ceRun1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨HS, HR, Hg⟩, Ho, ⟨%d0, H0⟩, ⟨%d1, H1⟩, ⟨%d2, H2⟩⟩
      iapply (ceRun1_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 from rfl, PhiS1_zero V c 0 rfl]

/-- After any point the invariant gives back what the launch handed over: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val from rfl, PhiS1_pos V c _ ht]
  iintro ⟨HS, HR, Hg⟩
  iapply (PhiA1_join c)
  isplitl [HS]; · iexists _; iexact HS
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.AsmA.lean ====
/-
  The two kernel regions as segments of @main, and the run of the whole program.

  Region 0 (the image kernel) is entered from the launch contents and leaves its two output arrays at what its
  pipeline wrote back; the host lines between the regions slice and add those and gather each row's target logit;
  region 1 (the cross-entropy kernel) is entered from there and leaves its output array; the last host lines
  combine the three terms.  Every other buffer passes through a region unchanged.
-/
import proofs.«424299_j59854664237538_3_alg».proof.Proof.Region0
import proofs.«424299_j59854664237538_3_alg».proof.Proof.Region1
import proofs.«424299_j59854664237538_3_alg».proof.Proof.Gen.KernelIdeal.Regions
import proofs.«424299_j59854664237538_3_alg».proof.Proof.RunCond
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents: the launch memory. -/
abbrev Vin0 : (c : Dev nD) → (b : Ref sig .tc) → Buf (Elt F) ((c : Thread nD τ).loc b) := fun c b => V0 m c b

/-- What region 0 leaves in a buffer: its pipeline's final array where the buffer is one of its arrays. -/
def outs0 : Outs (F := F) := fun _ r c =>
  Pipeline.withArrays spec0 c (V0 m c) (fun w => (dat0 (Vin0 m) c).arrAt w cfg0.N) (Proc.devRef .tc r)

/-- Region 1's entry contents: after region 0 and the host lines between. -/
abbrev Vin1 : (c : Dev nD) → (b : Ref sig .tc) → Buf (Elt F) ((c : Thread nD τ).loc b) := fun c b => V3 m (outs0 m) c b

/-- What the regions leave, by item: after item 3 (region 1) its pipeline's final arrays, before that region 0's. -/
def outs : Outs (F := F) := fun J r c =>
  if J = 4 then Pipeline.withArrays spec1 c (V3 m (outs0 m) c) (fun w => (dat1 (Vin1 m) c).arrAt w cfg1.N) (Proc.devRef .tc r)
  else outs0 m J r c

theorem V1_outs (c : Dev nD) : V1 m (outs m) c = V1 m (outs0 m) c := rfl
theorem V3_outs (c : Dev nD) : V3 m (outs m) c = V3 m (outs0 m) c := rfl

theorem outs_v0_0 (c : Dev nD) : outs m 1 main_v0_0 c = (dat0 (Vin0 m) c).arrAt 2 cfg0.N := by
  unfold outs; rw [if_neg (by decide)]; unfold outs0
  exact Pipeline.withArrays_arr spec0 launch0.win.arr_inj c _ _ 2
theorem outs_v0_1 (c : Dev nD) : outs m 1 main_v0_1 c = (dat0 (Vin0 m) c).arrAt 3 cfg0.N := by
  unfold outs; rw [if_neg (by decide)]; unfold outs0
  exact Pipeline.withArrays_arr spec0 launch0.win.arr_inj c _ _ 3
theorem outs_v13 (c : Dev nD) : outs m 4 main_v13 c = (dat1 (Vin1 m) c).arrAt 2 cfg1.N := by
  unfold outs; rw [if_pos rfl]
  exact Pipeline.withArrays_arr spec1 launch1.win.arr_inj c _ _ 2

/-- After region 0 its two output arrays hold what the pipeline left. -/
theorem V1_v0_0 (c : Dev nD) : V1 m (outs m) c main_v0_0 = (dat0 (Vin0 m) c).arrAt 2 cfg0.N := by
  rw [← outs_v0_0]
  simp only [V1, Function.update_of_ne (StableHlo.devRef_ne_of_ne (by decide) : (Proc.devRef .tc main_v0_0 : DevRef τ sig) ≠ Proc.devRef .tc main_v0_1), Function.update_self]
theorem V1_v0_1 (c : Dev nD) : V1 m (outs m) c main_v0_1 = (dat0 (Vin0 m) c).arrAt 3 cfg0.N := by
  rw [← outs_v0_1]
  simp only [V1, Function.update_self]
/-- After region 1 its output array holds what the pipeline left. -/
theorem V4_v13 (c : Dev nD) : V4 m (outs m) c main_v13 = (dat1 (Vin1 m) c).arrAt 2 cfg1.N := by
  rw [← outs_v13]
  simp only [V4, Function.update_self]

/-- Region 0's arrays after it, window by window: an input's as entered, an output's as left. -/
theorem hF0 (c : Dev nD) (w : Fin cfg0.W) : (dat0 (Vin0 m) c).arrAt w cfg0.N = V1 m (outs m) c (Pipeline.arrRef spec0 w) :=
  match w with
  | ⟨0, _⟩ => (((dat0 (Vin0 m) c).arrAt_in 0 rfl _).trans (A_eq0 (Vin0 m) c 0)).trans (V1_of m (outs m) c main_arg0 (by decide)).symm
  | ⟨1, _⟩ => (((dat0 (Vin0 m) c).arrAt_in 1 rfl _).trans (A_eq0 (Vin0 m) c 1)).trans (V1_of m (outs m) c main_arg1 (by decide)).symm
  | ⟨2, _⟩ => (V1_v0_0 m c).symm
  | ⟨3, _⟩ => (V1_v0_1 m c).symm

/-- Every buffer that is no array of region 0 passes through it. -/
theorem hrest0 (c : Dev nD) : ∀ b : Ref sig .tc, b ∉ Finset.univ.image (Pipeline.arrRef spec0) → V1 m (outs m) c b = Vin0 m c b :=
  fun b hb => V1_of m (outs m) c b (by
    intro h
    simp only [List.mem_cons, List.mem_nil_iff, or_false] at h
    rcases h with rfl | rfl
    · exact hb (Finset.mem_image.mpr ⟨2, Finset.mem_univ _, rfl⟩)
    · exact hb (Finset.mem_image.mpr ⟨3, Finset.mem_univ _, rfl⟩))

theorem hF1 (c : Dev nD) (w : Fin cfg1.W) : (dat1 (Vin1 m) c).arrAt w cfg1.N = V4 m (outs m) c (Pipeline.arrRef spec1 w) :=
  match w with
  | ⟨0, _⟩ => (((dat1 (Vin1 m) c).arrAt_in 0 rfl _).trans (A_eq1 (Vin1 m) c 0)).trans (V4_of m (outs m) c main_arg2 (by decide)).symm
  | ⟨1, _⟩ => (((dat1 (Vin1 m) c).arrAt_in 1 rfl _).trans (A_eq1 (Vin1 m) c 1)).trans (V4_of m (outs m) c main_v12 (by decide)).symm
  | ⟨2, _⟩ => (V4_v13 m c).symm

theorem hrest1 (c : Dev nD) : ∀ b : Ref sig .tc, b ∉ Finset.univ.image (Pipeline.arrRef spec1) → V4 m (outs m) c b = Vin1 m c b :=
  fun b hb => V4_of m (outs m) c b (by
    intro h
    simp only [List.mem_cons, List.mem_nil_iff, or_false] at h
    rcases h with rfl
    exact hb (Finset.mem_image.mpr ⟨2, Finset.mem_univ _, rfl⟩))

/-! ## The proof data family and what rides beside the buffers -/

/-- Each pipeline's proof data at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

abbrev 𝒱₀ : Variants := Variants.none
abbrev L : GSem nD τ sig → Finset Unit := fun _ => ∅
abbrev lv : GSem nD τ sig → Unit → ℕ := fun _ _ => 0

/-- Beside the buffers: the generator register at some state, and the core owing nothing. -/
abbrev R (c : Dev nD) : sProp 𝕄 := iprop((∃ r, prngReg c r) ∗ ∃ W, owes (c : Thread nD τ) (0 : CellTallies nD τ sig Unit) W)

end Cert.KernelIdeal.Hand

end
-- ==== Proof.AsmB.lean ====
/-
  The two kernel regions as segment records, and the program's run: every weakly fair execution terminates with
  every unscoped buffer at the contents the items' fold gives it.
-/
import proofs.«424299_j59854664237538_3_alg».proof.Proof.AsmA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 0: entered from every unscoped buffer at its entry contents, left with its arrays at what the pipeline wrote
    back and every other buffer as entered; the generator register goes into the kernel's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vin0 m) c).Φ 0 from rfl]
    refine .trans ?_ (hin0 (Vin0 m) c)
    unfold Pipeline.ΦA
    iintro ⟨Hp, -, Hr⟩
    isplitl [Hr]; · iexact Hr
    iexact Hp
  hout c := by
    rw [Pipeline.ownSems0_none, show (pdats m 0 c).Φ (Fin.last _) = (dat0 (Vin0 m) c).Φ (Fin.last cfg0.N) from rfl]
    refine (hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at its entry contents, left with its arrays at what the pipeline wrote
    back and every other buffer as entered; the generator register goes into the kernel's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (V3 m (outs0 m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vin1 m) c).Φ 0 from rfl]
    refine .trans ?_ (hin1 (Vin1 m) c)
    unfold Pipeline.ΦA
    iintro ⟨Hp, -, Hr⟩
    isplitl [Hr]; · iexact Hr
    iexact Hp
  hout c := by
    rw [Pipeline.ownSems0_none, show (pdats m 1 c).Φ (Fin.last _) = (dat1 (Vin1 m) c).Φ (Fin.last cfg1.N) from rfl]
    refine (hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl)
    (reg1 m) (fun c => by rw [V3_outs]; exact .rfl) (fun c => .rfl)

/-- THE RUN: the same, every unscoped buffer read at the last fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V5 m (outs m) c b) :=
  run_cond m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (reg0 m) (fun c => .rfl) (fun c => .rfl)
    (reg1 m) (fun c => by rw [V3_outs]; exact .rfl) (fun c => .rfl)

/-- The result buffer and the arguments, read off the run. -/
theorem run_result : θ_run defs (onTc (τ := τ) (main (F := F))) ⟨m, fun _ => 0, ρ⟩ (fun r => ∀ c : Dev nD,
      r.2.mem ((c.tc : Thread nD τ).loc main_v23) = V5 m (outs m) c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v23 (by decide)),
     (h c _ (mem_uc main_arg0 (by decide))).trans (V5_main_arg0 m (outs m) c),
     (h c _ (mem_uc main_arg1 (by decide))).trans (V5_main_arg1 m (outs m) c),
     (h c _ (mem_uc main_arg2 (by decide))).trans (V5_main_arg2 m (outs m) c),
     (h c _ (mem_uc main_arg3 (by decide))).trans (V5_main_arg3 m (outs m) c)⟩) (run_all m ρ)

end Cert.KernelIdeal.Hand

end
-- ==== Proof.Spec.lean ====
/-
  The loss both programs compute, written once over the extended reals.

  For one image (three channels of 128 × 512 pixels): a pixel's grey level is
  ⌊(⌊255·R⌋·299 + ⌊255·G⌋·587 + ⌊255·B⌋·114) / 1000⌋; the image's threshold is the mean grey level;
  its mask is 0 where the grey level exceeds the threshold and 1 elsewhere; the mask's gradient
  magnitude at a pixel is √((½(right − left))² + (½(up − down))² + ε) with neighbours outside the
  image read as 0.  The loss is  1·MSE(out, target) + 1e-4·mean|grad(out) − grad(target)| + 1e-5·CE,
  CE the mean over rows of −log softmax at the row's target column.

  Two arrangements of that one number are stated: `Ref.loss` sums each term over the whole batch at once
  (the gradient term over three identical channel copies, divided by three times as many entries), and
  `Ker.loss` sums tile by tile — sixteen tiles to each of two halves, each half divided separately and the
  two quotients added.
-/
import Idealize.ShloMosaic.PureOps.Ideal
import Idealize.ShloMosaic.Lib.ValueIdx

noncomputable section

namespace Cert.Spec

open Idealize.ShloMosaic Idealize.ShloMosaic.ValueIdx

abbrev SImg : Shape := ⟨4, ![128, 3, 128, 512]⟩
abbrev SPred : Shape := ⟨2, ![4096, 10000]⟩
abbrev SGt : Shape := ⟨1, ![4096]⟩

/-- The extended real a 32-bit float word denotes. -/
abbrev lit (b : BitVec 32) : EReal := Ideal.ofBits .f32 b

/-- Rounding down, the infinities fixed. -/
abbrev fl (x : EReal) : EReal := Ideal.liftRound Int.floor x

/-- One image: channel, row, column. -/
abbrev Image : Type := Fin 3 → Fin 128 → Fin 512 → EReal

/-- Image number `b` of a batch (all zeros past the batch's end). -/
def img (x : SImg.Idx → EReal) (b : ℕ) : Image := fun c h w =>
  if hb : b < 128 then x (ix4 (⟨b, hb⟩ : Fin 128) c h w) else 0

/-- A pixel's grey level. -/
def gray (im : Image) (h : Fin 128) (w : Fin 512) : EReal :=
  fl (Ideal.div
    ((fl (im 0 h w * lit 0x437F0000#32) * lit 0x43958000#32 + fl (im 1 h w * lit 0x437F0000#32) * lit 0x4412C000#32)
      + fl (im 2 h w * lit 0x437F0000#32) * lit 0x42E40000#32)
    (lit 0x447A0000#32))

/-- The image's mean grey level. -/
def thres (im : Image) : EReal := Ideal.div (∑ h : Fin 128, ∑ w : Fin 512, gray im h w) (lit 0x47800000#32)

/-- The binary mask: 0 above the threshold, 1 elsewhere. -/
def mask (im : Image) (h : Fin 128) (w : Fin 512) : EReal :=
  if thres im < gray im h w then 0 else lit 0x3F800000#32

/-- The mask at natural-number coordinates, 0 outside the image. -/
def maskN (im : Image) (h w : ℕ) : EReal :=
  if hh : h < 128 then (if hw : w < 512 then mask im ⟨h, hh⟩ ⟨w, hw⟩ else 0) else 0

/-- The gradient magnitude of the mask at a pixel. -/
def grad (im : Image) (h : Fin 128) (w : Fin 512) : EReal :=
  let dx := (maskN im h.val (w.val + 1) - (if w.val = 0 then 0 else maskN im h.val (w.val - 1))) * lit 0x3F000000#32
  let dy := ((if h.val = 0 then 0 else maskN im (h.val - 1) w.val) - maskN im (h.val + 1) w.val) * lit 0x3F000000#32
  Ideal.sqrt ((dx * dx + dy * dy) + lit 0x358637BD#32)

/-- |grad(out) − grad(target)| at a pixel, for one pair of images. -/
def gdiffIm (io it : Image) (h : Fin 128) (w : Fin 512) : EReal :=
  let d := grad io h w - grad it h w
  max d (-d)

/-- (out − target)² at an entry, for one pair of images. -/
def sqdiffIm (io it : Image) (c : Fin 3) (h : Fin 128) (w : Fin 512) : EReal :=
  (io c h w - it c h w) * (io c h w - it c h w)

/-- |grad(out) − grad(target)| at a pixel of image `b` of the batch. -/
def gdiff (o t : SImg.Idx → EReal) (b : ℕ) (h : Fin 128) (w : Fin 512) : EReal := gdiffIm (img o b) (img t b) h w

/-- (out − target)² at an entry of image `b` of the batch. -/
def sqdiff (o t : SImg.Idx → EReal) (b : ℕ) (c : Fin 3) (h : Fin 128) (w : Fin 512) : EReal := sqdiffIm (img o b) (img t b) c h w

/-! ### One tile: four images, or 128 rows of logits -/

abbrev STile : Shape := ⟨4, ![4, 3, 128, 512]⟩
abbrev SRows : Shape := ⟨2, ![128, 10000]⟩
abbrev SCol : Shape := ⟨2, ![128, 1]⟩

/-- Image `b` of a tile of four. -/
def tileImg (x : STile.Idx → EReal) (b : Fin 4) : Image := fun c h w => x (ix4 b c h w)

/-- A tile's sum of squared differences. -/
def l2OfTile (x0 x1 : STile.Idx → EReal) : EReal :=
  ∑ b : Fin 4, ∑ c : Fin 3, ∑ h : Fin 128, ∑ w : Fin 512, sqdiffIm (tileImg x0 b) (tileImg x1 b) c h w

/-- A tile's sum of gradient differences. -/
def lgOfTile (x0 x1 : STile.Idx → EReal) : EReal :=
  ∑ b : Fin 4, ∑ h : Fin 128, ∑ w : Fin 512, gdiffIm (tileImg x0 b) (tileImg x1 b) h w

/-! ### The cross-entropy term -/

/-- Row `i` of the logits (zeros past the last row). -/
def prow (p : SPred.Idx → EReal) (i : ℕ) : Fin 10000 → EReal := fun j =>
  if hi : i < 4096 then p (ix2 (⟨i, hi⟩ : Fin 4096) j) else 0

/-- Row `i`'s target word (0 past the last row). -/
def gword (g : SGt.Idx → BitVec 32) (i : ℕ) : BitVec 32 := if hi : i < 4096 then g (ix1 (⟨i, hi⟩ : Fin 4096)) else 0

/-- The target column a signed word names: a negative word counts from the end; `none` when out of range. -/
def tgt (g : BitVec 32) : Option (Fin 10000) :=
  let g' : BitVec 32 := if g.slt 0#32 then g + 10000#32 else g
  if h : 0 ≤ g'.toInt ∧ g'.toInt ≤ 9999 then some ⟨g'.toInt.toNat, by omega⟩ else none

/-- A row's maximum. -/
def rmax (r : Fin 10000 → EReal) : EReal := Finset.univ.sup r

/-- log ∑ exp (r − max r). -/
def rlse (r : Fin 10000 → EReal) : EReal := Ideal.log (∑ j : Fin 10000, Ideal.exp (r j - rmax r))

/-- The row's logit at its target column; the bottom element when the column is out of range. -/
def rpick (r : Fin 10000 → EReal) (g : BitVec 32) : EReal :=
  match tgt g with | some j => r j | none => ⊥

/-- The row's log-probability at its target column; the bottom element when the column is out of range. -/
def rlogp (r : Fin 10000 → EReal) (g : BitVec 32) : EReal :=
  match tgt g with | some j => (r j - rmax r) - rlse r | none => ⊥

/-- A tile of 128 rows: the sum over its rows of max + log-sum-exp − the row's picked logit `g r`. -/
def ceOfTile (x : SRows.Idx → EReal) (g : SCol.Idx → EReal) : EReal :=
  ∑ r : Fin 128, ((rmax (fun j => x (ix2 r j)) + rlse (fun j => x (ix2 r j))) - g (ix2 r (0 : Fin 1)))

/-- The three weights. -/
abbrev w0 : EReal := lit 0x3F800000#32
abbrev w1 : EReal := lit 0x38D1B717#32
abbrev w2 : EReal := lit 0x3727C5AC#32

/-! ### Summed over the whole batch at once -/

namespace Ref

def l2 (o t : SImg.Idx → EReal) : EReal :=
  Ideal.div (∑ b : Fin 128, ∑ c : Fin 3, ∑ h : Fin 128, ∑ w : Fin 512, sqdiff o t b.val c h w) (lit 0x4BC00000#32)

def lg (o t : SImg.Idx → EReal) : EReal :=
  Ideal.div (∑ b : Fin 128, ∑ _c : Fin 3, ∑ h : Fin 128, ∑ w : Fin 512, gdiff o t b.val h w) (lit 0x4BC00000#32)

def ce (p : SPred.Idx → EReal) (g : SGt.Idx → BitVec 32) : EReal :=
  -(Ideal.div (∑ i : Fin 4096, rlogp (prow p i.val) (gword g i.val)) (lit 0x45800000#32))

def loss (o t : SImg.Idx → EReal) (p : SPred.Idx → EReal) (g : SGt.Idx → BitVec 32) : EReal :=
  (w0 * l2 o t + w1 * lg o t) + w2 * ce p g

end Ref

/-! ### Summed tile by tile, each half of the batch divided separately -/

namespace Ker

/-- Tile `k` (four images) of the squared differences. -/
def l2tile (o t : SImg.Idx → EReal) (k : ℕ) : EReal :=
  ∑ b : Fin 4, ∑ c : Fin 3, ∑ h : Fin 128, ∑ w : Fin 512, sqdiff o t (4 * k + b.val) c h w

/-- Tile `k` (four images) of the gradient differences. -/
def lgtile (o t : SImg.Idx → EReal) (k : ℕ) : EReal :=
  ∑ b : Fin 4, ∑ h : Fin 128, ∑ w : Fin 512, gdiff o t (4 * k + b.val) h w

/-- Tile `k` (128 rows) of max + log-sum-exp − target logit. -/
def cetile (p : SPred.Idx → EReal) (g : SGt.Idx → BitVec 32) (k : ℕ) : EReal :=
  ∑ r : Fin 128, ((rmax (prow p (128 * k + r.val)) + rlse (prow p (128 * k + r.val))) - rpick (prow p (128 * k + r.val)) (gword g (128 * k + r.val)))

/-- One half's mean: sixteen tiles summed, then divided. -/
def half (a : ℕ → EReal) (hf : ℕ) (d : EReal) : EReal := Ideal.div (∑ s : Fin 16, a (16 * hf + s.val)) d

def l2 (o t : SImg.Idx → EReal) : EReal := half (l2tile o t) 0 (lit 0x4BC00000#32) + half (l2tile o t) 1 (lit 0x4BC00000#32)
def lg (o t : SImg.Idx → EReal) : EReal := half (lgtile o t) 0 (lit 0x4B000000#32) + half (lgtile o t) 1 (lit 0x4B000000#32)
def ce (p : SPred.Idx → EReal) (g : SGt.Idx → BitVec 32) : EReal :=
  half (cetile p g) 0 (lit 0x45800000#32) + half (cetile p g) 1 (lit 0x45800000#32)

def loss (o t : SImg.Idx → EReal) (p : SPred.Idx → EReal) (g : SGt.Idx → BitVec 32) : EReal :=
  (w0 * l2 o t + w1 * lg o t) + w2 * ce p g

end Ker

/-- Every logit is a real number. -/
def FinitePred (p : SPred.Idx → EReal) : Prop := ∀ i, p i ≠ ⊤ ∧ p i ≠ ⊥

end Cert.Spec

end
-- ==== Proof.KerSmall.lean ====
/- The kernels' small stored values, the squared-difference tile sum and the cross-entropy tile sum, at an index. -/
import proofs.«424299_j59854664237538_3_alg».proof.Proof.Gen.KernelIdeal.Skeleton
import proofs.«424299_j59854664237538_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen Cert.Spec

/-! ### The stored 8 × 128 words -/

theorem k0_pay4_apply (j : S8x128.Idx) : k0_pay4 (F := Ideal) j = 0 := by
  unfold k0_pay4
  simp only [shapeCast_self, broadcast_apply]
  exact Ideal.ofBits_zero_f32
theorem k0_pay5_apply (j : S8x128.Idx) : k0_pay5 (F := Ideal) j = 0 := by
  unfold k0_pay5
  simp only [shapeCast_self, broadcast_apply]
  exact Ideal.ofBits_zero_f32
theorem k1_pay1_apply (j : S8x128.Idx) : k1_pay1 (F := Ideal) j = 0 := by
  unfold k1_pay1
  simp only [shapeCast_self, broadcast_apply]
  exact Ideal.ofBits_zero_f32
theorem k0_pay16_apply (v : Ideal .f32) (s : Vec Ideal S8x128 .f32) (j : S8x128.Idx) : k0_pay16 (F := Ideal) v s j = s j + v := by
  unfold k0_pay16
  simp only [shapeCast_self, addf_apply, broadcast_apply]
theorem k0_pay1_apply (v : Ideal .f32) (s : Vec Ideal S8x128 .f32) (j : S8x128.Idx) : k0_pay1 (F := Ideal) v s j = s j + v := by
  unfold k0_pay1
  simp only [shapeCast_self, addf_apply, broadcast_apply]
theorem k0_pay2_apply (s : Vec Ideal S8x128 .f32) (j : S8x128.Idx) : k0_pay2 (F := Ideal) s j = Ideal.div (s j) (lit 0x4BC00000#32) := by
  unfold k0_pay2
  simp only [divf_apply, broadcast_apply]
  rfl
theorem k0_pay3_apply (s : Vec Ideal S8x128 .f32) (j : S8x128.Idx) : k0_pay3 (F := Ideal) s j = Ideal.div (s j) (lit 0x4B000000#32) := by
  unfold k0_pay3
  simp only [divf_apply, broadcast_apply]
  rfl
theorem k1_pay3_apply (s : Vec Ideal S8x128 .f32) (j : S8x128.Idx) : k1_pay3 (F := Ideal) s j = Ideal.div (s j) (lit 0x45800000#32) := by
  unfold k1_pay3
  simp only [divf_apply, broadcast_apply]
  rfl

namespace Small

/-! ### Sums over index sets with unit axes -/

/-- The indices of a 1 × a × b × c × d array are the quadruples of its last four coordinates. -/
def idxEquiv5 {n1 n2 n3 n4 : Nat} :
    (⟨5, ![1, n1, n2, n3, n4]⟩ : Shape).Idx ≃ Fin n1 × Fin n2 × Fin n3 × Fin n4 where
  toFun i := (i 1, i 2, i 3, i 4)
  invFun p := ix5 (0 : Fin 1) p.1 p.2.1 p.2.2.1 p.2.2.2
  left_inv i := by
    funext a
    match a with
    | ⟨0, _⟩ => exact Fin.ext (by have := (i 0).isLt; simp at this; exact this.symm)
    | ⟨1, _⟩ => rfl
    | ⟨2, _⟩ => rfl
    | ⟨3, _⟩ => rfl
    | ⟨4, _⟩ => rfl
  right_inv _ := rfl

/-- So a sum over them is the fourfold sum over the coordinates. -/
theorem sum_idx5 {M : Type*} [AddCommMonoid M] {n1 n2 n3 n4 : Nat} (f : (⟨5, ![1, n1, n2, n3, n4]⟩ : Shape).Idx → M) :
    ∑ i, f i = ∑ b : Fin n1, ∑ c : Fin n2, ∑ h : Fin n3, ∑ w : Fin n4, f (ix5 (0 : Fin 1) b c h w) := by
  rw [← Equiv.sum_comp (idxEquiv5 (n1 := n1) (n2 := n2) (n3 := n3) (n4 := n4)).symm f, Fintype.sum_prod_type]
  refine Finset.sum_congr rfl fun b _ => ?_
  rw [Fintype.sum_prod_type]
  refine Finset.sum_congr rfl fun c _ => ?_
  rw [Fintype.sum_prod_type]
  rfl

/-- An a × b × c × d array viewed 1 × a × b × c × d reads, at (0, p, q, r, t), the operand at (p, q, r, t). -/
theorem shapeCast_abcd_1abcd_apply {α : Type} {a b c d : ℕ} (x : (⟨4, ![a, b, c, d]⟩ : Shape).Idx → α)
    (h : (⟨4, ![a, b, c, d]⟩ : Shape).ShapeCasts ⟨5, ![1, a, b, c, d]⟩) (p : Fin a) (q : Fin b) (r : Fin c) (t : Fin d) :
    shapeCast ⟨5, ![1, a, b, c, d]⟩ x h (ix5 (0 : Fin 1) p q r t) = x (ix4 p q r t) :=
  shapeCast_apply x h _ _ (by
    rw [Shape.rowMajor_val_four, Shape.rowMajor_val_five]
    show ((p.val * b + q.val) * c + r.val) * d + t.val = (((0 * a + p.val) * b + q.val) * c + r.val) * d + t.val
    rw [Nat.zero_mul, Nat.zero_add])

/-! ### The cross-entropy tile -/

/-- The indices of a 1 × n × 1 array are its middle coordinates. -/
def idxEquiv1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have := (i 0).isLt; simp at this; exact this.symm)
    | ⟨1, _⟩ => rfl
    | ⟨2, _⟩ => exact Fin.ext (by have := (i 2).isLt; simp at this; exact this.symm)
  right_inv _ := rfl

/-- So a sum over them is the sum over the middle coordinate. -/
theorem sum_idx1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv1n1 (n := n)).symm f]
  rfl

/-- An a-vector viewed as an a × 1 column reads, at (r, u), the operand at r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An a × 1 column broadcast along the rows reads, at (r, k), the column at r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (k : Fin b) :
    broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- The index over row r of an a × b array with column k inserted is (r, k). -/
theorem lift_row {a b : ℕ} (h : (⟨2, ![a, b]⟩ : Shape).Reduces [1] ⟨1, ![a]⟩) (r : Fin a) (k : Fin b) :
    h.lift (ix1 r) k = ix2 r k := by
  funext c
  refine Fin.ext ?_
  match c with
  | ⟨0, _⟩ => rfl
  | ⟨1, _⟩ => rfl

/-- A row's sum. -/
theorem rowSum_apply (v : FVec Ideal S128x10000 .f32) (h : S128x10000.Reduces [1] S128) (hφ : FKind.Formats .f32)
    (hacc : (0x00000000#32 : BitVec 32) = 0x00000000#32) (r : Fin 128) :
    multiReduction .add [1] S128 v 0x00000000#32 h hφ hacc (ix1 r) = ∑ k : Fin 10000, v (ix2 r k) := by
  refine (Ideal.multiReduction_add_single v _ h hφ hacc (ix1 r)).trans ?_
  exact Finset.sum_congr rfl fun k _ => congrArg v (lift_row h r k)

/-- The word 0xFF800000 denotes the bottom element. -/
theorem lit_neg_inf : Ideal.ofBits .f32 0xFF800000#32 = (⊥ : EReal) := by simp [Ideal.ofBits, Ideal.ieee]

/-- A row's maximum, folded from the bottom element, is the supremum of the row. -/
theorem rowMax_apply (x : FVec Ideal S128x10000 .f32) (h : S128x10000.Reduces [1] S128) (hφ : FKind.Formats .f32)
    (hacc : (0xFF800000#32 : BitVec 32) = 0xFF800000#32) (r : Fin 128) :
    multiReduction .maximumf [1] S128 x 0xFF800000#32 h hφ hacc (ix1 r) = rmax (fun k => x (ix2 r k)) := by
  refine (Ideal.multiReduction_maximumf_single x _ h hφ hacc (ix1 r)).trans ?_
  have hf : (x ∘ h.lift (ix1 r)) = fun k : Fin 10000 => x (ix2 r k) := funext fun k => congrArg x (lift_row h r k)
  have hb : (FloatOps.ofBits .f32 0xFF800000#32 : Ideal .f32) = (⊥ : EReal) := lit_neg_inf
  rw [hf, hb]
  rfl

theorem log_apply {s : Shape} {φ : FTy} (a : FVec Ideal s φ) (i : s.Idx) : log a i = Ideal.log (a i) := rfl
theorem exp_apply {s : Shape} {φ : FTy} (a : FVec Ideal s φ) (i : s.Idx) : exp a i = Ideal.exp (a i) := rfl

/-- A stored word: the scratch word plus one scalar. -/
theorem store_add (c : Ideal .f32) (s : Vec Ideal S8x128 .f32) (j : S8x128.Idx) :
    shapeCast S8x128 (addf s (broadcast S8x128 c)) shapeCasts_S8x128_S8x128 j = s j + c := by
  rw [shapeCast_self, addf_apply, broadcast_apply]

/-- The tile's last stage, over any vector `m` of row maxima and any vector `e` of row sums: the sum over the rows of
    max + log of the sum − the picked logit. -/
theorem ce_tail (m e : FVec Ideal S128 .f32) (g : FVec Ideal S128x1 .f32) :
    extractAt ![0, 0, 0]
      (shapeCast S1x1x1
        (multiReduction .add [1, 2] S1
          (shapeCast S1x128x1
            (subf (addf (shapeCast S128x1 m shapeCasts_S128_S128x1) (log (shapeCast S128x1 e shapeCasts_S128_S128x1)))
              (shapeCast S128x1 g shapeCasts_S128x1_S128x1))
            shapeCasts_S128x1_S1x128x1)
          0x00000000#32 reduces_S1x128x1_S1 (.inl rfl) rfl)
        shapeCasts_S1_S1x1x1)
      inpos_S1x1x1_p0_0_0
      = ∑ r : Fin 128, ((m (ix1 r) + Ideal.log (e (ix1 r))) - g (ix2 r (0 : Fin 1))) := by
  unfold extractAt
  refine (shapeCast_apply _ shapeCasts_S1_S1x1x1 _ (ix1 (0 : Fin 1)) ?_).trans ?_
  · rw [Shape.rowMajor_val_one, Shape.rowMajor_val_three]; rfl
  refine (Ideal.multiReduction_add_total _ _ reduces_S1x128x1_S1
    (fun b => match b with | ⟨0, _⟩ => rfl) _ _ _).trans ?_
  rw [sum_idx1n1]
  refine Finset.sum_congr rfl fun r _ => ?_
  rw [shapeCast_ab_1ab_apply, subf_apply, addf_apply, log_apply, shapeCast_self, shapeCast_a_a1_apply,
    shapeCast_a_a1_apply]

/-- A row's sum of exponentials, over any vector `m` of row maxima. -/
theorem ce_exp_sum (x : FVec Ideal S128x10000 .f32) (m : FVec Ideal S128 .f32) (r : Fin 128) :
    multiReduction .add [1] S128
        (exp (subf x (broadcastTo S128x10000 (shapeCast S128x1 m shapeCasts_S128_S128x1) broadcasts_S128x1_S128x10000)))
        0x00000000#32 reduces_S128x10000_S128 (.inl rfl) rfl (ix1 r)
      = ∑ k : Fin 10000, Ideal.exp (x (ix2 r k) - m (ix1 r)) := by
  rw [rowSum_apply]
  refine Finset.sum_congr rfl fun k _ => ?_
  rw [exp_apply, subf_apply, broadcastTo_a1_ab_apply, shapeCast_a_a1_apply]

end Small

open Small

/-- The first scalar of the image kernel is the tile's sum of squared differences. -/
theorem k0_pay6_eq (x0 x1 : Vec Ideal S4x3x128x512 .f32) : k0_pay6 (F := Ideal) x0 x1 = l2OfTile x0 x1 := by
  unfold k0_pay6 extractAt
  refine (shapeCast_apply _ shapeCasts_S1_S1x1x1x1x1 _ (ix1 (0 : Fin 1)) ?_).trans ?_
  · rw [Shape.rowMajor_val_one, Shape.rowMajor_val_five]; rfl
  refine (Ideal.multiReduction_add_total _ _ reduces_S1x4x3x128x512_S1
    (fun b => match b with | ⟨0, _⟩ => rfl) _ _ _).trans ?_
  rw [sum_idx5]
  unfold l2OfTile
  refine Finset.sum_congr rfl fun b _ => Finset.sum_congr rfl fun c _ => Finset.sum_congr rfl fun h _ =>
    Finset.sum_congr rfl fun w _ => ?_
  rw [shapeCast_abcd_1abcd_apply]
  rfl

/-- The cross-entropy kernel adds the tile's sum of (max + log-sum-exp − picked logit) to every entry. -/
theorem k1_pay2_apply (x : Vec Ideal S128x10000 .f32) (g : Vec Ideal S128x1 .f32) (s : Vec Ideal S8x128 .f32) (j : S8x128.Idx) :
    k1_pay2 (F := Ideal) x g s j = s j + ceOfTile x g := by
  unfold k1_pay2
  refine (store_add _ s j).trans (congrArg (s j + ·) ?_)
  refine (ce_tail _ _ g).trans ?_
  unfold ceOfTile
  refine Finset.sum_congr rfl fun r _ => ?_
  rw [ce_exp_sum, rowMax_apply]
  rfl

end Cert.KernelIdeal.Hand

end
-- ==== Proof.KerMask.lean ====
/- The image kernel's grey levels and masks, at a pixel. -/
import proofs.«424299_j59854664237538_3_alg».proof.Proof.Gen.KernelIdeal.Skeleton
import proofs.«424299_j59854664237538_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.Spec

/-- Rounding down a vector, read at an index, rounds the element down. -/
theorem floor_apply {s : Shape} {φ : FTy} (a : FVec Ideal s φ) (i : s.Idx) :
    floor a i = Ideal.liftRound Int.floor (a i) := rfl

/-- Channel `c` of a tile of four images, its unit axis dropped, read at (b, h, w): the tile at (b, c, h, w). -/
theorem chan_apply (x : S4x3x128x512.Idx → EReal) (o : Nat) (c : Fin 3) (hc : c.val = o)
    (hs : S4x3x128x512.Slices ![0, o, 0, 0] S4x1x128x512) (hsc : S4x1x128x512.ShapeCasts S4x128x512)
    (b : Fin 4) (h : Fin 128) (w : Fin 512) :
    shapeCast S4x128x512 (extractStridedSlice S4x1x128x512 ![0, o, 0, 0] x hs) hsc (ix3 b h w) = x (ix4 b c h w) := by
  refine (shapeCast_apply _ hsc (ix3 b h w) (ix4 b (0 : Fin 1) h w) ?_).trans ?_
  · rw [Shape.rowMajor_val_four, Shape.rowMajor_val_three]
    show ((b.val * 1 + 0) * 128 + h.val) * 512 + w.val = (b.val * 128 + h.val) * 512 + w.val
    rw [Nat.mul_one, Nat.add_zero]
  · exact slice4_axis1_apply o x hs b 0 h w c (by rw [hc]; rfl)

/-- The grey level of pixel (h, w) of image b of the tile. -/
theorem k0_pay7_apply (x : Vec Ideal S4x3x128x512 .f32) (b : Fin 4) (h : Fin 128) (w : Fin 512) :
    k0_pay7 (F := Ideal) x (ix3 b h w) = gray (tileImg x b) h w := by
  unfold k0_pay7
  simp only [floor_apply, divf_apply, addf_apply, mulf_apply, broadcast_apply]
  rw [chan_apply x 0 0 rfl, chan_apply x 1 1 rfl, chan_apply x 2 2 rfl]
  rfl

/-- A row's sum of grey levels. -/
theorem k0_pay8_apply (x : Vec Ideal S4x3x128x512 .f32) (b : Fin 4) (h : Fin 128) :
    k0_pay8 (F := Ideal) x (ix2 b h) = ∑ w : Fin 512, gray (tileImg x b) h w := by
  unfold k0_pay8
  refine (Ideal.multiReduction_add_single (k0_pay7 (F := Ideal) x) 0x00000000#32 reduces_S4x128x512_S4x128 (.inl rfl) rfl (ix2 b h)).trans ?_
  refine Finset.sum_congr rfl fun w _ => ?_
  have hi : reduces_S4x128x512_S4x128.lift (ix2 b h) w = ix3 b h w := by
    funext a; refine Fin.ext ?_
    match a with
    | ⟨0, _⟩ => rfl
    | ⟨1, _⟩ => rfl
    | ⟨2, _⟩ => rfl
  rw [hi]
  exact k0_pay7_apply x b h w

/-- The mask's payload spelt over the grey levels and their row sums: the grey level compared with the
    image's mean (the row sums summed down the columns, divided by 65536, spread over the image), selecting 0 or 1. -/
theorem k0_pay11_eq (x : Vec Ideal S4x3x128x512 .f32) :
    k0_pay11 (F := Ideal) x =
      select (cmpf .ogt (k0_pay7 (F := Ideal) x)
          (broadcastTo S4x128x512
            (divf (shapeCast S4x1x1
                (multiReduction (F := Ideal) .add [1] S4x1
                  (shapeCast S4x128x1 (k0_pay8 (F := Ideal) x) shapeCasts_S4x128_S4x128x1)
                  0x00000000#32 reduces_S4x128x1_S4x1 (.inl rfl) rfl) shapeCasts_S4x1_S4x1x1)
              (broadcast S4x1x1 (Scalar.ofBits (F := Ideal) .f32 0x47800000#32)))
            broadcasts_S4x1x1_S4x128x512))
        (broadcast S4x128x512 (Scalar.ofBits (F := Ideal) .f32 0x00000000#32))
        (broadcast S4x128x512 (Scalar.ofBits (F := Ideal) .f32 0x3F800000#32)) := rfl

/-- The row sums, as a column, read at (b, k, 0): row k's sum of grey levels. -/
theorem rowsum_col_apply (x : Vec Ideal S4x3x128x512 .f32) (b : Fin 4) (k : Fin 128) :
    shapeCast S4x128x1 (k0_pay8 (F := Ideal) x) shapeCasts_S4x128_S4x128x1 (ix3 b k (0 : Fin 1))
      = ∑ w : Fin 512, gray (tileImg x b) k w := by
  refine (shapeCast_apply _ shapeCasts_S4x128_S4x128x1 (ix3 b k (0 : Fin 1)) (ix2 b k) ?_).trans (k0_pay8_apply x b k)
  rw [Shape.rowMajor_val_three, Shape.rowMajor_val_two]
  show b.val * 128 + k.val = (b.val * 128 + k.val) * 1 + 0
  rw [Nat.mul_one, Nat.add_zero]

/-- The image's mean grey level, as the kernel takes it: the row sums summed, divided by 65536. -/
theorem mean_apply (x : Vec Ideal S4x3x128x512 .f32) (b : Fin 4) :
    divf (shapeCast S4x1x1
        (multiReduction (F := Ideal) .add [1] S4x1
          (shapeCast S4x128x1 (k0_pay8 (F := Ideal) x) shapeCasts_S4x128_S4x128x1)
          0x00000000#32 reduces_S4x128x1_S4x1 (.inl rfl) rfl) shapeCasts_S4x1_S4x1x1)
      (broadcast S4x1x1 (Scalar.ofBits (F := Ideal) .f32 0x47800000#32)) (ix3 b (0 : Fin 1) (0 : Fin 1))
      = thres (tileImg x b) := by
  rw [divf_apply, broadcast_apply]
  unfold thres
  refine congrArg (fun s => Ideal.div s _) ?_
  refine (shapeCast_apply _ shapeCasts_S4x1_S4x1x1 (ix3 b (0 : Fin 1) (0 : Fin 1)) (ix2 b (0 : Fin 1)) ?_).trans ?_
  · rw [Shape.rowMajor_val_three, Shape.rowMajor_val_two]
    show b.val * 1 + 0 = (b.val * 1 + 0) * 1 + 0
    omega
  refine (Ideal.multiReduction_add_single
    (shapeCast S4x128x1 (k0_pay8 (F := Ideal) x) shapeCasts_S4x128_S4x128x1) 0x00000000#32
    reduces_S4x128x1_S4x1 (.inl rfl) rfl (ix2 b (0 : Fin 1))).trans ?_
  refine Finset.sum_congr rfl fun k _ => ?_
  have hi : reduces_S4x128x1_S4x1.lift (ix2 b (0 : Fin 1)) k = ix3 b k (0 : Fin 1) := by
    funext a; refine Fin.ext ?_
    match a with
    | ⟨0, _⟩ => rfl
    | ⟨1, _⟩ => rfl
    | ⟨2, _⟩ => rfl
  rw [hi]
  exact rowsum_col_apply x b k

/-- The target image's mask. -/
theorem k0_pay11_apply (x : Vec Ideal S4x3x128x512 .f32) (b : Fin 4) (h : Fin 128) (w : Fin 512) :
    k0_pay11 (F := Ideal) x (ix3 b h w) = mask (tileImg x b) h w := by
  rw [k0_pay11_eq, select_apply, cmpf_apply, broadcast_apply, broadcast_apply, k0_pay7_apply]
  rw [broadcastTo_apply _ broadcasts_S4x1x1_S4x128x512 (ix3 b h w) (ix3 b (0 : Fin 1) (0 : Fin 1)) (fun a => by
    match a with
    | ⟨0, _⟩ => rfl
    | ⟨1, _⟩ => rfl
    | ⟨2, _⟩ => rfl), mean_apply]
  unfold mask
  by_cases hlt : thres (tileImg x b) < gray (tileImg x b) h w
  · rw [if_pos hlt]
    simp [Scalar.select, Ideal.cmpf_def, Ideal.cmp, hlt]
  · rw [if_neg hlt]
    simp [Scalar.select, Ideal.cmpf_def, Ideal.cmp, hlt]

end Cert.KernelIdeal.Hand

end
-- ==== Proof.KerLg.lean ====
/- The image kernel's gradient term of a tile is the tile's sum of gradient differences. -/
import proofs.«424299_j59854664237538_3_alg».proof.Proof.Acc
import proofs.«424299_j59854664237538_3_alg».proof.Proof.KerMask
import Idealize.ShloMosaic.Lib.KernelVsHost
import Idealize.ShloMosaic.Lib.ValueLayout
import Idealize.ShloMosaic.PureOps.Ideal.Laws
import Idealize.ShloMosaic.Lib.StableHlo.Predicate

noncomputable section

namespace Cert.KernelIdeal.Hand

open Idealize.ShloMosaic Idealize.ShloMosaic.ValueIdx Cert.KernelIdeal Cert.KernelIdeal.Gen Cert.Spec
open Idealize.ShloMosaic.StableHlo.Predicate (cmpi_eq_iff)

/-! ### Words: a coordinate tested against a constant -/

/-- Two numbers below 2³² are equal as 32-bit words exactly when they are equal. -/
theorem ofNat_eq_iff (a c : ℕ) (ha : a < 2 ^ 32) (hc : c < 2 ^ 32) :
    BitVec.ofNat 32 a = BitVec.ofNat 32 c ↔ a = c := by
  constructor
  · intro h
    have := congrArg BitVec.toNat h
    rw [BitVec.toNat_ofNat, BitVec.toNat_ofNat, Nat.mod_eq_of_lt ha, Nat.mod_eq_of_lt hc] at this
    exact this
  · intro h; rw [h]

/-- A select on "the coordinate's word equals the constant's" is the `if` on the numbers. -/
theorem select_cmpi_eq {α : Type} (a c : ℕ) (ha : a < 2 ^ 32) (hc : c < 2 ^ 32) (x y : α) :
    Scalar.select (IntOp.cmpi .eq (BitVec.ofNat 32 a) (BitVec.ofNat 32 c)) x y = if a = c then x else y := by
  unfold Scalar.select
  by_cases h : a = c
  · rw [if_pos h]; exact if_pos (cmpi_eq_iff.2 (congrArg (BitVec.ofNat 32) h))
  · rw [if_neg h]; exact if_neg (fun h' => h ((ofNat_eq_iff a c ha hc).1 (cmpi_eq_iff.1 h')))

/-! ### Rotations of a stack of four 128 × 512 arrays, read at a pixel -/

/-- A rotation along the columns reads the column moved back by the amount, around the end. -/
theorem rot2_apply {α : Type} (m : S4x128x512.Idx → α) (n : BitVec 32) (hr : S4x128x512.Rotates 2 none)
    (b : Fin 4) (h : Fin 128) (w : Fin 512) :
    dynamicRotate 2 n none m hr (ix3 b h w)
      = m (ix3 b h ⟨(w.val + 512 - n.toNat % 512) % 512, Nat.mod_lt _ (by decide)⟩) :=
  dynamicRotate_apply 2 n m hr _ _ (fun a => by
    match a with
    | ⟨0, _⟩ => rfl
    | ⟨1, _⟩ => rfl
    | ⟨2, _⟩ => rfl)

/-- A rotation along the rows reads the row moved back by the amount, around the end. -/
theorem rot1_apply {α : Type} (m : S4x128x512.Idx → α) (n : BitVec 32) (hr : S4x128x512.Rotates 1 none)
    (b : Fin 4) (h : Fin 128) (w : Fin 512) :
    dynamicRotate 1 n none m hr (ix3 b h w)
      = m (ix3 b ⟨(h.val + 128 - n.toNat % 128) % 128, Nat.mod_lt _ (by decide)⟩ w) :=
  dynamicRotate_apply 1 n m hr _ _ (fun a => by
    match a with
    | ⟨0, _⟩ => rfl
    | ⟨1, _⟩ => rfl
    | ⟨2, _⟩ => rfl)

/-- A select on "the column is `c`": the first array's entry in column `c`, the second's elsewhere. -/
theorem colTest_apply {α : Type} (c : ℕ) (hc : c < 2 ^ 32) (z y : S4x128x512.Idx → α) (hi : S4x128x512.Iotas .tc 32 [2])
    (b : Fin 4) (h : Fin 128) (w : Fin 512) :
    select (cmpi .eq (iota .tc S4x128x512 32 [2] hi) (broadcast S4x128x512 (BitVec.ofNat 32 c))) z y (ix3 b h w)
      = if w.val = c then z (ix3 b h w) else y (ix3 b h w) := by
  have hw : w.val < 2 ^ 32 := lt_trans w.isLt (by decide)
  show Scalar.select (IntOp.cmpi .eq (iota .tc S4x128x512 32 [2] hi (ix3 b h w)) (BitVec.ofNat 32 c)) (z (ix3 b h w)) (y (ix3 b h w)) = _
  rw [iota_single_apply]
  exact select_cmpi_eq w.val c hw hc _ _

/-- A select on "the row is `c`": the first array's entry in row `c`, the second's elsewhere. -/
theorem rowTest_apply {α : Type} (c : ℕ) (hc : c < 2 ^ 32) (z y : S4x128x512.Idx → α) (hi : S4x128x512.Iotas .tc 32 [1])
    (b : Fin 4) (h : Fin 128) (w : Fin 512) :
    select (cmpi .eq (iota .tc S4x128x512 32 [1] hi) (broadcast S4x128x512 (BitVec.ofNat 32 c))) z y (ix3 b h w)
      = if h.val = c then z (ix3 b h w) else y (ix3 b h w) := by
  have hh : h.val < 2 ^ 32 := lt_trans h.isLt (by decide)
  show Scalar.select (IntOp.cmpi .eq (iota .tc S4x128x512 32 [1] hi (ix3 b h w)) (BitVec.ofNat 32 c)) (z (ix3 b h w)) (y (ix3 b h w)) = _
  rw [iota_single_apply]
  exact select_cmpi_eq h.val c hh hc _ _

/-! ### The four neighbours of a pixel, zero past the image's edge -/

/-- An array over the tile read at natural-number coordinates of image `b`: 0 outside the image. -/
def extN (m : S4x128x512.Idx → EReal) (b : Fin 4) (h w : ℕ) : EReal :=
  if hh : h < 128 then (if hw : w < 512 then m (ix3 b ⟨h, hh⟩ ⟨w, hw⟩) else 0) else 0

/-- Inside the image that reading is the array's entry. -/
theorem extN_of_lt (m : S4x128x512.Idx → EReal) (b : Fin 4) (h w : ℕ) (hh : h < 128) (hw : w < 512) :
    extN m b h w = m (ix3 b ⟨h, hh⟩ ⟨w, hw⟩) := by
  unfold extN; rw [dif_pos hh, dif_pos hw]

/-- The zero word is the number 0. -/
theorem zeroWord : (Scalar.ofBits (F := Ideal) .f32 0x00000000#32 : EReal) = 0 := Ideal.ofBits_zero_f32

/-- Rotated by 511 along the columns and zeroed in the last column: the right neighbour. -/
theorem right_apply (m : FVec Ideal S4x128x512 .f32) (hi : S4x128x512.Iotas .tc 32 [2]) (hr : S4x128x512.Rotates 2 none)
    (b : Fin 4) (h : Fin 128) (w : Fin 512) :
    select (cmpi .eq (iota .tc S4x128x512 32 [2] hi) (broadcast S4x128x512 511#32))
        (broadcast S4x128x512 (Scalar.ofBits .f32 0x00000000#32)) (dynamicRotate 2 511#32 none m hr) (ix3 b h w)
      = extN m b h.val (w.val + 1) := by
  refine (colTest_apply 511 (by decide) _ _ hi b h w).trans ?_
  by_cases hw : w.val = 511
  · rw [if_pos hw]; unfold extN; rw [dif_pos h.isLt, dif_neg (by omega)]; exact zeroWord
  · have hlt := w.isLt
    rw [if_neg hw, rot2_apply, extN_of_lt m b h.val (w.val + 1) h.isLt (by omega)]
    refine congrArg m (congrArg (ix3 b h) (Fin.ext ?_))
    show (w.val + 512 - (511#32 : BitVec 32).toNat % 512) % 512 = w.val + 1
    have hn : (511#32 : BitVec 32).toNat % 512 = 511 := by decide
    rw [hn]; omega

/-- Rotated by 1 along the columns and zeroed in the first column: the left neighbour. -/
theorem left_apply (m : FVec Ideal S4x128x512 .f32) (hi : S4x128x512.Iotas .tc 32 [2]) (hr : S4x128x512.Rotates 2 none)
    (b : Fin 4) (h : Fin 128) (w : Fin 512) :
    select (cmpi .eq (iota .tc S4x128x512 32 [2] hi) (broadcast S4x128x512 0#32))
        (broadcast S4x128x512 (Scalar.ofBits .f32 0x00000000#32)) (dynamicRotate 2 1#32 none m hr) (ix3 b h w)
      = if w.val = 0 then 0 else extN m b h.val (w.val - 1) := by
  refine (colTest_apply 0 (by decide) _ _ hi b h w).trans ?_
  by_cases hw : w.val = 0
  · rw [if_pos hw, if_pos hw]; exact zeroWord
  · have hlt := w.isLt
    rw [if_neg hw, if_neg hw, rot2_apply, extN_of_lt m b h.val (w.val - 1) h.isLt (by omega)]
    refine congrArg m (congrArg (ix3 b h) (Fin.ext ?_))
    show (w.val + 512 - (1#32 : BitVec 32).toNat % 512) % 512 = w.val - 1
    have hn : (1#32 : BitVec 32).toNat % 512 = 1 := by decide
    rw [hn]; omega

/-- Rotated by 1 along the rows and zeroed in the first row: the neighbour above. -/
theorem up_apply (m : FVec Ideal S4x128x512 .f32) (hi : S4x128x512.Iotas .tc 32 [1]) (hr : S4x128x512.Rotates 1 none)
    (b : Fin 4) (h : Fin 128) (w : Fin 512) :
    select (cmpi .eq (iota .tc S4x128x512 32 [1] hi) (broadcast S4x128x512 0#32))
        (broadcast S4x128x512 (Scalar.ofBits .f32 0x00000000#32)) (dynamicRotate 1 1#32 none m hr) (ix3 b h w)
      = if h.val = 0 then 0 else extN m b (h.val - 1) w.val := by
  refine (rowTest_apply 0 (by decide) _ _ hi b h w).trans ?_
  by_cases hh : h.val = 0
  · rw [if_pos hh, if_pos hh]; exact zeroWord
  · have hlt := h.isLt
    rw [if_neg hh, if_neg hh, rot1_apply, extN_of_lt m b (h.val - 1) w.val (by omega) w.isLt]
    refine congrArg m (congrArg (fun k => ix3 b k w) (Fin.ext ?_))
    show (h.val + 128 - (1#32 : BitVec 32).toNat % 128) % 128 = h.val - 1
    have hn : (1#32 : BitVec 32).toNat % 128 = 1 := by decide
    rw [hn]; omega

/-- Rotated by 127 along the rows and zeroed in the last row: the neighbour below. -/
theorem down_apply (m : FVec Ideal S4x128x512 .f32) (hi : S4x128x512.Iotas .tc 32 [1]) (hr : S4x128x512.Rotates 1 none)
    (b : Fin 4) (h : Fin 128) (w : Fin 512) :
    select (cmpi .eq (iota .tc S4x128x512 32 [1] hi) (broadcast S4x128x512 127#32))
        (broadcast S4x128x512 (Scalar.ofBits .f32 0x00000000#32)) (dynamicRotate 1 127#32 none m hr) (ix3 b h w)
      = extN m b (h.val + 1) w.val := by
  refine (rowTest_apply 127 (by decide) _ _ hi b h w).trans ?_
  by_cases hh : h.val = 127
  · rw [if_pos hh]; unfold extN; rw [dif_neg (by omega)]; exact zeroWord
  · have hlt := h.isLt
    rw [if_neg hh, rot1_apply, extN_of_lt m b (h.val + 1) w.val (by omega) w.isLt]
    refine congrArg m (congrArg (fun k => ix3 b k w) (Fin.ext ?_))
    show (h.val + 128 - (127#32 : BitVec 32).toNat % 128) % 128 = h.val + 1
    have hn : (127#32 : BitVec 32).toNat % 128 = 127 := by decide
    rw [hn]; omega

/-- Where the array is image `b`'s mask, its reading at natural-number coordinates is the mask's. -/
theorem extN_eq_maskN (m : S4x128x512.Idx → EReal) (b : Fin 4) (im : Image)
    (hm : ∀ (h : Fin 128) (w : Fin 512), m (ix3 b h w) = mask im h w) (h w : ℕ) :
    extN m b h w = maskN im h w := by
  unfold extN maskN
  by_cases hh : h < 128
  · rw [dif_pos hh, dif_pos hh]
    by_cases hw : w < 512
    · rw [dif_pos hw, dif_pos hw]; exact hm _ _
    · rw [dif_neg hw, dif_neg hw]
  · rw [dif_neg hh, dif_neg hh]

/-! ### The gradient magnitude of a tile of masks -/

/-- The right neighbour's array. -/
def nbrR (m : FVec Ideal S4x128x512 .f32) : FVec Ideal S4x128x512 .f32 :=
  select (cmpi .eq (iota .tc S4x128x512 32 [2] iota_S4x128x512_d2_w32) (broadcast S4x128x512 511#32))
    (broadcast S4x128x512 (Scalar.ofBits (F := Ideal) .f32 0x00000000#32)) (dynamicRotate 2 511#32 none m rotates_S4x128x512_d2)

/-- The left neighbour's array. -/
def nbrL (m : FVec Ideal S4x128x512 .f32) : FVec Ideal S4x128x512 .f32 :=
  select (cmpi .eq (iota .tc S4x128x512 32 [2] iota_S4x128x512_d2_w32) (broadcast S4x128x512 0#32))
    (broadcast S4x128x512 (Scalar.ofBits (F := Ideal) .f32 0x00000000#32)) (dynamicRotate 2 1#32 none m rotates_S4x128x512_d2)

/-- The array of the neighbours above. -/
def nbrU (m : FVec Ideal S4x128x512 .f32) : FVec Ideal S4x128x512 .f32 :=
  select (cmpi .eq (iota .tc S4x128x512 32 [1] iota_S4x128x512_d1_w32) (broadcast S4x128x512 0#32))
    (broadcast S4x128x512 (Scalar.ofBits (F := Ideal) .f32 0x00000000#32)) (dynamicRotate 1 1#32 none m rotates_S4x128x512_d1)

/-- The array of the neighbours below. -/
def nbrD (m : FVec Ideal S4x128x512 .f32) : FVec Ideal S4x128x512 .f32 :=
  select (cmpi .eq (iota .tc S4x128x512 32 [1] iota_S4x128x512_d1_w32) (broadcast S4x128x512 127#32))
    (broadcast S4x128x512 (Scalar.ofBits (F := Ideal) .f32 0x00000000#32)) (dynamicRotate 1 127#32 none m rotates_S4x128x512_d1)

/-- √((½(right − left))² + (½(up − down))² + ε), as the kernel spells it over whole arrays. -/
def gradV (m : FVec Ideal S4x128x512 .f32) : FVec Ideal S4x128x512 .f32 :=
  sqrt (addf
    (addf
      (mulf (mulf (subf (nbrR m) (nbrL m)) (broadcast S4x128x512 (Scalar.ofBits (F := Ideal) .f32 0x3F000000#32))) (mulf (subf (nbrR m) (nbrL m)) (broadcast S4x128x512 (Scalar.ofBits (F := Ideal) .f32 0x3F000000#32))))
      (mulf (mulf (subf (nbrU m) (nbrD m)) (broadcast S4x128x512 (Scalar.ofBits (F := Ideal) .f32 0x3F000000#32))) (mulf (subf (nbrU m) (nbrD m)) (broadcast S4x128x512 (Scalar.ofBits (F := Ideal) .f32 0x3F000000#32)))))
    (broadcast S4x128x512 (Scalar.ofBits (F := Ideal) .f32 0x358637BD#32)))

/-- Where the array is image `b`'s mask, the kernel's gradient magnitude at a pixel is the mask's. -/
theorem gradV_apply (m : FVec Ideal S4x128x512 .f32) (b : Fin 4) (im : Image)
    (hm : ∀ (h : Fin 128) (w : Fin 512), m (ix3 b h w) = mask im h w) (h : Fin 128) (w : Fin 512) :
    gradV m (ix3 b h w) = grad im h w := by
  have hR : nbrR m (ix3 b h w) = maskN im h.val (w.val + 1) :=
    (right_apply m _ _ b h w).trans (extN_eq_maskN m b im hm _ _)
  have hL : nbrL m (ix3 b h w) = if w.val = 0 then 0 else maskN im h.val (w.val - 1) := by
    refine (left_apply m _ _ b h w).trans ?_; rw [extN_eq_maskN m b im hm]
  have hU : nbrU m (ix3 b h w) = if h.val = 0 then 0 else maskN im (h.val - 1) w.val := by
    refine (up_apply m _ _ b h w).trans ?_; rw [extN_eq_maskN m b im hm]
  have hD : nbrD m (ix3 b h w) = maskN im (h.val + 1) w.val :=
    (down_apply m _ _ b h w).trans (extN_eq_maskN m b im hm _ _)
  show Ideal.sqrt
      ((((nbrR m (ix3 b h w) - nbrL m (ix3 b h w)) * lit 0x3F000000#32)
          * ((nbrR m (ix3 b h w) - nbrL m (ix3 b h w)) * lit 0x3F000000#32)
        + ((nbrU m (ix3 b h w) - nbrD m (ix3 b h w)) * lit 0x3F000000#32)
          * ((nbrU m (ix3 b h w) - nbrD m (ix3 b h w)) * lit 0x3F000000#32))
        + lit 0x358637BD#32) = _
  rw [hR, hL, hU, hD]
  rfl

/-! ### The sum over the tile -/

/-- The entries of a 1 × 4 × 128 × 512 array are numbered by image, row and column. -/
def idxEquivTile : S1x4x128x512.Idx ≃ Fin 4 × Fin 128 × Fin 512 where
  toFun i := (i 1, i 2, i 3)
  invFun p := ix4 (0 : Fin 1) p.1 p.2.1 p.2.2
  left_inv i := by
    have h1 : (i 0).val < 1 := (i 0).isLt
    have h0 : i 0 = (0 : Fin 1) := Fin.ext (Nat.lt_one_iff.mp h1)
    exact (congrArg (fun z => ix4 z (i 1) (i 2) (i 3)) h0.symm).trans (eq_ix4 i).symm
  right_inv _ := rfl

/-- So a sum over them is the triple sum. -/
theorem sum_tile (f : S1x4x128x512.Idx → EReal) :
    ∑ i, f i = ∑ b : Fin 4, ∑ h : Fin 128, ∑ w : Fin 512, f (ix4 (0 : Fin 1) b h w) := by
  rw [← Equiv.sum_comp idxEquivTile.symm f, Fintype.sum_prod_type]
  refine Finset.sum_congr rfl fun b _ => ?_
  exact Fintype.sum_prod_type _

/-- The kernel's total of an array over the tile: one leading unit axis added, every other axis summed away,
    the one entry taken. -/
def total (v : FVec Ideal S4x128x512 .f32) : Ideal .f32 :=
  extractAt ![0, 0, 0, 0]
    (shapeCast S1x1x1x1
      (multiReduction (F := Ideal) .add [1, 2, 3] S1 (shapeCast S1x4x128x512 v shapeCasts_S4x128x512_S1x4x128x512)
        0x00000000#32 reduces_S1x4x128x512_S1 (.inl rfl) rfl) shapeCasts_S1_S1x1x1x1)
    inpos_S1x1x1x1_p0_0_0_0

/-- That total is the triple sum over images, rows and columns. -/
theorem total_eq (v : FVec Ideal S4x128x512 .f32) :
    total v = ∑ b : Fin 4, ∑ h : Fin 128, ∑ w : Fin 512, v (ix3 b h w) := by
  unfold total extractAt
  refine (shapeCast_apply _ shapeCasts_S1_S1x1x1x1 _ (ix1 (0 : Fin 1)) ?_).trans ?_
  · rw [Shape.rowMajor_val_one, Shape.rowMajor_val_four]; rfl
  refine (Ideal.multiReduction_add_total _ 0x00000000#32 reduces_S1x4x128x512_S1 (fun a => ?_) (.inl rfl) rfl
    (ix1 (0 : Fin 1))).trans ?_
  · match a with
    | ⟨0, _⟩ => rfl
  rw [sum_tile]
  refine Finset.sum_congr rfl fun b _ => Finset.sum_congr rfl fun h _ => Finset.sum_congr rfl fun w _ => ?_
  exact shapeCast_abc_1abc_apply v _ (0 : Fin 1) b h w

/-! ### The kernel's gradient term -/

/-- The gradient term spelt over the two masks: the out image's mask inside the first gradient payload is the
    mask payload of the out block. -/
theorem lgp_unfold (x0 x1 : Vec Ideal S4x3x128x512 .f32) :
    lgp (F := Ideal) x0 x1
      = total (absf (subf (gradV (k0_pay11 (F := Ideal) x0)) (gradV (k0_pay11 (F := Ideal) x1)))) := rfl

/-- Pixel by pixel the kernel takes |grad(out mask) − grad(target mask)|, and its total over the tile is the triple sum. -/
theorem lgp_eq (x0 x1 : Vec Ideal S4x3x128x512 .f32) : lgp (F := Ideal) x0 x1 = lgOfTile x0 x1 := by
  rw [lgp_unfold, total_eq]
  unfold lgOfTile
  refine Finset.sum_congr rfl fun b _ => Finset.sum_congr rfl fun h _ => Finset.sum_congr rfl fun w _ => ?_
  show max (gradV (k0_pay11 (F := Ideal) x0) (ix3 b h w) - gradV (k0_pay11 (F := Ideal) x1) (ix3 b h w))
      (-(gradV (k0_pay11 (F := Ideal) x0) (ix3 b h w) - gradV (k0_pay11 (F := Ideal) x1) (ix3 b h w))) = _
  rw [gradV_apply _ b (tileImg x0 b) (fun h w => k0_pay11_apply x0 b h w),
    gradV_apply _ b (tileImg x1 b) (fun h w => k0_pay11_apply x1 b h w)]
  rfl

end Cert.KernelIdeal.Hand

end
-- ==== Proof.Fold.lean ====
/- The accumulators unrolled: after the last point of a half, every entry is the sum of the half's sixteen tiles. -/
import proofs.«424299_j59854664237538_3_alg».proof.Proof.Acc
import proofs.«424299_j59854664237538_3_alg».proof.Proof.KerSmall
import proofs.«424299_j59854664237538_3_alg».proof.Proof.KerLg

noncomputable section

namespace Cert.KernelIdeal.Hand

open Idealize.ShloMosaic Idealize.ShloMosaic.ValueIdx Cert.KernelIdeal Cert.KernelIdeal.Gen Cert.Spec

/-! ### A running sum that restarts at every multiple of sixteen -/

/-- If `r` starts at `0 + a 0` and at each later step adds `a (n + 1)` to the previous value, or to zero when
    `n + 1` is a multiple of sixteen, then within a block of sixteen steps `r` is the block's partial sum. -/
theorem fold16 (a r : ℕ → EReal) (h0 : r 0 = 0 + a 0)
    (hs : ∀ n, r (n + 1) = (if (n + 1) % 16 = 0 then 0 else r n) + a (n + 1)) (p i : ℕ) (hi : i < 16) :
    r (16 * p + i) = ∑ k ∈ Finset.range (i + 1), a (16 * p + k) := by
  induction i with
  | zero =>
    rw [Nat.zero_add, Finset.sum_range_one, Nat.add_zero]
    rcases Nat.eq_zero_or_pos p with rfl | hp
    · rw [Nat.mul_zero, h0, zero_add]
    · obtain ⟨q, rfl⟩ : ∃ q, p = q + 1 := ⟨p - 1, by omega⟩
      have e : 16 * (q + 1) = (16 * q + 15) + 1 := by omega
      have hz : ((16 * q + 15) + 1) % 16 = 0 := by omega
      rw [e, hs (16 * q + 15), if_pos hz, zero_add]
  | succ i ih =>
    have e : 16 * p + (i + 1) = (16 * p + i) + 1 := by omega
    have hne : ¬ ((16 * p + i) + 1) % 16 = 0 := by omega
    rw [Finset.sum_range_succ, ← ih (by omega), e, hs (16 * p + i), if_neg hne]

/-- At the last step of a block, `r` is the sum of the block's sixteen terms. -/
theorem fold16_last (a r : ℕ → EReal) (h0 : r 0 = 0 + a 0)
    (hs : ∀ n, r (n + 1) = (if (n + 1) % 16 = 0 then 0 else r n) + a (n + 1)) (p : ℕ) :
    r (16 * p + 15) = ∑ s : Fin 16, a (16 * p + s.val) := by
  rw [fold16 a r h0 hs p 15 (by omega)]
  exact (Fin.sum_univ_eq_sum_range (fun k => a (16 * p + k)) 16).symm

/-! ### The three accumulators after the last point of a half -/

theorem acc0a_last (x0 x1 : ℕ → Vec Ideal S4x3x128x512 .f32) (p : ℕ) (j : S8x128.Idx) :
    acc0a (F := Ideal) x0 x1 (16 * p + 15) j = ∑ s : Fin 16, l2OfTile (x0 (16 * p + s.val)) (x1 (16 * p + s.val)) := by
  refine fold16_last (fun n => l2OfTile (x0 n) (x1 n)) (fun n => acc0a (F := Ideal) x0 x1 n j) ?_ ?_ p
  · show acc0a (F := Ideal) x0 x1 0 j = 0 + l2OfTile (x0 0) (x1 0)
    rw [acc0a, k0_pay16_apply, k0_pay4_apply, k0_pay6_eq]
  · intro n
    show acc0a (F := Ideal) x0 x1 (n + 1) j
      = (if (n + 1) % 16 = 0 then 0 else acc0a (F := Ideal) x0 x1 n j) + l2OfTile (x0 (n + 1)) (x1 (n + 1))
    rw [acc0a, k0_pay16_apply, k0_pay6_eq]
    by_cases hc : (n + 1) % 16 = 0
    · rw [if_pos hc, if_pos hc, k0_pay4_apply]
    · rw [if_neg hc, if_neg hc]

theorem acc0b_last (x0 x1 : ℕ → Vec Ideal S4x3x128x512 .f32) (p : ℕ) (j : S8x128.Idx) :
    acc0b (F := Ideal) x0 x1 (16 * p + 15) j = ∑ s : Fin 16, lgOfTile (x0 (16 * p + s.val)) (x1 (16 * p + s.val)) := by
  refine fold16_last (fun n => lgOfTile (x0 n) (x1 n)) (fun n => acc0b (F := Ideal) x0 x1 n j) ?_ ?_ p
  · show acc0b (F := Ideal) x0 x1 0 j = 0 + lgOfTile (x0 0) (x1 0)
    rw [acc0b, k0_pay1_apply, k0_pay5_apply, lgp_eq]
  · intro n
    show acc0b (F := Ideal) x0 x1 (n + 1) j
      = (if (n + 1) % 16 = 0 then 0 else acc0b (F := Ideal) x0 x1 n j) + lgOfTile (x0 (n + 1)) (x1 (n + 1))
    rw [acc0b, k0_pay1_apply, lgp_eq]
    by_cases hc : (n + 1) % 16 = 0
    · rw [if_pos hc, if_pos hc, k0_pay5_apply]
    · rw [if_neg hc, if_neg hc]

theorem acc1_last (x : ℕ → Vec Ideal S128x10000 .f32) (g : ℕ → Vec Ideal S128x1 .f32) (p : ℕ) (j : S8x128.Idx) :
    acc1 (F := Ideal) x g (16 * p + 15) j = ∑ s : Fin 16, ceOfTile (x (16 * p + s.val)) (g (16 * p + s.val)) := by
  refine fold16_last (fun n => ceOfTile (x n) (g n)) (fun n => acc1 (F := Ideal) x g n j) ?_ ?_ p
  · show acc1 (F := Ideal) x g 0 j = 0 + ceOfTile (x 0) (g 0)
    rw [acc1, k1_pay2_apply, k1_pay1_apply]
  · intro n
    show acc1 (F := Ideal) x g (n + 1) j
      = (if (n + 1) % 16 = 0 then 0 else acc1 (F := Ideal) x g n j) + ceOfTile (x (n + 1)) (g (n + 1))
    rw [acc1, k1_pay2_apply]
    by_cases hc : (n + 1) % 16 = 0
    · rw [if_pos hc, if_pos hc, k1_pay1_apply]
    · rw [if_neg hc, if_neg hc]

end Cert.KernelIdeal.Hand

end
-- ==== Proof.Val0.lean ====
/- What the image kernel's region leaves in its two output arrays: at row 8·p, column 0, half p's mean. -/
import proofs.«424299_j59854664237538_3_alg».proof.Proof.Region0
import proofs.«424299_j59854664237538_3_alg».proof.Proof.Fold
import proofs.«424299_j59854664237538_3_alg».proof.Proof.Spec
import Idealize.ShloMosaic.Lib.Pipeline.Value

noncomputable section

namespace Cert.KernelIdeal.Hand

open Idealize.ShloMosaic Idealize.ShloMosaic.TcCoe Idealize.ShloMosaic.ValueIdx Cert.KernelIdeal Cert.KernelIdeal.Gen Cert.Spec
open Idealize.ShloMosaic.Pipeline (Dat)

variable (V : (c : Dev nD) → (b : Ref sig .tc) → Buf (Elt Ideal) ((c : Thread nD τ).loc b))

/-! ### The windows' block indices, decided once over the grid -/

/-- The two image windows' block index at a point: the point's number on the batch axis, zero on the others. -/
theorem idx_img : ∀ t : Fin cfg0.N,
    win0_0.index t (0 : Fin 4) = t.val ∧ win0_0.index t (1 : Fin 4) = 0 ∧ win0_0.index t (2 : Fin 4) = 0
      ∧ win0_0.index t (3 : Fin 4) = 0
      ∧ win0_1.index t (0 : Fin 4) = t.val ∧ win0_1.index t (1 : Fin 4) = 0 ∧ win0_1.index t (2 : Fin 4) = 0
      ∧ win0_1.index t (3 : Fin 4) = 0 :=
  (by decide +kernel : ∀ t : Fin grid0.N, _)

/-- The two output windows' block index at a point: the half the point lies in, and zero. -/
theorem idx_out : ∀ t : Fin cfg0.N,
    win0_2.index t (0 : Fin 2) = t.val / 16 ∧ win0_2.index t (1 : Fin 2) = 0
      ∧ win0_3.index t (0 : Fin 2) = t.val / 16 ∧ win0_3.index t (1 : Fin 2) = 0 :=
  (by decide +kernel : ∀ t : Fin grid0.N, _)

/-! ### The input blocks are four consecutive images of the batch -/

/-- An entry of the first input's block at point t is the array's entry four images per point further on. -/
theorem read_o (c : Dev nD) (t : Fin cfg0.N) (b : Fin 4) (ch : Fin 3) (h : Fin 128) (w : Fin 512)
    (hb : 4 * t.val + b.val < 128) :
    iblk0 V c 0 t (ix4 b ch h w) = V c main_arg0 (ix4 (⟨4 * t.val + b.val, hb⟩ : Fin 128) ch h w) := by
  obtain ⟨e0, e1, e2, e3, -⟩ := idx_img t
  unfold iblk0
  rw [View.read_apply]
  show V c main_arg0 (((cfg0.win 0).blk t).view.emb (ix4 b ch h w)) = V c main_arg0 _
  congr 1
  funext a
  apply Fin.ext
  match a with
  | ⟨0, _⟩ => show win0_0.index t (0 : Fin 4) * 4 + 1 * b.val = 4 * t.val + b.val; omega
  | ⟨1, _⟩ => show win0_0.index t (1 : Fin 4) * 3 + 1 * ch.val = ch.val; omega
  | ⟨2, _⟩ => show win0_0.index t (2 : Fin 4) * 128 + 1 * h.val = h.val; omega
  | ⟨3, _⟩ => show win0_0.index t (3 : Fin 4) * 512 + 1 * w.val = w.val; omega

/-- The same for the second input. -/
theorem read_t (c : Dev nD) (t : Fin cfg0.N) (b : Fin 4) (ch : Fin 3) (h : Fin 128) (w : Fin 512)
    (hb : 4 * t.val + b.val < 128) :
    iblk0 V c 1 t (ix4 b ch h w) = V c main_arg1 (ix4 (⟨4 * t.val + b.val, hb⟩ : Fin 128) ch h w) := by
  obtain ⟨-, -, -, -, e0, e1, e2, e3⟩ := idx_img t
  unfold iblk0
  rw [View.read_apply]
  show V c main_arg1 (((cfg0.win 1).blk t).view.emb (ix4 b ch h w)) = V c main_arg1 _
  congr 1
  funext a
  apply Fin.ext
  match a with
  | ⟨0, _⟩ => show win0_1.index t (0 : Fin 4) * 4 + 1 * b.val = 4 * t.val + b.val; omega
  | ⟨1, _⟩ => show win0_1.index t (1 : Fin 4) * 3 + 1 * ch.val = ch.val; omega
  | ⟨2, _⟩ => show win0_1.index t (2 : Fin 4) * 128 + 1 * h.val = h.val; omega
  | ⟨3, _⟩ => show win0_1.index t (3 : Fin 4) * 512 + 1 * w.val = w.val; omega

/-- A tile's block of the out-images is four consecutive images of the batch. -/
theorem tileImg_oblk0 (c : Dev nD) (k : ℕ) (hk : k < 32) (b : Fin 4) :
    tileImg (oblk0 V c k) b = img (V c main_arg0) (4 * k + b.val) := by
  have hN : cfg0.N = 32 := N_0
  have hb : 4 * k + b.val < 128 := by have := b.isLt; omega
  have hm : k % cfg0.N = k := by rw [hN]; exact Nat.mod_eq_of_lt hk
  funext ch h w
  unfold tileImg img oblk0
  rw [dif_pos hb, read_o V c ⟨k % cfg0.N, Nat.mod_lt _ N0_pos⟩ b ch h w
    (by show 4 * (k % cfg0.N) + b.val < 128; rw [hm]; exact hb)]
  congr 1
  funext a
  apply Fin.ext
  match a with
  | ⟨0, _⟩ => show 4 * (k % cfg0.N) + b.val = 4 * k + b.val; rw [hm]
  | ⟨1, _⟩ => rfl
  | ⟨2, _⟩ => rfl
  | ⟨3, _⟩ => rfl

theorem tileImg_tblk0 (c : Dev nD) (k : ℕ) (hk : k < 32) (b : Fin 4) :
    tileImg (tblk0 V c k) b = img (V c main_arg1) (4 * k + b.val) := by
  have hN : cfg0.N = 32 := N_0
  have hb : 4 * k + b.val < 128 := by have := b.isLt; omega
  have hm : k % cfg0.N = k := by rw [hN]; exact Nat.mod_eq_of_lt hk
  funext ch h w
  unfold tileImg img tblk0
  rw [dif_pos hb, read_t V c ⟨k % cfg0.N, Nat.mod_lt _ N0_pos⟩ b ch h w
    (by show 4 * (k % cfg0.N) + b.val < 128; rw [hm]; exact hb)]
  congr 1
  funext a
  apply Fin.ext
  match a with
  | ⟨0, _⟩ => show 4 * (k % cfg0.N) + b.val = 4 * k + b.val; rw [hm]
  | ⟨1, _⟩ => rfl
  | ⟨2, _⟩ => rfl
  | ⟨3, _⟩ => rfl

/-- So a tile's sum of squared differences over the blocks is the batch's tile. -/
theorem l2OfTile_blk (c : Dev nD) (k : ℕ) (hk : k < 32) :
    l2OfTile (oblk0 V c k) (tblk0 V c k) = Ker.l2tile (V c main_arg0) (V c main_arg1) k := by
  unfold l2OfTile Ker.l2tile
  refine Finset.sum_congr rfl fun b _ => ?_
  rw [tileImg_oblk0 V c k hk b, tileImg_tblk0 V c k hk b]
  rfl

/-- And a tile's sum of gradient differences over the blocks is the batch's tile. -/
theorem lgOfTile_blk (c : Dev nD) (k : ℕ) (hk : k < 32) :
    lgOfTile (oblk0 V c k) (tblk0 V c k) = Ker.lgtile (V c main_arg0) (V c main_arg1) k := by
  unfold lgOfTile Ker.lgtile
  refine Finset.sum_congr rfl fun b _ => ?_
  rw [tileImg_oblk0 V c k hk b, tileImg_tblk0 V c k hk b]
  rfl

/-! ### The output arrays from the write-backs -/

/-- The first output array at row 8·p, column 0: its window is written back at the last point of each half,
    block index the half, so whatever the body leaves at point 16·p + 15 (an 8 × 128 block of equal entries) is there. -/
theorem entry2 (c : Dev nD) (dat : Dat τ (Elt Ideal) Unit ℕ (UR sig nD τ) ℕ cfg0 c)
    (acc : ℕ → Vec Ideal S8x128 .f32) (val : ℕ → EReal)
    (hafter : ∀ t : Fin cfg0.N, dat.after 2 t = acc t.val)
    (hval : ∀ (q : ℕ) (j : S8x128.Idx), acc (16 * q + 15) j = val q) (p : Fin 2) :
    dat.arrAt 2 cfg0.N (ix2 (⟨8 * p.val, by omega⟩ : Fin 16) (0 : Fin 128)) = val p.val := by
  have hN : cfg0.N = 32 := N_0
  have hp : p.val < 2 := p.isLt
  -- the array the write-backs leave where they cover it: row r holds half r / 8's value
  have hG : ∀ t, (cfg0.win 2).flush t = true →
      dat.flushed 2 t = ((cfg0.win 2).blk t).view.read (Elt Ideal)
        (fun i : S16x128.Idx => (val ((i 0).val / 8) : Ideal .f32)) := by
    intro t hf
    have h15 : t.val % 16 = 15 := (flush0_2 t).mp hf
    obtain ⟨e0, e1, -⟩ := idx_out t
    show (cfg0.win 2).cut (grid0.coords t) (dat.after 2 t) = _
    rw [hafter t]
    funext j
    have hj : (j 0).val < 8 := (j 0).isLt
    rw [View.read_apply]
    show acc t.val ((cfg0.win 2).xinj (grid0.coords t) j)
      = val ((win0_2.index t (0 : Fin 2) * 8 + 1 * (j 0).val) / 8)
    have ht : t.val = 16 * (t.val / 16) + 15 := by omega
    have hv := hval (t.val / 16) ((cfg0.win 2).xinj (grid0.coords t) j)
    rw [← ht] at hv
    rw [hv]
    congr 1
    omega
  have hlt : 16 * p.val + 15 < cfg0.N := by rw [hN]; omega
  have hf : (cfg0.win 2).flush ⟨16 * p.val + 15, hlt⟩ = true :=
    (flush0_2 ⟨16 * p.val + 15, hlt⟩).mpr (by show (16 * p.val + 15) % 16 = 15; omega)
  have hi : (ix2 (⟨8 * p.val, by omega⟩ : Fin 16) (0 : Fin 128) : S16x128.Idx)
      ∈ ((cfg0.win 2).blk ⟨16 * p.val + 15, hlt⟩).view.set := by
    obtain ⟨e0, e1, -⟩ := idx_out ⟨16 * p.val + 15, hlt⟩
    have tv : (⟨16 * p.val + 15, hlt⟩ : Fin cfg0.N).val = 16 * p.val + 15 := rfl
    show _ ∈ ((View.whole main_v0_0).slice (win0_2.rect ⟨16 * p.val + 15, hlt⟩)).set
    rw [View.set_slice_whole, Rect.mem_set_unit]
    intro a
    match a with
    | ⟨0, _⟩ =>
      show win0_2.index ⟨16 * p.val + 15, hlt⟩ (0 : Fin 2) * 8 ≤ 8 * p.val
        ∧ 8 * p.val < win0_2.index ⟨16 * p.val + 15, hlt⟩ (0 : Fin 2) * 8 + 8
      omega
    | ⟨1, _⟩ =>
      show win0_2.index ⟨16 * p.val + 15, hlt⟩ (1 : Fin 2) * 128 ≤ 0
        ∧ 0 < win0_2.index ⟨16 * p.val + 15, hlt⟩ (1 : Fin 2) * 128 + 128
      omega
  rw [dat.arrAt_apply_of_mem 2 _ hG cfg0.N ⟨16 * p.val + 15, hlt⟩ _ hlt hf hi]
  show val (8 * p.val / 8) = val p.val
  congr 1
  omega

/-- The second output array at row 8·p, column 0, likewise. -/
theorem entry3 (c : Dev nD) (dat : Dat τ (Elt Ideal) Unit ℕ (UR sig nD τ) ℕ cfg0 c)
    (acc : ℕ → Vec Ideal S8x128 .f32) (val : ℕ → EReal)
    (hafter : ∀ t : Fin cfg0.N, dat.after 3 t = acc t.val)
    (hval : ∀ (q : ℕ) (j : S8x128.Idx), acc (16 * q + 15) j = val q) (p : Fin 2) :
    dat.arrAt 3 cfg0.N (ix2 (⟨8 * p.val, by omega⟩ : Fin 16) (0 : Fin 128)) = val p.val := by
  have hN : cfg0.N = 32 := N_0
  have hp : p.val < 2 := p.isLt
  have hG : ∀ t, (cfg0.win 3).flush t = true →
      dat.flushed 3 t = ((cfg0.win 3).blk t).view.read (Elt Ideal)
        (fun i : S16x128.Idx => (val ((i 0).val / 8) : Ideal .f32)) := by
    intro t hf
    have h15 : t.val % 16 = 15 := (flush0_3 t).mp hf
    obtain ⟨-, -, e0, e1⟩ := idx_out t
    show (cfg0.win 3).cut (grid0.coords t) (dat.after 3 t) = _
    rw [hafter t]
    funext j
    have hj : (j 0).val < 8 := (j 0).isLt
    rw [View.read_apply]
    show acc t.val ((cfg0.win 3).xinj (grid0.coords t) j)
      = val ((win0_3.index t (0 : Fin 2) * 8 + 1 * (j 0).val) / 8)
    have ht : t.val = 16 * (t.val / 16) + 15 := by omega
    have hv := hval (t.val / 16) ((cfg0.win 3).xinj (grid0.coords t) j)
    rw [← ht] at hv
    rw [hv]
    congr 1
    omega
  have hlt : 16 * p.val + 15 < cfg0.N := by rw [hN]; omega
  have hf : (cfg0.win 3).flush ⟨16 * p.val + 15, hlt⟩ = true :=
    (flush0_3 ⟨16 * p.val + 15, hlt⟩).mpr (by show (16 * p.val + 15) % 16 = 15; omega)
  have hi : (ix2 (⟨8 * p.val, by omega⟩ : Fin 16) (0 : Fin 128) : S16x128.Idx)
      ∈ ((cfg0.win 3).blk ⟨16 * p.val + 15, hlt⟩).view.set := by
    obtain ⟨-, -, e0, e1⟩ := idx_out ⟨16 * p.val + 15, hlt⟩
    have tv : (⟨16 * p.val + 15, hlt⟩ : Fin cfg0.N).val = 16 * p.val + 15 := rfl
    show _ ∈ ((View.whole main_v0_1).slice (win0_3.rect ⟨16 * p.val + 15, hlt⟩)).set
    rw [View.set_slice_whole, Rect.mem_set_unit]
    intro a
    match a with
    | ⟨0, _⟩ =>
      show win0_3.index ⟨16 * p.val + 15, hlt⟩ (0 : Fin 2) * 8 ≤ 8 * p.val
        ∧ 8 * p.val < win0_3.index ⟨16 * p.val + 15, hlt⟩ (0 : Fin 2) * 8 + 8
      omega
    | ⟨1, _⟩ =>
      show win0_3.index ⟨16 * p.val + 15, hlt⟩ (1 : Fin 2) * 128 ≤ 0
        ∧ 0 < win0_3.index ⟨16 * p.val + 15, hlt⟩ (1 : Fin 2) * 128 + 128
      omega
  rw [dat.arrAt_apply_of_mem 3 _ hG cfg0.N ⟨16 * p.val + 15, hlt⟩ _ hlt hf hi]
  show val (8 * p.val / 8) = val p.val
  congr 1
  omega

/-! ### The two entries the host reads -/

/-- The squared-difference output array at row 8·p, column 0. -/
theorem l2_out (c : Dev nD) (p : Fin 2) :
    (dat0 V c).arrAt 2 cfg0.N (ix2 (⟨8 * p.val, by omega⟩ : Fin 16) (0 : Fin 128))
      = Ker.half (Ker.l2tile (V c main_arg0) (V c main_arg1)) p.val (lit 0x4BC00000#32) := by
  have hp : p.val < 2 := p.isLt
  refine (entry2 c (dat0 V c) (fun n => k0_pay2 (acc0a (oblk0 V c) (tblk0 V c) n))
    (fun q => Ideal.div (∑ s : Fin 16, l2OfTile (oblk0 V c (16 * q + s.val)) (tblk0 V c (16 * q + s.val)))
      (lit 0x4BC00000#32))
    (fun t => after0_2 V c t) (fun q j => by rw [k0_pay2_apply, acc0a_last]) p).trans ?_
  unfold Ker.half
  refine congrArg (fun x => Ideal.div x (lit 0x4BC00000#32)) ?_
  exact Finset.sum_congr rfl fun s _ => l2OfTile_blk V c _ (by have := s.isLt; omega)

/-- The gradient-difference output array at row 8·p, column 0. -/
theorem lg_out (c : Dev nD) (p : Fin 2) :
    (dat0 V c).arrAt 3 cfg0.N (ix2 (⟨8 * p.val, by omega⟩ : Fin 16) (0 : Fin 128))
      = Ker.half (Ker.lgtile (V c main_arg0) (V c main_arg1)) p.val (lit 0x4B000000#32) := by
  have hp : p.val < 2 := p.isLt
  refine (entry3 c (dat0 V c) (fun n => k0_pay3 (acc0b (oblk0 V c) (tblk0 V c) n))
    (fun q => Ideal.div (∑ s : Fin 16, lgOfTile (oblk0 V c (16 * q + s.val)) (tblk0 V c (16 * q + s.val)))
      (lit 0x4B000000#32))
    (fun t => after0_3 V c t) (fun q j => by rw [k0_pay3_apply, acc0b_last]) p).trans ?_
  unfold Ker.half
  refine congrArg (fun x => Ideal.div x (lit 0x4B000000#32)) ?_
  exact Finset.sum_congr rfl fun s _ => lgOfTile_blk V c _ (by have := s.isLt; omega)

end Cert.KernelIdeal.Hand

end
-- ==== Proof.Val1.lean ====
/- What the cross-entropy kernel's region leaves in its output array: at row 8·p, column 0, half p's mean. -/
import proofs.«424299_j59854664237538_3_alg».proof.Proof.Region1
import proofs.«424299_j59854664237538_3_alg».proof.Proof.Fold
import proofs.«424299_j59854664237538_3_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Cert.KernelIdeal Cert.KernelIdeal.Gen Cert.Spec
open Idealize.ShloMosaic.Pipeline (Dat)

variable (V : (c : Dev nD) → (b : Ref sig .tc) → Buf (Elt Ideal) ((c : Thread nD τ).loc b))

/-! ### The input windows' blocks -/

/-- The logits window's block at a point: the point's number down the rows, 0 across. -/
theorem index1_0 : ∀ t : Fin cfg1.N, (cfg1.win 0).index t (0 : Fin 2) = t.val ∧ (cfg1.win 0).index t (1 : Fin 2) = 0 :=
  (by decide +kernel : ∀ t : Fin grid1.N, win1_0.index t (0 : Fin 2) = t.val ∧ win1_0.index t (1 : Fin 2) = 0)

/-- The picked-logit window's block at a point: the same. -/
theorem index1_1 : ∀ t : Fin cfg1.N, (cfg1.win 1).index t (0 : Fin 2) = t.val ∧ (cfg1.win 1).index t (1 : Fin 2) = 0 :=
  (by decide +kernel : ∀ t : Fin grid1.N, win1_1.index t (0 : Fin 2) = t.val ∧ win1_1.index t (1 : Fin 2) = 0)

/-- A tile's block of the logits is 128 consecutive rows. -/
theorem xblk1_apply (c : Dev nD) (k : ℕ) (hk : k < 32) (r : Fin 128) (j : Fin 10000) :
    xblk1 V c k (ix2 r j) = prow (V c main_arg2) (128 * k + r.val) j := by
  have hkN : k < cfg1.N := lt_of_lt_of_eq hk N_1.symm
  have h0 : (cfg1.win 0).index ⟨k, hkN⟩ (0 : Fin 2) = k := (index1_0 ⟨k, hkN⟩).1
  have h1 : (cfg1.win 0).index ⟨k, hkN⟩ (1 : Fin 2) = 0 := (index1_0 ⟨k, hkN⟩).2
  rw [show xblk1 V c k = iblk1 V c 0 ⟨k, hkN⟩ from xblk1_eq V c ⟨k, hkN⟩]
  unfold prow
  rw [dif_pos (by omega : 128 * k + r.val < 4096)]
  unfold iblk1
  rw [View.read_apply]
  show V c main_arg2 _ = V c main_arg2 _
  refine congrArg (V c main_arg2) (funext fun a => Fin.ext ?_)
  match a with
  | ⟨0, _⟩ =>
    show (cfg1.win 0).index ⟨k, hkN⟩ (0 : Fin 2) * 128 + 1 * r.val = 128 * k + r.val
    rw [h0]; omega
  | ⟨1, _⟩ =>
    show (cfg1.win 0).index ⟨k, hkN⟩ (1 : Fin 2) * 10000 + 1 * j.val = j.val
    rw [h1]; omega

/-- A tile's block of the picked logits is the same 128 rows of the gathered column. -/
theorem gblk1_apply (c : Dev nD) (k : ℕ) (hk : k < 32) (r : Fin 128) :
    gblk1 V c k (ix2 r (0 : Fin 1)) = V c main_v12 (ix2 (⟨128 * k + r.val, by omega⟩ : Fin 4096) (0 : Fin 1)) := by
  have hkN : k < cfg1.N := lt_of_lt_of_eq hk N_1.symm
  have h0 : (cfg1.win 1).index ⟨k, hkN⟩ (0 : Fin 2) = k := (index1_1 ⟨k, hkN⟩).1
  have h1 : (cfg1.win 1).index ⟨k, hkN⟩ (1 : Fin 2) = 0 := (index1_1 ⟨k, hkN⟩).2
  rw [show gblk1 V c k = iblk1 V c 1 ⟨k, hkN⟩ from gblk1_eq V c ⟨k, hkN⟩]
  unfold iblk1
  rw [View.read_apply]
  show V c main_v12 _ = V c main_v12 _
  refine congrArg (V c main_v12) (funext fun a => Fin.ext ?_)
  match a with
  | ⟨0, _⟩ =>
    show (cfg1.win 1).index ⟨k, hkN⟩ (0 : Fin 2) * 128 + 1 * r.val = 128 * k + r.val
    rw [h0]; omega
  | ⟨1, _⟩ =>
    show (cfg1.win 1).index ⟨k, hkN⟩ (1 : Fin 2) * 1 + 1 * 0 = 0
    rw [h1]

/-- A tile's term over the region's blocks is the tile's term over the arrays, when the gathered column holds
    each row's picked logit. -/
theorem ceOfTile_blk (c : Dev nD) (G : SGt.Idx → BitVec 32)
    (hG : ∀ i : Fin 4096, V c main_v12 (ix2 i (0 : Fin 1)) = rpick (prow (V c main_arg2) i.val) (gword G i.val))
    (k : ℕ) (hk : k < 32) :
    ceOfTile (xblk1 V c k) (gblk1 V c k) = Ker.cetile (V c main_arg2) G k := by
  unfold ceOfTile Ker.cetile
  refine Finset.sum_congr rfl fun r _ => ?_
  have hx : (fun j => xblk1 V c k (ix2 r j)) = prow (V c main_arg2) (128 * k + r.val) :=
    funext fun j => xblk1_apply V c k hk r j
  rw [hx, gblk1_apply V c k hk r, hG]

/-! ### The output array -/

/-- The output window's block at a point: the point's half down the rows, 0 across. -/
theorem index1_2 : ∀ t : Fin cfg1.N, (cfg1.win 2).index t (0 : Fin 2) = t.val / 16 ∧ (cfg1.win 2).index t (1 : Fin 2) = 0 :=
  (by decide +kernel : ∀ t : Fin grid1.N, win1_2.index t (0 : Fin 2) = t.val / 16 ∧ win1_2.index t (1 : Fin 2) = 0)

/-- Half `p`'s sixteen tile terms summed and divided by the count. -/
def halfMean (c : Dev nD) (p : ℕ) : EReal :=
  Ideal.div (∑ s : Fin 16, ceOfTile (xblk1 V c (16 * p + s.val)) (gblk1 V c (16 * p + s.val))) (lit 0x45800000#32)

/-- The 16 × 128 array whose rows 8p … 8p + 7 all hold half p's mean. -/
def ceArr (c : Dev nD) : S16x128.Idx → EReal := fun i => halfMean V c ((i 0).val / 8)

/-- A point that writes the output block back (the last of its half) writes its block of that array: every entry
    of the accumulator after the half's last point is the half's sum, and the stored block is it divided by the count. -/
theorem flushed1_2 (c : Dev nD) (t : Fin cfg1.N) (hf : (cfg1.win 2).flush t = true) :
    (dat1 V c).flushed 2 t = ((cfg1.win 2).blk t).view.read (Elt Ideal) (ceArr V c) := by
  have h15 : t.val % 16 = 15 := (flush1_2 t).mp hf
  have ht : 16 * (t.val / 16) + 15 = t.val := by omega
  have h0 : (cfg1.win 2).index t (0 : Fin 2) = t.val / 16 := (index1_2 t).1
  funext y
  have hy : (y 0).val < 8 := (y 0).isLt
  rw [View.read_apply]
  show (cfg1.win 2).cut (cfg1.grid.coords t) ((dat1 V c).after 2 t) y = _
  rw [after1_2]
  show k1_pay3 (acc1 (xblk1 V c) (gblk1 V c) t.val) ((cfg1.win 2).xinj (cfg1.grid.coords t) y)
    = halfMean V c (((cfg1.win 2).index t (0 : Fin 2) * 8 + 1 * (y 0).val) / 8)
  rw [k1_pay3_apply, h0, show (t.val / 16 * 8 + 1 * (y 0).val) / 8 = t.val / 16 by omega]
  have hacc := acc1_last (xblk1 V c) (gblk1 V c) (t.val / 16) ((cfg1.win 2).xinj (cfg1.grid.coords t) y)
  rw [ht] at hacc
  rw [hacc]
  rfl

/-- The output array at row 8·p, column 0, when the gathered column holds each row's picked logit. -/
theorem ce_out (c : Dev nD) (p : Fin 2) (G : SGt.Idx → BitVec 32)
    (hG : ∀ i : Fin 4096, V c main_v12 (ix2 i (0 : Fin 1)) = rpick (prow (V c main_arg2) i.val) (gword G i.val)) :
    (dat1 V c).arrAt 2 cfg1.N (ix2 (⟨8 * p.val, by omega⟩ : Fin 16) (0 : Fin 128))
      = Ker.half (Ker.cetile (V c main_arg2) G) p.val (lit 0x45800000#32) := by
  have hp : p.val < 2 := p.isLt
  have htN : 16 * p.val + 15 < cfg1.N := lt_of_lt_of_eq (by omega : 16 * p.val + 15 < 32) N_1.symm
  have hf : (cfg1.win 2).flush ⟨16 * p.val + 15, htN⟩ = true :=
    (flush1_2 ⟨16 * p.val + 15, htN⟩).mpr (by show (16 * p.val + 15) % 16 = 15; omega)
  have h0 : (cfg1.win 2).index ⟨16 * p.val + 15, htN⟩ (0 : Fin 2) = (16 * p.val + 15) / 16 := (index1_2 _).1
  have h1 : (cfg1.win 2).index ⟨16 * p.val + 15, htN⟩ (1 : Fin 2) = 0 := (index1_2 _).2
  have hmem : (ix2 (⟨8 * p.val, by omega⟩ : Fin 16) (0 : Fin 128) : S16x128.Idx)
      ∈ ((cfg1.win 2).blk ⟨16 * p.val + 15, htN⟩).view.set := by
    show _ ∈ ((View.whole main_v13).slice (win1_2.rect ⟨16 * p.val + 15, htN⟩)).set
    rw [View.set_slice_whole, Rect.mem_set_unit]
    intro a
    match a with
    | ⟨0, _⟩ =>
      show (cfg1.win 2).index ⟨16 * p.val + 15, htN⟩ (0 : Fin 2) * 8 ≤ 8 * p.val
        ∧ 8 * p.val < (cfg1.win 2).index ⟨16 * p.val + 15, htN⟩ (0 : Fin 2) * 8 + 8
      rw [h0]; omega
    | ⟨1, _⟩ =>
      show (cfg1.win 2).index ⟨16 * p.val + 15, htN⟩ (1 : Fin 2) * 128 ≤ 0
        ∧ 0 < (cfg1.win 2).index ⟨16 * p.val + 15, htN⟩ (1 : Fin 2) * 128 + 128
      rw [h1]; omega
  refine ((dat1 V c).arrAt_apply_of_mem 2 (ceArr V c) (flushed1_2 V c) cfg1.N ⟨16 * p.val + 15, htN⟩ _
    (Fin.is_lt _) hf hmem).trans ?_
  show halfMean V c (8 * p.val / 8) = _
  rw [show 8 * p.val / 8 = p.val by omega]
  unfold halfMean Ker.half
  refine congrArg (fun z => Ideal.div z (lit 0x45800000#32)) (Finset.sum_congr rfl fun s _ => ?_)
  exact ceOfTile_blk V c G hG (16 * p.val + s.val) (by have := s.isLt; omega)

end Cert.KernelIdeal.Hand

end
-- ==== Proof.Host.lean ====
/- The kernel program's host lines: the slices and sums of the regions' outputs, the weighted sum. -/
import proofs.«424299_j59854664237538_3_alg».proof.Proof.Gen.KernelIdeal.Regions
import proofs.«424299_j59854664237538_3_alg».proof.Proof.Spec
import Idealize.ShloMosaic.Lib.StableHlo.Run
import Idealize.ShloMosaic.Lib.Pipeline.Value

noncomputable section

namespace Cert.KernelIdeal.Hand

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ) (outs : Outs (F := Ideal))

/-- Entries (0,0) and (8,0) of a 16×128 array, added. -/
abbrev pairSum (X : S16x128.Idx → EReal) : EReal := X (ix2 (0 : Fin 16) (0 : Fin 128)) + X (ix2 (8 : Fin 16) (0 : Fin 128))

/-- The weighted sum of three 16×128 arrays' pair sums. -/
abbrev weighted (A B C : S16x128.Idx → EReal) : EReal := (w0 * pairSum A + w1 * pairSum B) + w2 * pairSum C

/-- Entry (0,0) of a 16×128 array, cut out as a 1×1 array and read as a scalar. -/
theorem read00 (X : S16x128.Idx → EReal) (hs : S16x128.Slices ![0, 0] S1x1) (hc : S1x1.ShapeCasts S_) :
    shapeCast S_ (extractStridedSlice S1x1 ![0, 0] X hs) hc ix0 = X (ix2 (0 : Fin 16) (0 : Fin 128)) := by
  refine (shapeCast_apply _ hc ix0 (ix2 (0 : Fin 1) (0 : Fin 1)) ?_).trans ?_
  · rfl
  · exact extractStridedSlice_apply _ X hs _ _ (fun a => match a with | ⟨0, _⟩ => rfl | ⟨1, _⟩ => rfl)

/-- Entry (8,0) of a 16×128 array, cut out as a 1×1 array and read as a scalar. -/
theorem read80 (X : S16x128.Idx → EReal) (hs : S16x128.Slices ![8, 0] S1x1) (hc : S1x1.ShapeCasts S_) :
    shapeCast S_ (extractStridedSlice S1x1 ![8, 0] X hs) hc ix0 = X (ix2 (8 : Fin 16) (0 : Fin 128)) := by
  refine (shapeCast_apply _ hc ix0 (ix2 (0 : Fin 1) (0 : Fin 1)) ?_).trans ?_
  · rfl
  · exact extractStridedSlice_apply _ X hs _ _ (fun a => match a with | ⟨0, _⟩ => rfl | ⟨1, _⟩ => rfl)

/-- The two slices of a 16×128 array, read as scalars and added, are its pair sum. -/
theorem pair_read (X : S16x128.Idx → EReal) (hs0 : S16x128.Slices ![0, 0] S1x1) (hs8 : S16x128.Slices ![8, 0] S1x1) (hc : S1x1.ShapeCasts S_) :
    (shapeCast S_ (extractStridedSlice S1x1 ![0, 0] X hs0) hc ix0 : EReal) + shapeCast S_ (extractStridedSlice S1x1 ![8, 0] X hs8) hc ix0 = pairSum X := by
  rw [read00, read80]

/-- The first host stretch leaves in its fifth buffer the pair sum of region 0's first output. -/
theorem stretch1_v5 (V : Valuation τ sig (Elt Ideal)) :
    StableHlo.after hostOps1 V (Proc.devRef .tc main_v5) ix0 = pairSum (V (Proc.devRef .tc main_v0_0)) := by
  after_results
  exact pair_read _ _ _ _

/-- The first host stretch leaves in its tenth buffer the pair sum of region 0's second output. -/
theorem stretch1_v10 (V : Valuation τ sig (Elt Ideal)) :
    StableHlo.after hostOps1 V (Proc.devRef .tc main_v10) ix0 = pairSum (V (Proc.devRef .tc main_v0_1)) := by
  after_results
  exact pair_read _ _ _ _

/-- The last host stretch: the weighted sum of the two carried scalars and region 1's output's pair sum. -/
theorem stretch2_v23 (V : Valuation τ sig (Elt Ideal)) :
    StableHlo.after hostOps2 V (Proc.devRef .tc main_v23) ix0
      = ((w0 * (V (Proc.devRef .tc main_v5) ix0 : EReal) + w1 * (V (Proc.devRef .tc main_v10) ix0 : EReal)) + w2 * pairSum (V (Proc.devRef .tc main_v13)) : EReal) := by
  after_results
  exact congrArg (fun z : EReal => (w0 * (V (Proc.devRef .tc main_v5) ix0 : EReal) + w1 * (V (Proc.devRef .tc main_v10) ix0 : EReal)) + w2 * z) (pair_read _ _ _ _)

/-- Region 0's first output, as the first stretch meets it. -/
theorem V1_out0 (c : Dev nD) : V1 m outs c main_v0_0 = outs 1 main_v0_0 c := by
  show Function.update (Function.update (V0 m c) main_v0_0 (outs 1 main_v0_0 c)) main_v0_1 (outs 1 main_v0_1 c) main_v0_0 = _
  rw [Function.update_of_ne (StableHlo.devRef_ne_of_ne (by decide)), Function.update_self]

/-- Region 0's second output, as the first stretch meets it. -/
theorem V1_out1 (c : Dev nD) : V1 m outs c main_v0_1 = outs 1 main_v0_1 c := by
  show Function.update (Function.update (V0 m c) main_v0_0 (outs 1 main_v0_0 c)) main_v0_1 (outs 1 main_v0_1 c) main_v0_1 = _
  rw [Function.update_self]

/-- Region 1's output, as the last stretch meets it. -/
theorem V4_out (c : Dev nD) : V4 m outs c main_v13 = outs 4 main_v13 c := by
  show Function.update (V3 m outs c) main_v13 (outs 4 main_v13 c) main_v13 = _
  rw [Function.update_self]

/-- The result: each term is its output array's entries (0,0) and (8,0) added, weighted and summed. -/
theorem host_result (c : Dev nD) :
    V5 m outs c main_v23 ix0 = weighted (outs 1 main_v0_0 c) (outs 1 main_v0_1 c) (outs 4 main_v13 c) := by
  have e5 : (V4 m outs c main_v5 ix0 : EReal) = pairSum (outs 1 main_v0_0 c) := by
    rw [V4_of m outs c main_v5 (by decide), V3_of m outs c main_v5 (by decide)]
    exact (stretch1_v5 (V1 m outs c)).trans (congrArg pairSum (V1_out0 m outs c))
  have e10 : (V4 m outs c main_v10 ix0 : EReal) = pairSum (outs 1 main_v0_1 c) := by
    rw [V4_of m outs c main_v10 (by decide), V3_of m outs c main_v10 (by decide)]
    exact (stretch1_v10 (V1 m outs c)).trans (congrArg pairSum (V1_out1 m outs c))
  refine (stretch2_v23 (V4 m outs c)).trans ?_
  rw [e5, e10, V4_out m outs c]

/-- The logits reach region 1 as launched. -/
theorem host_arg2 (c : Dev nD) : V3 m outs c main_arg2 = m ((c.tc : Thread nD τ).loc main_arg2) :=
  (V3_of m outs c main_arg2 (by decide)).trans <| (V2_of m outs c main_arg2 (by decide)).trans <| (V1_of m outs c main_arg2 (by decide)).trans rfl

end Cert.KernelIdeal.Hand

end
-- ==== Proof.LibTake.lean ====
/- A take along the last axis of a 4096 × 10000 array (one column per row, named by a signed word), read one row at a time. -/
import Idealize.ShloMosaic.PureOps.Ideal.Laws
import Idealize.ShloMosaic.Lib.ValueIdx
import Idealize.ShloMosaic.Lib.Affine
import Idealize.ShloMosaic.Lib.Pipeline.Value
import proofs.«424299_j59854664237538_3_alg».proof.Proof.Spec

noncomputable section

namespace Cert.Take

open Idealize.ShloMosaic Idealize.ShloMosaic.ValueIdx

/-- The array of logits, the array of start indices, the gathered column, a scalar. -/
abbrev SOp : Shape := ⟨2, ![4096, 10000]⟩
abbrev SIx : Shape := ⟨3, ![4096, 1, 1]⟩
abbrev SRes : Shape := ⟨2, ![4096, 1]⟩
abbrev SSc : Shape := ⟨0, ![]⟩

/-! ### Words -/

/-- The target word with a negative one counted from the end. -/
def norm (g : BitVec 32) : BitVec 32 := if g.slt 0#32 then g + 10000#32 else g

theorem tgt_of_in {g : BitVec 32} (h : 0 ≤ (norm g).toInt ∧ (norm g).toInt ≤ 9999) :
    Cert.Spec.tgt g = some ⟨(norm g).toInt.toNat, by omega⟩ := by
  unfold Cert.Spec.tgt
  exact dif_pos h

theorem tgt_of_out {g : BitVec 32} (h : ¬ (0 ≤ (norm g).toInt ∧ (norm g).toInt ≤ 9999)) :
    Cert.Spec.tgt g = none := by
  unfold Cert.Spec.tgt
  exact dif_neg h

/-- "Add 10000 where negative", as the select on the signed comparison with zero. -/
theorem select_slt (g : BitVec 32) :
    Scalar.select (IntOp.cmpi .slt g 0#32) (IntOp.addi g 10000#32) g = norm g := by
  unfold norm Scalar.select IntOp.cmpi IntOp.addi
  cases h : g.slt 0#32 <;> simp

theorem and_bit (c d : BitVec 1) : c &&& d = 1#1 ↔ c = 1#1 ∧ d = 1#1 := by
  rcases BitVec.eq_zero_or_eq_one c with rfl | rfl <;> rcases BitVec.eq_zero_or_eq_one d with rfl | rfl <;> decide

/-- The bounds test: 0 ≤ w ≤ 9999, signed. -/
theorem bounds_iff (w : BitVec 32) :
    IntOp.andi (IntOp.andi (IntOp.cmpi .sge w 0#32) (IntOp.cmpi .sle w 9999#32)) 1#1 = 1#1
      ↔ 0 ≤ w.toInt ∧ w.toInt ≤ 9999 := by
  unfold IntOp.andi
  rw [and_bit, and_bit, IntOp.cmpi_sge, IntOp.cmpi_sle]
  have h0 : (0#32 : BitVec 32).toInt = 0 := by decide
  have h1 : (9999#32 : BitVec 32).toInt = 9999 := by decide
  rw [h0, h1]
  exact ⟨fun h => h.1, fun h => ⟨h, rfl⟩⟩

/-! ### Words that denote the bottom element -/

theorem lit_neg_inf : Ideal.ofBits .f32 0xFF800000#32 = ⊥ := by simp [Ideal.ofBits, Ideal.ieee]
theorem lit_nan : Ideal.ofBits .f32 0x7FC00000#32 = ⊥ := by simp [Ideal.ofBits, Ideal.ieee]

/-! ### The gather along a row

Dimension numbers: no offset axes; operand axis 1 collapsed and start-indexed; operand axis 0 batched with axis 0 of
the start indices; the index vector on axis 2. Result entry (a, 0) is the operand at row a, at the column the start
index [a, 0, 0] names, read signed and clamped into the row. -/

theorem gather_row_apply {α : Type} {w : Nat} (d : GatherDims SOp SIx SRes)
    (hoff : d.offsetDims = []) (hcoll : d.collapsedSliceDims = [1]) (hob : d.operandBatchingDims = [0])
    (hsb : d.startIndicesBatchingDims = [0]) (hsim : d.startIndexMap = [1]) (hivd : d.indexVectorDim = 2)
    (hss : d.sliceSizes = ![1, 1])
    (x : SOp.Idx → α) (idx : IVec SIx w) (a : Fin 4096) (v : BitVec w)
    (hv : idx (ix3 a (0 : Fin 1) (0 : Fin 1)) = v) :
    Host.gather d x idx (ix2 a (0 : Fin 1)) = x (ix2 a ⟨min v.toInt.toNat 9999, by omega⟩) := by
  obtain ⟨od, cd, ob, sb, sm, iv, ss, wf⟩ := d
  simp only at hoff hcoll hob hsb hsim hivd hss
  subst hoff hcoll hob hsb hsim hivd hss hv
  unfold Host.gather
  congr 1
  funext c
  refine Fin.ext ?_
  match c with
  | ⟨0, _⟩ =>
    show GatherDims.start _ (ix2 a (0 : Fin 1)) idx 0 + GatherDims.batchCoord _ (ix2 a (0 : Fin 1)) 0
      + GatherDims.offCoord _ (ix2 a (0 : Fin 1)) 0 = a.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin SOp.rank) ∈ [(0 : Fin SOp.rank)] from List.mem_singleton.mpr rfl)]
    rfl
  | ⟨1, _⟩ =>
    show GatherDims.start _ (ix2 a (0 : Fin 1)) idx 1 + GatherDims.batchCoord _ (ix2 a (0 : Fin 1)) 1
      + GatherDims.offCoord _ (ix2 a (0 : Fin 1)) 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin SOp.rank) ∈ [(1 : Fin SOp.rank)] from List.mem_singleton.mpr rfl)]
    have hsi : GatherDims.siIdx (s := SOp) (si := SIx) (t := SRes) ⟨[], [1], [0], [0], [1], 2, ![1, 1], wf⟩ (ix2 a (0 : Fin 1))
        ⟨List.idxOf (1 : Fin 2) [(1 : Fin 2)], List.idxOf_lt_length_iff.2 (List.mem_singleton.mpr rfl)⟩
          = ix3 a (0 : Fin 1) (0 : Fin 1) := by
      funext b; refine Fin.ext ?_
      match b with
      | ⟨0, _⟩ => rfl
      | ⟨1, _⟩ => rfl
      | ⟨2, _⟩ => rfl
    rw [hsi]
    rfl

/-! ### The two folds over one axis -/

theorem red_row : SOp.Reduces [1] ⟨1, ![4096]⟩ := by decide
theorem red_unit : SIx.Reduces [2] SRes := by decide

/-- A row's maximum: the fold of the maximum from the bottom element along axis 1. -/
theorem rowmax_apply (x : SOp.Idx → EReal) (init : SSc.Idx → EReal) (h' : SOp.ReducesTo [1] ⟨1, ![4096]⟩)
    (hu : 0 < SSc.numel) (hinit : init (Shape.Idx.first hu) = ⊥) (a : Fin 4096) :
    Host.reduce (FloatOps.maximumf (F := Ideal) (φ := .f32)) x init h' hu (ix1 a)
      = Cert.Spec.rmax (fun j => x (ix2 a j)) := by
  rw [Host.reduce_eq_fold_single _ _ _ _ red_row, hinit]
  have hl : ∀ k : Fin 10000, red_row.lift (ix1 a) k = ix2 a k := fun k => funext fun c => Fin.ext (by
    match c with | ⟨0, _⟩ => rfl | ⟨1, _⟩ => rfl)
  show (Finset.univ : Finset (Fin 10000)).fold max ⊥ (fun k => x (red_row.lift (ix1 a) k))
    = (Finset.univ : Finset (Fin 10000)).fold max ⊥ (fun k => x (ix2 a k))
  exact congrArg (fun f => (Finset.univ : Finset (Fin 10000)).fold max ⊥ f) (funext fun k => congrArg x (hl k))

theorem fold_fin_one {α : Type} (op : α → α → α) [Std.Commutative op] [Std.Associative op] (b : α) {n : Nat} (hn : n = 1)
    (g : Fin n → α) : (Finset.univ : Finset (Fin n)).fold op b g = op (g ⟨0, by omega⟩) b := by
  subst hn
  rw [Finset.univ_unique, Finset.fold_singleton]
  rfl

/-- The and-fold along an axis of size one: the one entry, and the initial bit. -/
theorem andfold_apply (p : IVec SIx 1) (init : SSc.Idx → BitVec 1) (h' : SIx.ReducesTo [2] SRes) (hu : 0 < SSc.numel)
    (a : Fin 4096) :
    Host.reduce IntOp.andi p init h' hu (ix2 a (0 : Fin 1))
      = IntOp.andi (p (ix3 a (0 : Fin 1) (0 : Fin 1))) (init (Shape.Idx.first hu)) := by
  rw [Host.reduce_eq_fold_single _ _ _ _ red_unit, fold_fin_one _ _ (rfl : SIx.size 2 = 1)]
  have hl : ∀ k : Fin (SIx.size 2), red_unit.lift (ix2 a (0 : Fin 1)) k = ix3 a (0 : Fin 1) (0 : Fin 1) :=
    fun k => funext fun c => Fin.ext (by
      match c with
      | ⟨0, _⟩ => rfl
      | ⟨1, _⟩ => rfl
      | ⟨2, _⟩ => have : k.val < 1 := k.isLt; show k.val = 0; omega)
  rw [Function.comp_apply, hl]

/-! ### The whole take, as its operations compose it

The words are normalised (10000 added where negative), laid out as start indices, tested against the row's bounds,
and the gathered entry kept where the test passes, the NaN word's value (the bottom element) elsewhere. -/

abbrev SOne : Shape := ⟨1, ![1]⟩
abbrev SOnes : Shape := ⟨3, ![1, 1, 1]⟩

section Pick

variable (hb0 : SSc.BroadcastsInDim SRes (![] : Fin 0 → Fin SRes.rank))
  (hsc : SRes.ShapeCasts SIx)
  (hb1 : SSc.BroadcastsInDim SIx (![] : Fin 0 → Fin SIx.rank))
  (hb2 : SOne.BroadcastsInDim SOnes (![2] : Fin 1 → Fin SOnes.rank))
  (hb3 : SOnes.BroadcastsInDim SIx (![0, 1, 2] : Fin 3 → Fin SIx.rank))
  (hred : SIx.ReducesTo [2] SRes) (hu : 0 < SSc.numel)
  (d : GatherDims SOp SIx SRes)

/-- The normalised words, as the array of start indices. -/
def pickIdx (g : SRes.Idx → BitVec 32) : SIx.Idx → BitVec 32 :=
  shapeCast SIx (select (cmpi .slt g (broadcastInDim SRes ![] hb0 (constantI SSc 32 0#32)))
    (addi g (broadcastInDim SRes ![] hb0 (constantI SSc 32 10000#32))) g) hsc

/-- The bounds test, per row. -/
def pickOk (g : SRes.Idx → BitVec 32) : SRes.Idx → BitVec 1 :=
  Host.reduce IntOp.andi
    (andi (cmpi .sge (pickIdx hb0 hsc g) (broadcastInDim SIx ![] hb1 (constantI SSc 32 0#32)))
      (cmpi .sle (pickIdx hb0 hsc g)
        (broadcastInDim SIx ![0, 1, 2] hb3 (broadcastInDim SOnes ![2] hb2 (constantI SOne 32 9999#32)))))
    (constantI SSc 1 1#1) hred hu

/-- The take. -/
def pick (p : SOp.Idx → EReal) (g : SRes.Idx → BitVec 32) : SRes.Idx → EReal :=
  select (pickOk hb0 hsc hb1 hb2 hb3 hred hu g) (Host.gather d p (pickIdx hb0 hsc g))
    (broadcastInDim SRes ![] hb0 (constant (F := Ideal) SSc .f32 0x7FC00000#32))

theorem pickIdx_apply (g : SRes.Idx → BitVec 32) (a : Fin 4096) :
    pickIdx hb0 hsc g (ix3 a (0 : Fin 1) (0 : Fin 1)) = norm (g (ix2 a (0 : Fin 1))) := by
  unfold pickIdx
  rw [shapeCast_apply _ hsc (ix3 a (0 : Fin 1) (0 : Fin 1)) (ix2 a (0 : Fin 1)) (by
    rw [Shape.rowMajor_val_two, Shape.rowMajor_val_three]
    show a.val * 1 + 0 = (a.val * 1 + 0) * 1 + 0
    omega)]
  show Scalar.select (IntOp.cmpi .slt (g (ix2 a (0 : Fin 1)))
      (broadcastInDim SRes ![] hb0 (constantI SSc 32 0#32) (ix2 a (0 : Fin 1))))
    (IntOp.addi (g (ix2 a (0 : Fin 1))) (broadcastInDim SRes ![] hb0 (constantI SSc 32 10000#32) (ix2 a (0 : Fin 1))))
    (g (ix2 a (0 : Fin 1))) = _
  rw [broadcastInDim_apply _ hb0 (constantI SSc 32 0#32) (ix2 a (0 : Fin 1)) (fun b => b.elim0) (fun b => b.elim0),
    broadcastInDim_apply _ hb0 (constantI SSc 32 10000#32) (ix2 a (0 : Fin 1)) (fun b => b.elim0) (fun b => b.elim0)]
  exact select_slt _

theorem pickOk_apply (g : SRes.Idx → BitVec 32) (a : Fin 4096) :
    pickOk hb0 hsc hb1 hb2 hb3 hred hu g (ix2 a (0 : Fin 1)) = 1#1
      ↔ 0 ≤ (norm (g (ix2 a (0 : Fin 1)))).toInt ∧ (norm (g (ix2 a (0 : Fin 1)))).toInt ≤ 9999 := by
  unfold pickOk
  rw [andfold_apply]
  show IntOp.andi (IntOp.andi
      (IntOp.cmpi .sge (pickIdx hb0 hsc g (ix3 a (0 : Fin 1) (0 : Fin 1)))
        (broadcastInDim SIx ![] hb1 (constantI SSc 32 0#32) (ix3 a (0 : Fin 1) (0 : Fin 1))))
      (IntOp.cmpi .sle (pickIdx hb0 hsc g (ix3 a (0 : Fin 1) (0 : Fin 1)))
        (broadcastInDim SIx ![0, 1, 2] hb3 (broadcastInDim SOnes ![2] hb2 (constantI SOne 32 9999#32))
          (ix3 a (0 : Fin 1) (0 : Fin 1)))))
    (constantI SSc 1 1#1 (Shape.Idx.first hu)) = 1#1 ↔ _
  rw [pickIdx_apply,
    broadcastInDim_apply _ hb1 (constantI SSc 32 0#32) (ix3 a (0 : Fin 1) (0 : Fin 1)) (fun b => b.elim0) (fun b => b.elim0),
    broadcastInDim_apply _ hb3 _ (ix3 a (0 : Fin 1) (0 : Fin 1)) (ix3 (0 : Fin 1) (0 : Fin 1) (0 : Fin 1)) (fun b =>
      match b with
      | ⟨0, _⟩ => rfl
      | ⟨1, _⟩ => rfl
      | ⟨2, _⟩ => rfl),
    broadcastInDim_apply _ hb2 (constantI SOne 32 9999#32) (ix3 (0 : Fin 1) (0 : Fin 1) (0 : Fin 1)) (ix1 (0 : Fin 1)) (fun b =>
      match b with
      | ⟨0, _⟩ => rfl)]
  exact bounds_iff _

/-- The take at row a: the row's entry at the target column, the bottom element where the column is out of range. -/
theorem pick_apply (hoff : d.offsetDims = []) (hcoll : d.collapsedSliceDims = [1]) (hob : d.operandBatchingDims = [0])
    (hsb : d.startIndicesBatchingDims = [0]) (hsim : d.startIndexMap = [1]) (hivd : d.indexVectorDim = 2)
    (hss : d.sliceSizes = ![1, 1]) (p : SOp.Idx → EReal) (g : SRes.Idx → BitVec 32) (a : Fin 4096) :
    pick hb0 hsc hb1 hb2 hb3 hred hu d p g (ix2 a (0 : Fin 1))
      = Cert.Spec.rpick (fun k => p (ix2 a k)) (g (ix2 a (0 : Fin 1))) := by
  show Scalar.select (pickOk hb0 hsc hb1 hb2 hb3 hred hu g (ix2 a (0 : Fin 1)))
    (Host.gather d p (pickIdx hb0 hsc g) (ix2 a (0 : Fin 1)))
    (broadcastInDim SRes ![] hb0 (constant (F := Ideal) SSc .f32 0x7FC00000#32) (ix2 a (0 : Fin 1))) = _
  by_cases hb : 0 ≤ (norm (g (ix2 a (0 : Fin 1)))).toInt ∧ (norm (g (ix2 a (0 : Fin 1)))).toInt ≤ 9999
  · rw [(pickOk_apply hb0 hsc hb1 hb2 hb3 hred hu g a).2 hb, select_one,
      gather_row_apply d hoff hcoll hob hsb hsim hivd hss p _ a _ (pickIdx_apply hb0 hsc g a)]
    unfold Cert.Spec.rpick
    rw [tgt_of_in hb]
    have hj : (⟨min (norm (g (ix2 a (0 : Fin 1)))).toInt.toNat 9999, by omega⟩ : Fin 10000)
        = ⟨(norm (g (ix2 a (0 : Fin 1)))).toInt.toNat, by omega⟩ := Fin.ext (by
          show min (norm (g (ix2 a (0 : Fin 1)))).toInt.toNat 9999 = (norm (g (ix2 a (0 : Fin 1)))).toInt.toNat
          omega)
    exact congrArg (fun j : Fin 10000 => p (ix2 a j)) hj
  · rw [eq_zero_of_ne_one (fun h => hb ((pickOk_apply hb0 hsc hb1 hb2 hb3 hred hu g a).1 h)), select_zero,
      broadcastInDim_apply _ hb0 (constant (F := Ideal) SSc .f32 0x7FC00000#32) (ix2 a (0 : Fin 1)) (fun b => b.elim0)
        (fun b => b.elim0)]
    unfold Cert.Spec.rpick
    rw [tgt_of_out hb]
    exact lit_nan

end Pick

/-! ### The rows of the specification at a row number below 4096 -/

theorem prow_eq (p : Cert.Spec.SPred.Idx → EReal) (a : Fin 4096) : Cert.Spec.prow p a.val = fun j => p (ix2 a j) := by
  funext j
  unfold Cert.Spec.prow
  rw [dif_pos a.isLt]

theorem gword_eq (g : Cert.Spec.SGt.Idx → BitVec 32) (a : Fin 4096) : Cert.Spec.gword g a.val = g (ix1 a) := by
  unfold Cert.Spec.gword
  rw [dif_pos a.isLt]

end Cert.Take

end
-- ==== Proof.HostPick.lean ====
/- The kernel program's gathered column: each row's logit at its target column. -/
import proofs.«424299_j59854664237538_3_alg».proof.Proof.Gen.KernelIdeal.Regions
import proofs.«424299_j59854664237538_3_alg».proof.Proof.Spec
import proofs.«424299_j59854664237538_3_alg».proof.Proof.LibTake
import Idealize.ShloMosaic.Lib.StableHlo.Run

noncomputable section

namespace Cert.KernelIdeal.Hand

open Idealize.ShloMosaic Idealize.ShloMosaic.TcCoe Idealize.ShloMosaic.ValueIdx Idealize.SL.Sem Cert.KernelIdeal Cert.KernelIdeal.Gen Cert.Spec Cert.Take

variable (m : (ℓ : Loc nD τ sig) → Buf (Elt Ideal) ℓ) (outs : Outs (F := Ideal))

set_option maxHeartbeats 2000000 in
/-- The inlined take, over any contents of its two operands' buffers: the composed term. -/
theorem pick_of (W : Valuation τ sig (Elt Ideal)) :
    (StableHlo.after hostOps1_1 W (Proc.devRef .tc main_v12) : S4096x1.Idx → EReal)
      = pick bcast_S_S4096x1 shapeCasts_S4096x1_S4096x1x1 bcast_S_S4096x1x1 bcast_S1_S1x1x1_2 bcast_S1x1x1_S4096x1x1_0_1_2
          reducesTo_S4096x1x1_S4096x1_d2 h_S_ gather_S4096x10000_S4096x1x1_S4096x1_n_1_0_0_1_2_11
          (W (Proc.devRef .tc main_arg2) : S4096x10000.Idx → EReal) (W (Proc.devRef .tc main_v11) : S4096x1.Idx → BitVec 32) := by
  after_results
  simp only [StableHlo.TRef.ofBuf, StableHlo.TRef.toBuf, cast_eq]
  rfl

/-- The words as a column, over any contents: the reshape of the fourth argument. -/
theorem v11_of (W : Valuation τ sig (Elt Ideal)) :
    (StableHlo.after hostOps1 W (Proc.devRef .tc main_v11) : S4096x1.Idx → BitVec 32)
      = shapeCast S4096x1 (W (Proc.devRef .tc main_arg3) : S4096.Idx → BitVec 32) shapeCasts_S4096_S4096x1 := by
  after_results
  rfl

/-- The gathered column: row i's logit at its target column, the bottom element where the column is out of range. -/
theorem host_pick (c : Dev nD) (i : Fin 4096) :
    V3 m outs c main_v12 (ix2 i (0 : Fin 1))
      = rpick (prow (m ((c.tc : Thread nD τ).loc main_arg2)) i.val) (gword (m ((c.tc : Thread nD τ).loc main_arg3)) i.val) := by
  have h2 : V2 m outs c main_arg2 = m ((c.tc : Thread nD τ).loc main_arg2) :=
    (V2_of m outs c main_arg2 (by decide)).trans ((V1_of m outs c main_arg2 (by decide)).trans rfl)
  have h3 : V1 m outs c main_arg3 = m ((c.tc : Thread nD τ).loc main_arg3) :=
    (V1_of m outs c main_arg3 (by decide)).trans rfl
  have hg : (V2 m outs c (Proc.devRef .tc main_v11) : S4096x1.Idx → BitVec 32) (ix2 i (0 : Fin 1))
      = (m ((c.tc : Thread nD τ).loc main_arg3) : S4096.Idx → BitVec 32) (ix1 i) := by
    rw [← h3]
    show (StableHlo.after hostOps1 (V1 m outs c) (Proc.devRef .tc main_v11) : S4096x1.Idx → BitVec 32) (ix2 i (0 : Fin 1)) = _
    rw [v11_of (V1 m outs c)]
    exact shapeCast_apply _ _ (ix2 i (0 : Fin 1)) (ix1 i) (by
      rw [Shape.rowMajor_val_one, Shape.rowMajor_val_two]
      show i.val = i.val * 1 + 0
      omega)
  show (StableHlo.after hostOps1_1 (V2 m outs c) (Proc.devRef .tc main_v12) : S4096x1.Idx → EReal) (ix2 i (0 : Fin 1)) = _
  rw [pick_of (V2 m outs c), pick_apply _ _ _ _ _ _ _ _ rfl rfl rfl rfl rfl rfl rfl, prow_eq, gword_eq, hg, h2]

end Cert.KernelIdeal.Hand

end
-- ==== Proof.KerVal.lean ====
/- The kernel program's result is the loss, summed tile by tile. -/
import proofs.«424299_j59854664237538_3_alg».proof.Proof.AsmA
import proofs.«424299_j59854664237538_3_alg».proof.Proof.Val0
import proofs.«424299_j59854664237538_3_alg».proof.Proof.Val1
import proofs.«424299_j59854664237538_3_alg».proof.Proof.Host
import proofs.«424299_j59854664237538_3_alg».proof.Proof.HostPick

noncomputable section

namespace Cert.KernelIdeal.Hand

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ)

/-- Each term's output array holds its two halves' means at rows 0 and 8; the host lines add the halves, weight the
    terms and sum them. -/
theorem kernel_value (c : Dev nD) :
    V5 m (outs m) c main_v23 ix0
      = Ker.loss (m ((c.tc : Thread nD τ).loc main_arg0)) (m ((c.tc : Thread nD τ).loc main_arg1))
          (m ((c.tc : Thread nD τ).loc main_arg2)) (m ((c.tc : Thread nD τ).loc main_arg3)) := by
  have hP : Vin1 m c main_arg2 = m ((c.tc : Thread nD τ).loc main_arg2) := host_arg2 m (outs0 m) c
  have hG : ∀ i : Fin 4096, Vin1 m c main_v12 (ix2 i (0 : Fin 1))
      = rpick (prow (Vin1 m c main_arg2) i.val) (gword (m ((c.tc : Thread nD τ).loc main_arg3)) i.val) := fun i => by
    rw [hP]; exact host_pick m (outs0 m) c i
  have hl2 : pairSum ((dat0 (Vin0 m) c).arrAt 2 cfg0.N)
      = Ker.l2 (m ((c.tc : Thread nD τ).loc main_arg0)) (m ((c.tc : Thread nD τ).loc main_arg1)) :=
    congrArg₂ (fun x y : EReal => x + y) (l2_out (Vin0 m) c 0) (l2_out (Vin0 m) c 1)
  have hlg : pairSum ((dat0 (Vin0 m) c).arrAt 3 cfg0.N)
      = Ker.lg (m ((c.tc : Thread nD τ).loc main_arg0)) (m ((c.tc : Thread nD τ).loc main_arg1)) :=
    congrArg₂ (fun x y : EReal => x + y) (lg_out (Vin0 m) c 0) (lg_out (Vin0 m) c 1)
  have hce : pairSum ((dat1 (Vin1 m) c).arrAt 2 cfg1.N)
      = Ker.ce (m ((c.tc : Thread nD τ).loc main_arg2)) (m ((c.tc : Thread nD τ).loc main_arg3)) := by
    have c0 := ce_out (Vin1 m) c 0 _ hG
    have c1 := ce_out (Vin1 m) c 1 _ hG
    rw [hP] at c0 c1
    exact congrArg₂ (fun x y : EReal => x + y) c0 c1
  rw [host_result, outs_v0_0, outs_v0_1, outs_v13]
  show (w0 * pairSum ((dat0 (Vin0 m) c).arrAt 2 cfg0.N) + w1 * pairSum ((dat0 (Vin0 m) c).arrAt 3 cfg0.N))
      + w2 * pairSum ((dat1 (Vin1 m) c).arrAt 2 cfg1.N) = _
  rw [hl2, hlg, hce]
  rfl

end Cert.KernelIdeal.Hand

end
-- ==== Proof.RefL2Ce.lean ====
/- The reference's mean-squared-error and cross-entropy stages, read at their one index. -/
import proofs.«424299_j59854664237538_3_alg».proof.Proof.RefReadP
import proofs.«424299_j59854664237538_3_alg».proof.Proof.Spec

noncomputable section

namespace Cert.RefSide

open Idealize.ShloMosaic Idealize.ShloMosaic.ValueIdx Cert.ReferenceIdeal Cert.ReferenceIdeal.Gen Cert.ReferenceIdeal.ReadP

/-! ### A rank-4 index set is the product of its four coordinate ranges -/

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ### Words -/

/-- The target word with a negative one counted from the end. -/
def norm (g : BitVec 32) : BitVec 32 := if g.slt 0#32 then g + 10000#32 else g

theorem tgt_of_in {g : BitVec 32} (h : 0 ≤ (norm g).toInt ∧ (norm g).toInt ≤ 9999) :
    Cert.Spec.tgt g = some ⟨(norm g).toInt.toNat, by omega⟩ := by
  unfold Cert.Spec.tgt
  exact dif_pos h

theorem tgt_of_out {g : BitVec 32} (h : ¬ (0 ≤ (norm g).toInt ∧ (norm g).toInt ≤ 9999)) :
    Cert.Spec.tgt g = none := by
  unfold Cert.Spec.tgt
  exact dif_neg h

theorem select_slt (g : BitVec 32) :
    Scalar.select (IntOp.cmpi .slt g 0#32) (IntOp.addi g 10000#32) g = norm g := by
  unfold norm Scalar.select IntOp.cmpi IntOp.addi
  cases h : g.slt 0#32 <;> simp

theorem and_bit (c d : BitVec 1) : c &&& d = 1#1 ↔ c = 1#1 ∧ d = 1#1 := by
  rcases BitVec.eq_zero_or_eq_one c with rfl | rfl <;> rcases BitVec.eq_zero_or_eq_one d with rfl | rfl <;> decide

theorem bounds_iff (w : BitVec 32) :
    IntOp.andi (IntOp.andi (IntOp.cmpi .sge w 0#32) (IntOp.cmpi .sle w 9999#32)) 1#1 = 1#1
      ↔ 0 ≤ w.toInt ∧ w.toInt ≤ 9999 := by
  unfold IntOp.andi
  rw [and_bit, and_bit, IntOp.cmpi_sge, IntOp.cmpi_sle]
  have h0 : (0#32 : BitVec 32).toInt = 0 := by decide
  have h1 : (9999#32 : BitVec 32).toInt = 9999 := by decide
  rw [h0, h1]
  exact ⟨fun h => h.1, fun h => ⟨h, rfl⟩⟩

/-! ### Words that denote the bottom element and zero -/

theorem lit_neg_inf : Ideal.ofBits .f32 0xFF800000#32 = ⊥ := by simp [Ideal.ofBits, Ideal.ieee]
theorem lit_nan : Ideal.ofBits .f32 0x7FC00000#32 = ⊥ := by simp [Ideal.ofBits, Ideal.ieee]

/-! ### The gather along a row -/

theorem gather_row_apply {α : Type} {w : Nat} (x : S4096x10000.Idx → α) (idx : IVec S4096x1x1 w) (a : Fin 4096) :
    Host.gather gather_S4096x10000_S4096x1x1_S4096x1_n_1_0_0_1_2_11 x idx (ix2 a (0 : Fin 1))
      = x (ix2 a ⟨min (idx (ix3 a (0 : Fin 1) (0 : Fin 1))).toInt.toNat 9999, by omega⟩) := by
  unfold Host.gather
  congr 1
  funext c
  refine Fin.ext ?_
  match c with
  | ⟨0, _⟩ =>
    show gather_S4096x10000_S4096x1x1_S4096x1_n_1_0_0_1_2_11.start (ix2 a (0 : Fin 1)) idx 0
      + gather_S4096x10000_S4096x1x1_S4096x1_n_1_0_0_1_2_11.batchCoord (ix2 a (0 : Fin 1)) 0
      + gather_S4096x10000_S4096x1x1_S4096x1_n_1_0_0_1_2_11.offCoord (ix2 a (0 : Fin 1)) 0 = a.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S4096x10000.rank) ∈ gather_S4096x10000_S4096x1x1_S4096x1_n_1_0_0_1_2_11.operandBatchingDims from
      List.mem_singleton.mpr rfl)]
    rfl
  | ⟨1, _⟩ =>
    show gather_S4096x10000_S4096x1x1_S4096x1_n_1_0_0_1_2_11.start (ix2 a (0 : Fin 1)) idx 1
      + gather_S4096x10000_S4096x1x1_S4096x1_n_1_0_0_1_2_11.batchCoord (ix2 a (0 : Fin 1)) 1
      + gather_S4096x10000_S4096x1x1_S4096x1_n_1_0_0_1_2_11.offCoord (ix2 a (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin S4096x10000.rank) ∈ gather_S4096x10000_S4096x1x1_S4096x1_n_1_0_0_1_2_11.startIndexMap from
      List.mem_singleton.mpr rfl)]
    have hsi : gather_S4096x10000_S4096x1x1_S4096x1_n_1_0_0_1_2_11.siIdx (ix2 a (0 : Fin 1))
        ⟨List.idxOf (1 : Fin 2) gather_S4096x10000_S4096x1x1_S4096x1_n_1_0_0_1_2_11.startIndexMap,
          List.idxOf_lt_length_iff.2 (List.mem_singleton.mpr rfl)⟩ = ix3 a (0 : Fin 1) (0 : Fin 1) := by
      funext b; refine Fin.ext ?_
      match b with
      | ⟨0, _⟩ => rfl
      | ⟨1, _⟩ => rfl
      | ⟨2, _⟩ => rfl
    rw [hsi]
    rfl

theorem gather_row_apply' {α : Type} {w : Nat} (x : S4096x10000.Idx → α) (idx : IVec S4096x1x1 w) (a : Fin 4096)
    (v : BitVec w) (hv : idx (ix3 a (0 : Fin 1) (0 : Fin 1)) = v) :
    Host.gather gather_S4096x10000_S4096x1x1_S4096x1_n_1_0_0_1_2_11 x idx (ix2 a (0 : Fin 1))
      = x (ix2 a ⟨min v.toInt.toNat 9999, by omega⟩) := by
  subst hv
  exact gather_row_apply x idx a

/-! ### The two folds over one axis -/

theorem red_row : S4096x10000.Reduces [1] S4096 := by decide
theorem red_unit : S4096x1x1.Reduces [2] S4096x1 := by decide

theorem rowmax_apply (x : S4096x10000.Idx → EReal) (init : S_.Idx → EReal) (hinit : init (Shape.Idx.first h_S_) = ⊥) (a : Fin 4096) :
    Host.reduce (FloatOps.maximumf (F := Ideal) (φ := .f32)) x init reducesTo_S4096x10000_S4096_d1 h_S_ (ix1 a)
      = Cert.Spec.rmax (fun j => x (ix2 a j)) := by
  rw [Host.reduce_eq_fold_single _ _ _ _ red_row, hinit]
  have hl : ∀ k : Fin 10000, red_row.lift (ix1 a) k = ix2 a k := fun k => funext fun c => Fin.ext (by
    match c with | ⟨0, _⟩ => rfl | ⟨1, _⟩ => rfl)
  show (Finset.univ : Finset (Fin 10000)).fold max ⊥ (fun k => x (red_row.lift (ix1 a) k))
    = (Finset.univ : Finset (Fin 10000)).fold max ⊥ (fun k => x (ix2 a k))
  exact congrArg (fun f => (Finset.univ : Finset (Fin 10000)).fold max ⊥ f) (funext fun k => congrArg x (hl k))

theorem fold_fin_one {α : Type} (op : α → α → α) [Std.Commutative op] [Std.Associative op] (b : α) {n : Nat} (hn : n = 1)
    (g : Fin n → α) : (Finset.univ : Finset (Fin n)).fold op b g = op (g ⟨0, by omega⟩) b := by
  subst hn
  rw [Finset.univ_unique, Finset.fold_singleton]
  rfl

theorem andfold_apply (p : IVec S4096x1x1 1) (init : S_.Idx → BitVec 1) (a : Fin 4096) :
    Host.reduce IntOp.andi p init reducesTo_S4096x1x1_S4096x1_d2 h_S_ (ix2 a (0 : Fin 1))
      = IntOp.andi (p (ix3 a (0 : Fin 1) (0 : Fin 1))) (init (Shape.Idx.first h_S_)) := by
  rw [Host.reduce_eq_fold_single _ _ _ _ red_unit, fold_fin_one _ _ (rfl : S4096x1x1.size 2 = 1)]
  have hl : ∀ k : Fin (S4096x1x1.size 2), red_unit.lift (ix2 a (0 : Fin 1)) k = ix3 a (0 : Fin 1) (0 : Fin 1) :=
    fun k => funext fun c => Fin.ext (by
      match c with
      | ⟨0, _⟩ => rfl
      | ⟨1, _⟩ => rfl
      | ⟨2, _⟩ => have : k.val < 1 := k.isLt; show k.val = 0; omega)
  rw [Function.comp_apply, hl]

/-! ### The rows of the specification at a row number below 4096 -/

theorem prow_eq (p : Cert.Spec.SPred.Idx → EReal) (a : Fin 4096) : Cert.Spec.prow p a.val = fun j => p (ix2 a j) := by
  funext j
  unfold Cert.Spec.prow
  rw [dif_pos a.isLt]

theorem gword_eq (g : Cert.Spec.SGt.Idx → BitVec 32) (a : Fin 4096) : Cert.Spec.gword g a.val = g (ix1 a) := by
  unfold Cert.Spec.gword
  rw [dif_pos a.isLt]

/-! ### log-softmax, one row at a time -/

/-- The row's maximum: the fold from −∞, then the maximum with −∞ once more. -/
theorem v2_eq (x2 : (⟨S4096x10000, .f32⟩ : BufTy).Contents (Elt Ideal)) (a : Fin 4096) :
    val_main_call10_v2 (F := Ideal) x2 (ix1 a) = Cert.Spec.rmax (fun k => x2 (ix2 a k)) := by
  rw [val_main_call10_v2_apply, val_main_call10_v1_apply, val_main_call10_cst_0_apply]
  unfold val_main_call10_v0
  rw [rowmax_apply x2 _ (by rw [val_main_call10_cst_apply]; exact lit_neg_inf) a]
  simp only [Ideal.maximumf_def, Ideal.ofBits_def, lit_neg_inf]
  exact max_bot_left _

/-- The logit less its row's maximum. -/
theorem v5_eq (x2 : (⟨S4096x10000, .f32⟩ : BufTy).Contents (Elt Ideal)) (a : Fin 4096) (j : Fin 10000) :
    val_main_call10_v5 (F := Ideal) x2 (ix2 a j) = x2 (ix2 a j) - Cert.Spec.rmax (fun k => x2 (ix2 a k)) := by
  rw [val_main_call10_v5_apply, val_main_call10_v4_apply, val_main_call10_v3_apply]
  have hi : idx_main_call10_v3 (idx_main_call10_v4 (ix2 a j)) = ix1 a := funext fun c => by
    match c with | ⟨0, _⟩ => rfl
  rw [hi, v2_eq]
  rfl

/-- The log-softmax entry: the shifted logit less the log of the row's sum of exponentials. -/
theorem v107_eq (x2 : (⟨S4096x10000, .f32⟩ : BufTy).Contents (Elt Ideal)) (a : Fin 4096) (j : Fin 10000) :
    val_main_v107 (F := Ideal) x2 (ix2 a j)
      = (x2 (ix2 a j) - Cert.Spec.rmax (fun k => x2 (ix2 a k))) - Cert.Spec.rlse (fun k => x2 (ix2 a k)) := by
  rw [val_main_v107_apply, val_main_call10_v10_apply, val_main_call10_v9_apply, val_main_call10_v8_apply,
    val_main_call10_v7_apply, val_main_call10_cst_1_apply, v5_eq]
  have hs : ∀ k : Fin 10000, val_main_call10_v6 (F := Ideal) x2
      (idx_main_call10_v7 (idx_main_call10_v8 (idx_main_call10_v10 (ix2 a j))) k)
        = Ideal.exp (x2 (ix2 a k) - Cert.Spec.rmax (fun k => x2 (ix2 a k))) := by
    intro k
    have hi : idx_main_call10_v7 (idx_main_call10_v8 (idx_main_call10_v10 (ix2 a j))) k = ix2 a k := funext fun c => by
      match c with
      | ⟨0, _⟩ => rfl
      | ⟨1, _⟩ => rfl
    rw [hi, val_main_call10_v6_apply, v5_eq]
    rfl
  rw [Finset.sum_congr rfl fun k _ => hs k]
  simp only [Ideal.subf_def, Ideal.hostUnary_log_def, Ideal.ofBits_def, Ideal.ofBits_zero_f32, zero_add]
  rfl

/-! ### take-along-axis, one row at a time -/

/-- The normalised target word. -/
theorem w4_eq (x3 : (⟨S4096, .i32⟩ : BufTy).Contents (Elt Ideal)) (a : Fin 4096) :
    val_main_call11_v4 (F := Ideal) x3 (ix2 a (0 : Fin 1)) = norm (x3 (ix1 a)) := by
  rw [val_main_call11_v4_apply, val_main_call11_v1_apply, val_main_call11_v3_apply, val_main_v108_apply,
    val_main_call11_v0_apply, val_main_call11_v2_apply, val_main_call11_c_apply, val_main_call11_c_0_apply]
  have hi : idx_main_v108 (ix2 a (0 : Fin 1)) = ix1 a := funext fun c => by
    match c with | ⟨0, _⟩ => rfl
  rw [hi]
  exact select_slt _

theorem w5_eq (x3 : (⟨S4096, .i32⟩ : BufTy).Contents (Elt Ideal)) (a : Fin 4096) :
    val_main_call11_v5 (F := Ideal) x3 (ix3 a (0 : Fin 1) (0 : Fin 1)) = norm (x3 (ix1 a)) := by
  rw [val_main_call11_v5_apply]
  have hi : idx_main_call11_v5 (ix3 a (0 : Fin 1) (0 : Fin 1)) = ix2 a (0 : Fin 1) := funext fun c => Fin.ext (by
    match c with
    | ⟨0, _⟩ => show ((a.val * 1 + 0) * 1 + 0) / 1 = a.val; omega
    | ⟨1, _⟩ => rfl)
  rw [hi, w4_eq]

/-- The bounds test passes exactly when the normalised word names a column. -/
theorem w12_eq (x3 : (⟨S4096, .i32⟩ : BufTy).Contents (Elt Ideal)) (a : Fin 4096) :
    val_main_call11_v12 (F := Ideal) x3 (ix2 a (0 : Fin 1)) = 1#1
      ↔ 0 ≤ (norm (x3 (ix1 a))).toInt ∧ (norm (x3 (ix1 a))).toInt ≤ 9999 := by
  unfold val_main_call11_v12
  rw [andfold_apply, val_main_call11_v11_apply, val_main_call11_v7_apply, val_main_call11_v10_apply, w5_eq,
    val_main_call11_v6_apply, val_main_call11_v9_apply, val_main_call11_v8_apply, val_main_call11_c_1_apply,
    val_main_call11_c_2_apply, val_main_call11_c_3_apply]
  exact bounds_iff _

/-- The gathered entry: the log-softmax row at the normalised word, clamped into the row. -/
theorem w13_eq (x2 : (⟨S4096x10000, .f32⟩ : BufTy).Contents (Elt Ideal)) (x3 : (⟨S4096, .i32⟩ : BufTy).Contents (Elt Ideal)) (a : Fin 4096) :
    val_main_call11_v13 (F := Ideal) x2 x3 (ix2 a (0 : Fin 1))
      = val_main_v107 (F := Ideal) x2 (ix2 a ⟨min (norm (x3 (ix1 a))).toInt.toNat 9999, by omega⟩) := by
  unfold val_main_call11_v13
  exact gather_row_apply' _ _ a _ (w5_eq x3 a)

/-- One row of the gathered log-softmax is the specification's log-probability. -/
theorem v109_eq (x2 : (⟨S4096x10000, .f32⟩ : BufTy).Contents (Elt Ideal)) (x3 : (⟨S4096, .i32⟩ : BufTy).Contents (Elt Ideal)) (a : Fin 4096) :
    val_main_v109 (F := Ideal) x2 x3 (ix2 a (0 : Fin 1)) = Cert.Spec.rlogp (fun k => x2 (ix2 a k)) (x3 (ix1 a)) := by
  rw [val_main_v109_apply]
  by_cases hb : 0 ≤ (norm (x3 (ix1 a))).toInt ∧ (norm (x3 (ix1 a))).toInt ≤ 9999
  · rw [(w12_eq x3 a).2 hb, select_one, w13_eq, v107_eq]
    unfold Cert.Spec.rlogp
    rw [tgt_of_in hb]
    have hj : (⟨min (norm (x3 (ix1 a))).toInt.toNat 9999, by omega⟩ : Fin 10000)
        = ⟨(norm (x3 (ix1 a))).toInt.toNat, by omega⟩ := Fin.ext (by
          show min (norm (x3 (ix1 a))).toInt.toNat 9999 = (norm (x3 (ix1 a))).toInt.toNat
          omega)
    exact congrArg (fun j : Fin 10000 => (x2 (ix2 a j) - Cert.Spec.rmax (fun k => x2 (ix2 a k)))
      - Cert.Spec.rlse (fun k => x2 (ix2 a k))) hj
  · rw [eq_zero_of_ne_one (fun h => hb ((w12_eq x3 a).1 h)), select_zero, val_main_call11_v14_apply,
      val_main_call11_cst_apply]
    unfold Cert.Spec.rlogp
    rw [tgt_of_out hb]
    exact lit_nan

/-! ### The two stages -/

theorem l2_eq (x0 x1 : (⟨S128x3x128x512, .f32⟩ : BufTy).Contents (Elt Ideal)) :
    val_main_v3 (F := Ideal) x0 x1 ix0 = Cert.Spec.Ref.l2 x0 x1 := by
  rw [val_main_v3_apply, val_main_v2_apply, val_main_cst_0_apply, val_main_cst_apply]
  simp only [Ideal.hostDivf_def, Ideal.ofBits_def, Ideal.ofBits_zero_f32, zero_add]
  unfold Cert.Spec.Ref.l2
  refine congrArg (fun s => Ideal.div s _) ?_
  rw [sum_idx4]
  refine Finset.sum_congr rfl fun b _ => Finset.sum_congr rfl fun c _ => Finset.sum_congr rfl fun h _ =>
    Finset.sum_congr rfl fun w _ => ?_
  rw [val_main_v1_apply, val_main_v0_apply]
  simp only [Cert.Spec.sqdiff, Cert.Spec.sqdiffIm, Cert.Spec.img, dif_pos b.isLt, Ideal.mulf_def, Ideal.subf_def, Fin.eta]

theorem ce_eq (x2 : (⟨S4096x10000, .f32⟩ : BufTy).Contents (Elt Ideal)) (x3 : (⟨S4096, .i32⟩ : BufTy).Contents (Elt Ideal)) :
    val_main_v112 (F := Ideal) x2 x3 ix0 = Cert.Spec.Ref.ce x2 x3 := by
  rw [val_main_v112_apply, val_main_v111_apply, val_main_v110_apply, val_main_cst_35_apply, val_main_cst_34_apply]
  simp only [Ideal.hostNegf_def, Ideal.negf_def, Ideal.hostDivf_def, Ideal.ofBits_def, Ideal.ofBits_zero_f32, zero_add]
  unfold Cert.Spec.Ref.ce
  refine congrArg (fun s => -(Ideal.div s _)) ?_
  rw [sum_idx2]
  refine Finset.sum_congr rfl fun a _ => ?_
  rw [Fin.sum_univ_one, v109_eq, prow_eq, gword_eq]

end Cert.RefSide

end
-- ==== Proof.RefLg.lean ====
/- The reference's gradient-map stage, read at its one index. -/
import proofs.«424299_j59854664237538_3_alg».proof.Proof.RefReadP
import proofs.«424299_j59854664237538_3_alg».proof.Proof.Spec
import Idealize.ShloMosaic.Lib.KernelVsHost

noncomputable section

namespace Cert.RefSide

open Idealize.ShloMosaic Idealize.ShloMosaic.ValueIdx Cert.ReferenceIdeal Cert.ReferenceIdeal.Gen Cert.ReferenceIdeal.ReadP
open scoped BigOperators

/-! ### Sums over an index set, by coordinates -/

/-- A rank-3 index set is the product of its three coordinate ranges … -/
def lgIdxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem lg_sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (lgIdxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def lgIdxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem lg_sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (lgIdxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over the last two axes of a 128 × 128 × 512 array, at row b: the initial value plus the double sum over
    that row's entries (the entries that drop to b are exactly those whose first coordinate is b). -/
theorem hostReduceAdd_last2 (h' : (⟨3, ![128, 128, 512]⟩ : Shape).ReducesTo [1, 2] ⟨1, ![128]⟩)
    (x : (⟨3, ![128, 128, 512]⟩ : Shape).Idx → EReal) (init : EReal) (b : Fin 128) :
    Ideal.hostReduceAdd h' x init (ix1 b) = init + ∑ h : Fin 128, ∑ w : Fin 512, x (ix3 b h w) := by
  unfold Ideal.hostReduceAdd
  refine congrArg (init + ·) ?_
  have hd : ∀ i : (⟨3, ![128, 128, 512]⟩ : Shape).Idx, ((h'.drop i (0 : Fin 1) : Fin 128) : Nat) = ((i (0 : Fin 3) : Fin 128) : Nat) :=
    fun i => Shape.ReducesTo.drop_apply_val_of_eq h' i (0 : Fin 1) (0 : Fin 3)
  rw [Finset.sum_filter, lg_sum_idx3, Finset.sum_eq_single b]
  · refine Finset.sum_congr rfl fun h _ => Finset.sum_congr rfl fun w _ => ?_
    rw [if_pos]
    funext a
    match a with
    | ⟨0, _⟩ => exact Fin.ext (hd (ix3 b h w))
  · intro a _ hab
    refine Finset.sum_eq_zero fun h _ => Finset.sum_eq_zero fun w _ => ?_
    rw [if_neg]
    intro he
    apply hab
    have h1 := congrArg (fun j : (⟨1, ![128]⟩ : Shape).Idx => ((j (0 : Fin 1) : Fin 128) : Nat)) he
    exact Fin.ext ((hd (ix3 a h w)).symm.trans h1)
  · intro hb; exact absurd (Finset.mem_univ b) hb

/-! ### An array padded by one row or column on one side, read at a shifted index -/

section Pads
variable {α : Type}

/-- One column of padding after the last, read one column to the right: the entry to the right, the padding value in
    the last column. -/
theorem pad_right (m : (⟨4, ![128, 3, 128, 512]⟩ : Shape).Idx → α) {u : Shape} (v : u.Idx → α)
    (hp : (⟨4, ![128, 3, 128, 512]⟩ : Shape).Pads (![0, 0, 0, 0] : Fin 4 → Nat) ![0, 0, 0, 1] ![0, 0, 0, 0] ⟨4, ![128, 3, 128, 513]⟩)
    (hu : 0 < u.numel) (j : (⟨4, ![128, 3, 128, 513]⟩ : Shape).Idx) (b : Fin 128) (c : Fin 3) (h : Fin 128) (w : Fin 512)
    (h0 : (j 0).val = b.val) (h1 : (j 1).val = c.val) (h2 : (j 2).val = h.val) (h3 : (j 3).val = 1 + w.val) :
    pad ⟨4, ![128, 3, 128, 513]⟩ ![0, 0, 0, 0] ![0, 0, 0, 1] ![0, 0, 0, 0] m v hp hu j
      = if hw : w.val + 1 < 512 then m (ix4 b c h ⟨w.val + 1, hw⟩) else v (Shape.Idx.first hu) := by
  by_cases hw : w.val + 1 < 512
  · rw [dif_pos hw]
    refine pad_apply_of_inside _ _ _ m v hp hu j (ix4 b c h ⟨w.val + 1, hw⟩) (fun a => ?_)
    match a with
    | ⟨0, _⟩ => show (j 0).val = 0 + b.val * (0 + 1); omega
    | ⟨1, _⟩ => show (j 1).val = 0 + c.val * (0 + 1); omega
    | ⟨2, _⟩ => show (j 2).val = 0 + h.val * (0 + 1); omega
    | ⟨3, _⟩ => show (j 3).val = 0 + (w.val + 1) * (0 + 1); omega
  · rw [dif_neg hw]
    refine pad_apply_of_not_inside _ _ _ m v hp hu j (3 : Fin 4) (fun hin => hw ?_)
    have h4 : ((j 3).val - 0) / (0 + 1) < 512 := hin.2.2
    omega

/-- One column of padding before the first, read in place: the entry to the left, the padding value in the first
    column. -/
theorem pad_left (m : (⟨4, ![128, 3, 128, 512]⟩ : Shape).Idx → α) {u : Shape} (v : u.Idx → α)
    (hp : (⟨4, ![128, 3, 128, 512]⟩ : Shape).Pads (![0, 0, 0, 1] : Fin 4 → Nat) ![0, 0, 0, 0] ![0, 0, 0, 0] ⟨4, ![128, 3, 128, 513]⟩)
    (hu : 0 < u.numel) (j : (⟨4, ![128, 3, 128, 513]⟩ : Shape).Idx) (b : Fin 128) (c : Fin 3) (h : Fin 128) (w : Fin 512)
    (h0 : (j 0).val = b.val) (h1 : (j 1).val = c.val) (h2 : (j 2).val = h.val) (h3 : (j 3).val = w.val) :
    pad ⟨4, ![128, 3, 128, 513]⟩ ![0, 0, 0, 1] ![0, 0, 0, 0] ![0, 0, 0, 0] m v hp hu j
      = if hw : 1 ≤ w.val then m (ix4 b c h ⟨w.val - 1, by have := w.isLt; omega⟩) else v (Shape.Idx.first hu) := by
  by_cases hw : 1 ≤ w.val
  · rw [dif_pos hw]
    refine pad_apply_of_inside _ _ _ m v hp hu j (ix4 b c h ⟨w.val - 1, by have := w.isLt; omega⟩) (fun a => ?_)
    match a with
    | ⟨0, _⟩ => show (j 0).val = 0 + b.val * (0 + 1); omega
    | ⟨1, _⟩ => show (j 1).val = 0 + c.val * (0 + 1); omega
    | ⟨2, _⟩ => show (j 2).val = 0 + h.val * (0 + 1); omega
    | ⟨3, _⟩ => show (j 3).val = 1 + (w.val - 1) * (0 + 1); omega
  · rw [dif_neg hw]
    refine pad_apply_of_not_inside _ _ _ m v hp hu j (3 : Fin 4) (fun hin => hw ?_)
    have h4 : 1 ≤ (j 3).val := hin.1
    omega

/-- One row of padding before the first, read in place: the entry above, the padding value in the first row. -/
theorem pad_up (m : (⟨4, ![128, 3, 128, 512]⟩ : Shape).Idx → α) {u : Shape} (v : u.Idx → α)
    (hp : (⟨4, ![128, 3, 128, 512]⟩ : Shape).Pads (![0, 0, 1, 0] : Fin 4 → Nat) ![0, 0, 0, 0] ![0, 0, 0, 0] ⟨4, ![128, 3, 129, 512]⟩)
    (hu : 0 < u.numel) (j : (⟨4, ![128, 3, 129, 512]⟩ : Shape).Idx) (b : Fin 128) (c : Fin 3) (h : Fin 128) (w : Fin 512)
    (h0 : (j 0).val = b.val) (h1 : (j 1).val = c.val) (h2 : (j 2).val = h.val) (h3 : (j 3).val = w.val) :
    pad ⟨4, ![128, 3, 129, 512]⟩ ![0, 0, 1, 0] ![0, 0, 0, 0] ![0, 0, 0, 0] m v hp hu j
      = if hh : 1 ≤ h.val then m (ix4 b c ⟨h.val - 1, by have := h.isLt; omega⟩ w) else v (Shape.Idx.first hu) := by
  by_cases hh : 1 ≤ h.val
  · rw [dif_pos hh]
    refine pad_apply_of_inside _ _ _ m v hp hu j (ix4 b c ⟨h.val - 1, by have := h.isLt; omega⟩ w) (fun a => ?_)
    match a with
    | ⟨0, _⟩ => show (j 0).val = 0 + b.val * (0 + 1); omega
    | ⟨1, _⟩ => show (j 1).val = 0 + c.val * (0 + 1); omega
    | ⟨2, _⟩ => show (j 2).val = 1 + (h.val - 1) * (0 + 1); omega
    | ⟨3, _⟩ => show (j 3).val = 0 + w.val * (0 + 1); omega
  · rw [dif_neg hh]
    refine pad_apply_of_not_inside _ _ _ m v hp hu j (2 : Fin 4) (fun hin => hh ?_)
    have h4 : 1 ≤ (j 2).val := hin.1
    omega

/-- One row of padding after the last, read one row down: the entry below, the padding value in the last row. -/
theorem pad_down (m : (⟨4, ![128, 3, 128, 512]⟩ : Shape).Idx → α) {u : Shape} (v : u.Idx → α)
    (hp : (⟨4, ![128, 3, 128, 512]⟩ : Shape).Pads (![0, 0, 0, 0] : Fin 4 → Nat) ![0, 0, 1, 0] ![0, 0, 0, 0] ⟨4, ![128, 3, 129, 512]⟩)
    (hu : 0 < u.numel) (j : (⟨4, ![128, 3, 129, 512]⟩ : Shape).Idx) (b : Fin 128) (c : Fin 3) (h : Fin 128) (w : Fin 512)
    (h0 : (j 0).val = b.val) (h1 : (j 1).val = c.val) (h2 : (j 2).val = 1 + h.val) (h3 : (j 3).val = w.val) :
    pad ⟨4, ![128, 3, 129, 512]⟩ ![0, 0, 0, 0] ![0, 0, 1, 0] ![0, 0, 0, 0] m v hp hu j
      = if hh : h.val + 1 < 128 then m (ix4 b c ⟨h.val + 1, hh⟩ w) else v (Shape.Idx.first hu) := by
  by_cases hh : h.val + 1 < 128
  · rw [dif_pos hh]
    refine pad_apply_of_inside _ _ _ m v hp hu j (ix4 b c ⟨h.val + 1, hh⟩ w) (fun a => ?_)
    match a with
    | ⟨0, _⟩ => show (j 0).val = 0 + b.val * (0 + 1); omega
    | ⟨1, _⟩ => show (j 1).val = 0 + c.val * (0 + 1); omega
    | ⟨2, _⟩ => show (j 2).val = 0 + (h.val + 1) * (0 + 1); omega
    | ⟨3, _⟩ => show (j 3).val = 0 + w.val * (0 + 1); omega
  · rw [dif_neg hh]
    refine pad_apply_of_not_inside _ _ _ m v hp hu j (2 : Fin 4) (fun hin => hh ?_)
    have h4 : ((j 2).val - 0) / (0 + 1) < 128 := hin.2.2
    omega

end Pads

/-! ### The image functions at coordinates inside the image -/

/-- Image b of a batch, b below the batch size, reads the batch at (b, c, h, w). -/
theorem img_apply (x : Cert.Spec.SImg.Idx → EReal) (b : Fin 128) (c : Fin 3) (h : Fin 128) (w : Fin 512) :
    Cert.Spec.img x b.val c h w = x (ix4 b c h w) := dif_pos b.isLt

/-- The mask at natural coordinates on a row of the image. -/
theorem maskN_row (im : Cert.Spec.Image) (h : Fin 128) (n : ℕ) :
    Cert.Spec.maskN im h.val n = if hw : n < 512 then Cert.Spec.mask im h ⟨n, hw⟩ else 0 := dif_pos h.isLt

/-- The neighbour to the right, 0 past the last column. -/
theorem nb_right (im : Cert.Spec.Image) (h : Fin 128) (w : Fin 512) :
    (if hw : w.val + 1 < 512 then Cert.Spec.mask im h ⟨w.val + 1, hw⟩ else 0) = Cert.Spec.maskN im h.val (w.val + 1) :=
  (maskN_row im h (w.val + 1)).symm

/-- The neighbour to the left, 0 before the first column. -/
theorem nb_left (im : Cert.Spec.Image) (h : Fin 128) (w : Fin 512) :
    (if hw : 1 ≤ w.val then Cert.Spec.mask im h ⟨w.val - 1, by have := w.isLt; omega⟩ else 0)
      = if w.val = 0 then 0 else Cert.Spec.maskN im h.val (w.val - 1) := by
  have hwl := w.isLt
  by_cases hw : 1 ≤ w.val
  · rw [dif_pos hw, if_neg (by omega), maskN_row, dif_pos (by omega)]
  · rw [dif_neg hw, if_pos (by omega)]

/-- The neighbour above, 0 above the first row. -/
theorem nb_up (im : Cert.Spec.Image) (h : Fin 128) (w : Fin 512) :
    (if hh : 1 ≤ h.val then Cert.Spec.mask im ⟨h.val - 1, by have := h.isLt; omega⟩ w else 0)
      = if h.val = 0 then 0 else Cert.Spec.maskN im (h.val - 1) w.val := by
  have hhl := h.isLt
  by_cases hh : 1 ≤ h.val
  · rw [dif_pos hh, if_neg (by omega)]
    unfold Cert.Spec.maskN
    rw [dif_pos (by omega), dif_pos w.isLt]
  · rw [dif_neg hh, if_pos (by omega)]

/-- The neighbour below, 0 below the last row. -/
theorem nb_down (im : Cert.Spec.Image) (h : Fin 128) (w : Fin 512) :
    (if hh : h.val + 1 < 128 then Cert.Spec.mask im ⟨h.val + 1, hh⟩ w else 0)
      = Cert.Spec.maskN im (h.val + 1) w.val := by
  unfold Cert.Spec.maskN
  by_cases hh : h.val + 1 < 128
  · rw [dif_pos hh, dif_pos hh, dif_pos w.isLt]
  · rw [dif_neg hh, dif_neg hh]

/-! ### The first image chain: grey level, threshold, mask -/

/-- Channel 0's slice and reshape read the batch at (b, 0, h, w). -/
theorem idx_ch0 (b : Fin 128) (h : Fin 128) (w : Fin 512) :
    idx_main_v7 (idx_main_v8 (ix3 b h w)) = ix4 b (0 : Fin 3) h w := by
  have hb := b.isLt; have hh := h.isLt; have hw := w.isLt
  funext a
  match a with
  | ⟨0, _⟩ => exact Fin.ext (by show ((b.val * 128 + h.val) * 512 + w.val) / 65536 = b.val; omega)
  | ⟨1, _⟩ => exact Fin.ext (by show (0 : ℕ) = 0; rfl)
  | ⟨2, _⟩ => exact Fin.ext (by show ((b.val * 128 + h.val) * 512 + w.val) / 512 % 128 = h.val; omega)
  | ⟨3, _⟩ => exact Fin.ext (by show ((b.val * 128 + h.val) * 512 + w.val) % 512 = w.val; omega)

/-- Channel 1's slice and reshape read the batch at (b, 1, h, w). -/
theorem idx_ch1 (b : Fin 128) (h : Fin 128) (w : Fin 512) :
    idx_main_v11 (idx_main_v12 (ix3 b h w)) = ix4 b (1 : Fin 3) h w := by
  have hb := b.isLt; have hh := h.isLt; have hw := w.isLt
  funext a
  match a with
  | ⟨0, _⟩ => exact Fin.ext (by show ((b.val * 128 + h.val) * 512 + w.val) / 65536 = b.val; omega)
  | ⟨1, _⟩ => exact Fin.ext (by show 1 + 0 = 1; rfl)
  | ⟨2, _⟩ => exact Fin.ext (by show ((b.val * 128 + h.val) * 512 + w.val) / 512 % 128 = h.val; omega)
  | ⟨3, _⟩ => exact Fin.ext (by show ((b.val * 128 + h.val) * 512 + w.val) % 512 = w.val; omega)

/-- Channel 2's slice and reshape read the batch at (b, 2, h, w). -/
theorem idx_ch2 (b : Fin 128) (h : Fin 128) (w : Fin 512) :
    idx_main_v16 (idx_main_v17 (ix3 b h w)) = ix4 b (2 : Fin 3) h w := by
  have hb := b.isLt; have hh := h.isLt; have hw := w.isLt
  funext a
  match a with
  | ⟨0, _⟩ => exact Fin.ext (by show ((b.val * 128 + h.val) * 512 + w.val) / 65536 = b.val; omega)
  | ⟨1, _⟩ => exact Fin.ext (by show 2 + 0 = 2; rfl)
  | ⟨2, _⟩ => exact Fin.ext (by show ((b.val * 128 + h.val) * 512 + w.val) / 512 % 128 = h.val; omega)
  | ⟨3, _⟩ => exact Fin.ext (by show ((b.val * 128 + h.val) * 512 + w.val) % 512 = w.val; omega)

/-- The grey-level stage at (b, h, w) is the grey level of image b at (h, w). -/
theorem gray_read (x : (⟨S128x3x128x512, .f32⟩ : BufTy).Contents (Elt Ideal)) (b : Fin 128) (h : Fin 128) (w : Fin 512) :
    val_main_v23 (F := Ideal) x (ix3 b h w) = Cert.Spec.gray (Cert.Spec.img x b.val) h w := by
  simp only [val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_v10_apply, val_main_v9_apply,
    val_main_v8_apply, val_main_v7_apply, val_main_v6_apply, val_main_v5_apply, val_main_v4_apply,
    val_main_cst_1_apply, val_main_cst_2_apply, val_main_cst_3_apply, val_main_cst_4_apply, val_main_cst_5_apply,
    idx_ch0, idx_ch1, idx_ch2]
  unfold Cert.Spec.gray
  rw [img_apply, img_apply, img_apply]
  rfl

/-- The row-sum stage at b is the sum of image b's grey levels. -/
theorem graysum_read (x : (⟨S128x3x128x512, .f32⟩ : BufTy).Contents (Elt Ideal)) (b : Fin 128) :
    val_main_v24 (F := Ideal) x (ix1 b)
      = ∑ h : Fin 128, ∑ w : Fin 512, Cert.Spec.gray (Cert.Spec.img x b.val) h w := by
  unfold val_main_v24
  simp only [Host.reduceAdd, Ideal.hostReduceAdd_def]
  refine (hostReduceAdd_last2 reducesTo_S128x128x512_S128_d1_2 (val_main_v23 (F := Ideal) x) _ b).trans ?_
  rw [val_main_cst_6_apply, Ideal.ofBits_def, Ideal.ofBits_zero_f32, zero_add]
  exact Finset.sum_congr rfl fun h _ => Finset.sum_congr rfl fun w _ => gray_read x b h w

/-- The broadcast mean at (b, h, w) is image b's threshold. -/
theorem thres_read (x : (⟨S128x3x128x512, .f32⟩ : BufTy).Contents (Elt Ideal)) (b : Fin 128) (h : Fin 128) (w : Fin 512) :
    val_main_v28 (F := Ideal) x (ix3 b h w) = Cert.Spec.thres (Cert.Spec.img x b.val) := by
  have hi : idx_main_v25 (idx_main_v28 (ix3 b h w)) = ix1 b := by
    funext a
    match a with
    | ⟨0, _⟩ => rfl
  rw [val_main_v28_apply, val_main_v27_apply, val_main_v25_apply, val_main_v26_apply, val_main_cst_7_apply, hi,
    graysum_read]
  rfl

/-- The mask stage at (b, c, h, w), whatever the channel copy c, is image b's mask at (h, w). -/
theorem mask_read (x : (⟨S128x3x128x512, .f32⟩ : BufTy).Contents (Elt Ideal)) (b : Fin 128) (c : Fin 3) (h : Fin 128)
    (w : Fin 512) :
    val_main_v32 (F := Ideal) x (ix4 b c h w) = Cert.Spec.mask (Cert.Spec.img x b.val) h w := by
  have hi : idx_main_v31 (idx_main_v32 (ix4 b c h w)) = ix3 b h w := by
    funext a
    match a with
    | ⟨0, _⟩ => rfl
    | ⟨1, _⟩ => rfl
    | ⟨2, _⟩ => rfl
  rw [val_main_v32_apply, val_main_v31_apply, hi, val_main_v30_apply, val_main_v29_apply, val_main_call0_v0_apply,
    val_main_call0_v1_apply, val_main_cst_8_apply, val_main_cst_9_apply, gray_read, thres_read]
  unfold Cert.Spec.mask
  by_cases hlt : Cert.Spec.thres (Cert.Spec.img x b.val) < Cert.Spec.gray (Cert.Spec.img x b.val) h w
  · have hc : FloatOps.cmpf (F := Ideal) (φ := .f32) .ogt (Cert.Spec.gray (Cert.Spec.img x b.val) h w)
        (Cert.Spec.thres (Cert.Spec.img x b.val)) = 1#1 := by
      show BitVec.ofBool (decide (Cert.Spec.thres (Cert.Spec.img x b.val) < Cert.Spec.gray (Cert.Spec.img x b.val) h w)) = 1#1
      rw [decide_eq_true hlt]; rfl
    rw [hc, select_one, if_pos hlt, Ideal.ofBits_def, Ideal.ofBits_zero_f32]
  · have hc : FloatOps.cmpf (F := Ideal) (φ := .f32) .ogt (Cert.Spec.gray (Cert.Spec.img x b.val) h w)
        (Cert.Spec.thres (Cert.Spec.img x b.val)) = 0#1 := by
      show BitVec.ofBool (decide (Cert.Spec.thres (Cert.Spec.img x b.val) < Cert.Spec.gray (Cert.Spec.img x b.val) h w)) = 0#1
      rw [decide_eq_false hlt]; rfl
    rw [hc, select_zero, if_neg hlt, Ideal.ofBits_def]

/-! ### The four neighbours of the mask, and its gradient magnitude -/

/-- The integer zero converted for a padding value is the extended real 0. -/
theorem sitofp_zero_f32 : (FloatOps.sitofp (F := Ideal) .f32 (0#32 : BitVec 32)) = 0 := by
  show ((((0#32 : BitVec 32).toInt : ℤ) : ℝ) : EReal) = 0
  simp

theorem right_read (x : (⟨S128x3x128x512, .f32⟩ : BufTy).Contents (Elt Ideal)) (b : Fin 128) (c : Fin 3) (h : Fin 128)
    (w : Fin 512) :
    val_main_v63 (F := Ideal) x (ix4 b c h w) = Cert.Spec.maskN (Cert.Spec.img x b.val) h.val (w.val + 1) := by
  rw [val_main_v63_apply]
  unfold val_main_v62
  refine (pad_right (val_main_v32 (F := Ideal) x) (val_main_call2_v0 (F := Ideal)) _ _ (idx_main_v63 (ix4 b c h w))
    b c h w rfl rfl rfl rfl).trans ?_
  rw [val_main_call2_v0_apply, val_main_c_apply, sitofp_zero_f32, ← nb_right]
  by_cases hw : w.val + 1 < 512
  · rw [dif_pos hw, dif_pos hw, mask_read]
  · rw [dif_neg hw, dif_neg hw]

theorem left_read (x : (⟨S128x3x128x512, .f32⟩ : BufTy).Contents (Elt Ideal)) (b : Fin 128) (c : Fin 3) (h : Fin 128)
    (w : Fin 512) :
    val_main_v65 (F := Ideal) x (ix4 b c h w)
      = if w.val = 0 then 0 else Cert.Spec.maskN (Cert.Spec.img x b.val) h.val (w.val - 1) := by
  rw [val_main_v65_apply]
  unfold val_main_v64
  refine (pad_left (val_main_v32 (F := Ideal) x) (val_main_call3_v0 (F := Ideal)) _ _ (idx_main_v65 (ix4 b c h w))
    b c h w rfl rfl rfl rfl).trans ?_
  rw [val_main_call3_v0_apply, val_main_c_19_apply, sitofp_zero_f32, ← nb_left]
  by_cases hw : 1 ≤ w.val
  · rw [dif_pos hw, dif_pos hw, mask_read]
  · rw [dif_neg hw, dif_neg hw]

theorem up_read (x : (⟨S128x3x128x512, .f32⟩ : BufTy).Contents (Elt Ideal)) (b : Fin 128) (c : Fin 3) (h : Fin 128)
    (w : Fin 512) :
    val_main_v67 (F := Ideal) x (ix4 b c h w)
      = if h.val = 0 then 0 else Cert.Spec.maskN (Cert.Spec.img x b.val) (h.val - 1) w.val := by
  rw [val_main_v67_apply]
  unfold val_main_v66
  refine (pad_up (val_main_v32 (F := Ideal) x) (val_main_call4_v0 (F := Ideal)) _ _ (idx_main_v67 (ix4 b c h w))
    b c h w rfl rfl rfl rfl).trans ?_
  rw [val_main_call4_v0_apply, val_main_c_20_apply, sitofp_zero_f32, ← nb_up]
  by_cases hh : 1 ≤ h.val
  · rw [dif_pos hh, dif_pos hh, mask_read]
  · rw [dif_neg hh, dif_neg hh]

theorem down_read (x : (⟨S128x3x128x512, .f32⟩ : BufTy).Contents (Elt Ideal)) (b : Fin 128) (c : Fin 3) (h : Fin 128)
    (w : Fin 512) :
    val_main_v69 (F := Ideal) x (ix4 b c h w) = Cert.Spec.maskN (Cert.Spec.img x b.val) (h.val + 1) w.val := by
  rw [val_main_v69_apply]
  unfold val_main_v68
  refine (pad_down (val_main_v32 (F := Ideal) x) (val_main_call5_v0 (F := Ideal)) _ _ (idx_main_v69 (ix4 b c h w))
    b c h w rfl rfl rfl rfl).trans ?_
  rw [val_main_call5_v0_apply, val_main_c_21_apply, sitofp_zero_f32, ← nb_down]
  by_cases hh : h.val + 1 < 128
  · rw [dif_pos hh, dif_pos hh, mask_read]
  · rw [dif_neg hh, dif_neg hh]

/-- The gradient stage at (b, c, h, w) is the gradient magnitude of image b's mask at (h, w). -/
theorem grad_read (x : (⟨S128x3x128x512, .f32⟩ : BufTy).Contents (Elt Ideal)) (b : Fin 128) (c : Fin 3) (h : Fin 128)
    (w : Fin 512) :
    val_main_v81 (F := Ideal) x (ix4 b c h w) = Cert.Spec.grad (Cert.Spec.img x b.val) h w := by
  rw [val_main_v81_apply, val_main_v80_apply, val_main_v79_apply, val_main_cst_24_apply, val_main_v78_apply,
    val_main_v77_apply, val_main_v76_apply, val_main_v75_apply, val_main_cst_23_apply, val_main_v74_apply,
    val_main_v73_apply, val_main_v72_apply, val_main_v71_apply, val_main_cst_22_apply, val_main_v70_apply,
    right_read, left_read, up_read, down_read]
  rfl

/-- The second image's chain is the first's, operation for operation. -/
theorem grad_chain_eq {F : FTy → Type} [FloatOps F] (x : (⟨S128x3x128x512, .f32⟩ : BufTy).Contents (Elt F)) :
    val_main_v101 (F := F) x = val_main_v81 (F := F) x := rfl

/-! ### The stage: the mean absolute difference of the two gradient maps -/

theorem lg_eq (x0 x1 : (⟨S128x3x128x512, .f32⟩ : BufTy).Contents (Elt Ideal)) :
    val_main_v106 (F := Ideal) x0 x1 ix0 = Cert.Spec.Ref.lg x0 x1 := by
  rw [val_main_v106_apply, val_main_v105_apply, val_main_cst_33_apply, val_main_cst_32_apply, Ideal.hostDivf_def,
    Ideal.ofBits_def, Ideal.ofBits_def, Ideal.ofBits_zero_f32, zero_add, lg_sum_idx4]
  unfold Cert.Spec.Ref.lg
  refine congrArg (fun s => Ideal.div s (Ideal.ofBits .f32 0x4BC00000#32)) ?_
  refine Finset.sum_congr rfl fun b _ => Finset.sum_congr rfl fun c _ => Finset.sum_congr rfl fun h _ =>
    Finset.sum_congr rfl fun w _ => ?_
  rw [val_main_v104_apply, val_main_v103_apply, val_main_v102_apply, grad_chain_eq, grad_read, grad_read]
  rfl

end Cert.RefSide

end
-- ==== Proof.RefLoss.lean ====
/- The reference's result is the loss, summed over the whole batch at once. -/
import proofs.«424299_j59854664237538_3_alg».proof.Proof.RefL2Ce
import proofs.«424299_j59854664237538_3_alg».proof.Proof.RefLg

noncomputable section

namespace Cert.RefSide

open Idealize.ShloMosaic Idealize.ShloMosaic.ValueIdx Cert.ReferenceIdeal Cert.ReferenceIdeal.Gen Cert.ReferenceIdeal.ReadP

/-- The weighted sum of the three terms: one product and one sum per weight, read at the result's one index. -/
theorem loss_eq (x0 x1 : (⟨S128x3x128x512, .f32⟩ : BufTy).Contents (Elt Ideal)) (x2 : (⟨S4096x10000, .f32⟩ : BufTy).Contents (Elt Ideal))
    (x3 : (⟨S4096, .i32⟩ : BufTy).Contents (Elt Ideal)) :
    val_main_v117 (F := Ideal) x0 x1 x2 x3 = fun _ => Cert.Spec.Ref.loss x0 x1 x2 x3 := by
  funext i
  obtain rfl : i = ix0 := eq_ix0 i
  rw [val_main_v117_apply, val_main_v115_apply, val_main_v116_apply, val_main_v113_apply, val_main_v114_apply,
    val_main_cst_36_apply, val_main_cst_37_apply, val_main_cst_38_apply, l2_eq, lg_eq, ce_eq]
  rfl

end Cert.RefSide

end
-- ==== Proof.RefRunA.lean ====
/-
  The reference program's first three chunks: the squared error of the two image batches, and each batch's mask.
  Each chunk's result is read off the fold of its own operations from ANY entry contents that hold the chunk's
  inputs, and each buffer a later chunk reads is shown untouched.
-/
import proofs.«424299_j59854664237538_3_alg».proof.Proof.RefRunP
import proofs.«424299_j59854664237538_3_alg».proof.Proof.RefReadP

set_option Elab.async false

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ### Each chunk's result, from any entry contents that hold the chunk's inputs -/

/-- Chunk A: the mean squared error of the two image batches. -/
theorem chunkA (W : Valuation τ sig (Elt F)) (x0 x1 : (⟨S128x3x128x512, .f32⟩ : BufTy).Contents (Elt F))
    (h0 : W (Proc.devRef .tc main_arg0) = x0) (h1 : W (Proc.devRef .tc main_arg1) = x1) :
    after opsA W (Proc.devRef .tc main_v3) = val_main_v3 (F := F) x0 x1 := by
  unfold opsA
  after_results_simp
  rw [h0, h1]
  rfl

/-- Chunk B: the mask of the first batch. -/
theorem chunkB (W : Valuation τ sig (Elt F)) (x0 : (⟨S128x3x128x512, .f32⟩ : BufTy).Contents (Elt F))
    (h0 : W (Proc.devRef .tc main_arg0) = x0) :
    after opsB W (Proc.devRef .tc main_v32) = val_main_v32 (F := F) x0 := by
  unfold opsB
  after_results_simp
  rw [h0]
  (try simp only [TRef.ofBuf, TRef.toBuf, cast_eq])
  rfl

/-- Chunk C: the mask of the second batch. -/
theorem chunkC (W : Valuation τ sig (Elt F)) (x1 : (⟨S128x3x128x512, .f32⟩ : BufTy).Contents (Elt F))
    (h1 : W (Proc.devRef .tc main_arg1) = x1) :
    after opsC W (Proc.devRef .tc main_v61) = val_main_v61 (F := F) x1 := by
  unfold opsC
  after_results_simp
  rw [h1]
  (try simp only [TRef.ofBuf, TRef.toBuf, cast_eq])
  rfl

/-! ### What each chunk leaves untouched -/

theorem keepA_arg0 (W : Valuation τ sig (Elt F)) : after opsA W (Proc.devRef .tc main_arg0) = W (Proc.devRef .tc main_arg0) := by
  unfold opsA; after_results_simp
theorem keepA_arg1 (W : Valuation τ sig (Elt F)) : after opsA W (Proc.devRef .tc main_arg1) = W (Proc.devRef .tc main_arg1) := by
  unfold opsA; after_results_simp
theorem keepA_arg2 (W : Valuation τ sig (Elt F)) : after opsA W (Proc.devRef .tc main_arg2) = W (Proc.devRef .tc main_arg2) := by
  unfold opsA; after_results_simp
theorem keepA_arg3 (W : Valuation τ sig (Elt F)) : after opsA W (Proc.devRef .tc main_arg3) = W (Proc.devRef .tc main_arg3) := by
  unfold opsA; after_results_simp

theorem keepB_arg0 (W : Valuation τ sig (Elt F)) : after opsB W (Proc.devRef .tc main_arg0) = W (Proc.devRef .tc main_arg0) := by
  unfold opsB; after_results_simp
theorem keepB_arg1 (W : Valuation τ sig (Elt F)) : after opsB W (Proc.devRef .tc main_arg1) = W (Proc.devRef .tc main_arg1) := by
  unfold opsB; after_results_simp
theorem keepB_arg2 (W : Valuation τ sig (Elt F)) : after opsB W (Proc.devRef .tc main_arg2) = W (Proc.devRef .tc main_arg2) := by
  unfold opsB; after_results_simp
theorem keepB_arg3 (W : Valuation τ sig (Elt F)) : after opsB W (Proc.devRef .tc main_arg3) = W (Proc.devRef .tc main_arg3) := by
  unfold opsB; after_results_simp
theorem keepB_v3 (W : Valuation τ sig (Elt F)) : after opsB W (Proc.devRef .tc main_v3) = W (Proc.devRef .tc main_v3) := by
  unfold opsB; after_results_simp

theorem keepC_arg0 (W : Valuation τ sig (Elt F)) : after opsC W (Proc.devRef .tc main_arg0) = W (Proc.devRef .tc main_arg0) := by
  unfold opsC; after_results_simp
theorem keepC_arg1 (W : Valuation τ sig (Elt F)) : after opsC W (Proc.devRef .tc main_arg1) = W (Proc.devRef .tc main_arg1) := by
  unfold opsC; after_results_simp
theorem keepC_arg2 (W : Valuation τ sig (Elt F)) : after opsC W (Proc.devRef .tc main_arg2) = W (Proc.devRef .tc main_arg2) := by
  unfold opsC; after_results_simp
theorem keepC_arg3 (W : Valuation τ sig (Elt F)) : after opsC W (Proc.devRef .tc main_arg3) = W (Proc.devRef .tc main_arg3) := by
  unfold opsC; after_results_simp
theorem keepC_v3 (W : Valuation τ sig (Elt F)) : after opsC W (Proc.devRef .tc main_v3) = W (Proc.devRef .tc main_v3) := by
  unfold opsC; after_results_simp
theorem keepC_v32 (W : Valuation τ sig (Elt F)) : after opsC W (Proc.devRef .tc main_v32) = W (Proc.devRef .tc main_v32) := by
  unfold opsC; after_results_simp

end Cert.ReferenceIdeal.RunH

end
-- ==== Proof.RefRunB.lean ====
/-
  The reference program's middle three chunks: each mask's gradient magnitude, and the mean absolute difference of
  the two gradient maps.  Each chunk's result is read off the fold of its own operations from ANY entry contents that
  hold the chunk's inputs, and each buffer a later chunk reads is shown untouched.
-/
import proofs.«424299_j59854664237538_3_alg».proof.Proof.RefRunP
import proofs.«424299_j59854664237538_3_alg».proof.Proof.RefReadP

set_option Elab.async false

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ### Each chunk's result, from any entry contents that hold the chunk's inputs -/

/-- Chunk D: the gradient magnitude of the first mask. -/
theorem chunkD (W : Valuation τ sig (Elt F)) (x0 : (⟨S128x3x128x512, .f32⟩ : BufTy).Contents (Elt F))
    (h : W (Proc.devRef .tc main_v32) = val_main_v32 (F := F) x0) :
    after opsD W (Proc.devRef .tc main_v81) = val_main_v81 (F := F) x0 := by
  unfold opsD
  after_results_simp
  rw [h]
  (try simp only [TRef.ofBuf, TRef.toBuf, cast_eq])
  rfl

/-- Chunk E: the gradient magnitude of the second mask. -/
theorem chunkE (W : Valuation τ sig (Elt F)) (x1 : (⟨S128x3x128x512, .f32⟩ : BufTy).Contents (Elt F))
    (h : W (Proc.devRef .tc main_v61) = val_main_v61 (F := F) x1) :
    after opsE W (Proc.devRef .tc main_v101) = val_main_v101 (F := F) x1 := by
  unfold opsE
  after_results_simp
  rw [h]
  (try simp only [TRef.ofBuf, TRef.toBuf, cast_eq])
  rfl

/-- Chunk F: the mean absolute difference of the two gradient maps. -/
theorem chunkF (W : Valuation τ sig (Elt F)) (x0 x1 : (⟨S128x3x128x512, .f32⟩ : BufTy).Contents (Elt F))
    (h81 : W (Proc.devRef .tc main_v81) = val_main_v81 (F := F) x0)
    (h101 : W (Proc.devRef .tc main_v101) = val_main_v101 (F := F) x1) :
    after opsF W (Proc.devRef .tc main_v106) = val_main_v106 (F := F) x0 x1 := by
  unfold opsF
  after_results_simp
  rw [h81, h101]
  rfl

/-! ### What each chunk leaves untouched -/

theorem keepD_arg0 (W : Valuation τ sig (Elt F)) : after opsD W (Proc.devRef .tc main_arg0) = W (Proc.devRef .tc main_arg0) := by
  unfold opsD; after_results_simp
theorem keepD_arg1 (W : Valuation τ sig (Elt F)) : after opsD W (Proc.devRef .tc main_arg1) = W (Proc.devRef .tc main_arg1) := by
  unfold opsD; after_results_simp
theorem keepD_arg2 (W : Valuation τ sig (Elt F)) : after opsD W (Proc.devRef .tc main_arg2) = W (Proc.devRef .tc main_arg2) := by
  unfold opsD; after_results_simp
theorem keepD_arg3 (W : Valuation τ sig (Elt F)) : after opsD W (Proc.devRef .tc main_arg3) = W (Proc.devRef .tc main_arg3) := by
  unfold opsD; after_results_simp
theorem keepD_v3 (W : Valuation τ sig (Elt F)) : after opsD W (Proc.devRef .tc main_v3) = W (Proc.devRef .tc main_v3) := by
  unfold opsD; after_results_simp
theorem keepD_v61 (W : Valuation τ sig (Elt F)) : after opsD W (Proc.devRef .tc main_v61) = W (Proc.devRef .tc main_v61) := by
  unfold opsD; after_results_simp

theorem keepE_arg0 (W : Valuation τ sig (Elt F)) : after opsE W (Proc.devRef .tc main_arg0) = W (Proc.devRef .tc main_arg0) := by
  unfold opsE; after_results_simp
theorem keepE_arg1 (W : Valuation τ sig (Elt F)) : after opsE W (Proc.devRef .tc main_arg1) = W (Proc.devRef .tc main_arg1) := by
  unfold opsE; after_results_simp
theorem keepE_arg2 (W : Valuation τ sig (Elt F)) : after opsE W (Proc.devRef .tc main_arg2) = W (Proc.devRef .tc main_arg2) := by
  unfold opsE; after_results_simp
theorem keepE_arg3 (W : Valuation τ sig (Elt F)) : after opsE W (Proc.devRef .tc main_arg3) = W (Proc.devRef .tc main_arg3) := by
  unfold opsE; after_results_simp
theorem keepE_v3 (W : Valuation τ sig (Elt F)) : after opsE W (Proc.devRef .tc main_v3) = W (Proc.devRef .tc main_v3) := by
  unfold opsE; after_results_simp
theorem keepE_v81 (W : Valuation τ sig (Elt F)) : after opsE W (Proc.devRef .tc main_v81) = W (Proc.devRef .tc main_v81) := by
  unfold opsE; after_results_simp

theorem keepF_arg0 (W : Valuation τ sig (Elt F)) : after opsF W (Proc.devRef .tc main_arg0) = W (Proc.devRef .tc main_arg0) := by
  unfold opsF; after_results_simp
theorem keepF_arg1 (W : Valuation τ sig (Elt F)) : after opsF W (Proc.devRef .tc main_arg1) = W (Proc.devRef .tc main_arg1) := by
  unfold opsF; after_results_simp
theorem keepF_arg2 (W : Valuation τ sig (Elt F)) : after opsF W (Proc.devRef .tc main_arg2) = W (Proc.devRef .tc main_arg2) := by
  unfold opsF; after_results_simp
theorem keepF_arg3 (W : Valuation τ sig (Elt F)) : after opsF W (Proc.devRef .tc main_arg3) = W (Proc.devRef .tc main_arg3) := by
  unfold opsF; after_results_simp
theorem keepF_v3 (W : Valuation τ sig (Elt F)) : after opsF W (Proc.devRef .tc main_v3) = W (Proc.devRef .tc main_v3) := by
  unfold opsF; after_results_simp

end Cert.ReferenceIdeal.RunH

end
-- ==== Proof.RefRunC.lean ====
/-
  The reference program's last three chunks: the log-softmax of the logits, minus the mean of the log-probabilities
  gathered at the targets, and the weighted sum of the three terms.  Each chunk's result is read off the fold of its
  own operations from ANY entry contents that hold the chunk's inputs, and each buffer a later chunk reads is shown
  untouched.
-/
import proofs.«424299_j59854664237538_3_alg».proof.Proof.RefRunP
import proofs.«424299_j59854664237538_3_alg».proof.Proof.RefReadP

set_option Elab.async false

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ### A typed reference's transport of contents -/

/-- Contents carried to a typed reference's buffer and back are the contents. -/
theorem ofBuf_toBuf {T : BufTy} (x : TRef sig T) (v : T.Contents (Elt F)) : x.ofBuf (x.toBuf v) = v := by
  obtain ⟨r, h, h2, h3⟩ := x
  subst h
  rfl

/-- At the logits' own buffer the transport is the identity. -/
theorem ofBuf_arg2 (p1 p2 p3) (v : (⟨S4096x10000, .f32⟩ : BufTy).Contents (Elt F)) :
    (TRef.of (sig := sig) (T := ⟨S4096x10000, .f32⟩) main_arg2 p1 p2 p3).ofBuf (Val := Elt F) v = v := rfl

/-- At the log-softmax's own buffer the transport is the identity. -/
theorem toBuf_v107 (p1 p2 p3) (v : (⟨S4096x10000, .f32⟩ : BufTy).Contents (Elt F)) :
    (TRef.of (sig := sig) (T := ⟨S4096x10000, .f32⟩) main_v107 p1 p2 p3).toBuf (Val := Elt F) v = v := rfl

/-! ### Each chunk's result, from any entry contents that hold the chunk's inputs -/

/-- Chunk G: the log-softmax of the logits. -/
theorem chunkG (W : Valuation τ sig (Elt F)) (x2 : (⟨S4096x10000, .f32⟩ : BufTy).Contents (Elt F))
    (h2 : W (Proc.devRef .tc main_arg2) = x2) :
    after opsG W (Proc.devRef .tc main_v107) = val_main_v107 (F := F) x2 := by
  unfold opsG
  after_results_simp
  rw [h2]
  simp only [ofBuf_toBuf]
  rw [toBuf_v107]
  simp only [ofBuf_arg2]
  rfl

/-- Chunk H: minus the mean of the log-probabilities gathered at the targets. -/
theorem chunkH (W : Valuation τ sig (Elt F)) (x2 : (⟨S4096x10000, .f32⟩ : BufTy).Contents (Elt F))
    (x3 : (⟨S4096, .i32⟩ : BufTy).Contents (Elt F))
    (h107 : W (Proc.devRef .tc main_v107) = val_main_v107 (F := F) x2) (h3 : W (Proc.devRef .tc main_arg3) = x3) :
    after opsH W (Proc.devRef .tc main_v112) = val_main_v112 (F := F) x2 x3 := by
  unfold opsH
  after_results_simp
  rw [h107, h3]
  (try simp only [TRef.ofBuf, TRef.toBuf, cast_eq])
  rfl

/-- Chunk I: the weighted sum of the three terms. -/
theorem chunkI (W : Valuation τ sig (Elt F)) (x0 x1 : (⟨S128x3x128x512, .f32⟩ : BufTy).Contents (Elt F))
    (x2 : (⟨S4096x10000, .f32⟩ : BufTy).Contents (Elt F)) (x3 : (⟨S4096, .i32⟩ : BufTy).Contents (Elt F))
    (h3 : W (Proc.devRef .tc main_v3) = val_main_v3 (F := F) x0 x1)
    (h106 : W (Proc.devRef .tc main_v106) = val_main_v106 (F := F) x0 x1)
    (h112 : W (Proc.devRef .tc main_v112) = val_main_v112 (F := F) x2 x3) :
    after opsI W (Proc.devRef .tc main_v117) = val_main_v117 (F := F) x0 x1 x2 x3 := by
  unfold opsI
  after_results_simp
  rw [h3, h106, h112]
  rfl

/-! ### What each chunk leaves untouched -/

theorem keepG_arg0 (W : Valuation τ sig (Elt F)) : after opsG W (Proc.devRef .tc main_arg0) = W (Proc.devRef .tc main_arg0) := by
  unfold opsG; after_results_simp
theorem keepG_arg1 (W : Valuation τ sig (Elt F)) : after opsG W (Proc.devRef .tc main_arg1) = W (Proc.devRef .tc main_arg1) := by
  unfold opsG; after_results_simp
theorem keepG_arg2 (W : Valuation τ sig (Elt F)) : after opsG W (Proc.devRef .tc main_arg2) = W (Proc.devRef .tc main_arg2) := by
  unfold opsG; after_results_simp
theorem keepG_arg3 (W : Valuation τ sig (Elt F)) : after opsG W (Proc.devRef .tc main_arg3) = W (Proc.devRef .tc main_arg3) := by
  unfold opsG; after_results_simp
theorem keepG_v3 (W : Valuation τ sig (Elt F)) : after opsG W (Proc.devRef .tc main_v3) = W (Proc.devRef .tc main_v3) := by
  unfold opsG; after_results_simp
theorem keepG_v106 (W : Valuation τ sig (Elt F)) : after opsG W (Proc.devRef .tc main_v106) = W (Proc.devRef .tc main_v106) := by
  unfold opsG; after_results_simp

theorem keepH_arg0 (W : Valuation τ sig (Elt F)) : after opsH W (Proc.devRef .tc main_arg0) = W (Proc.devRef .tc main_arg0) := by
  unfold opsH; after_results_simp
theorem keepH_arg1 (W : Valuation τ sig (Elt F)) : after opsH W (Proc.devRef .tc main_arg1) = W (Proc.devRef .tc main_arg1) := by
  unfold opsH; after_results_simp
theorem keepH_arg2 (W : Valuation τ sig (Elt F)) : after opsH W (Proc.devRef .tc main_arg2) = W (Proc.devRef .tc main_arg2) := by
  unfold opsH; after_results_simp
theorem keepH_arg3 (W : Valuation τ sig (Elt F)) : after opsH W (Proc.devRef .tc main_arg3) = W (Proc.devRef .tc main_arg3) := by
  unfold opsH; after_results_simp
theorem keepH_v3 (W : Valuation τ sig (Elt F)) : after opsH W (Proc.devRef .tc main_v3) = W (Proc.devRef .tc main_v3) := by
  unfold opsH; after_results_simp
theorem keepH_v106 (W : Valuation τ sig (Elt F)) : after opsH W (Proc.devRef .tc main_v106) = W (Proc.devRef .tc main_v106) := by
  unfold opsH; after_results_simp

theorem keepI_arg0 (W : Valuation τ sig (Elt F)) : after opsI W (Proc.devRef .tc main_arg0) = W (Proc.devRef .tc main_arg0) := by
  unfold opsI; after_results_simp
theorem keepI_arg1 (W : Valuation τ sig (Elt F)) : after opsI W (Proc.devRef .tc main_arg1) = W (Proc.devRef .tc main_arg1) := by
  unfold opsI; after_results_simp
theorem keepI_arg2 (W : Valuation τ sig (Elt F)) : after opsI W (Proc.devRef .tc main_arg2) = W (Proc.devRef .tc main_arg2) := by
  unfold opsI; after_results_simp
theorem keepI_arg3 (W : Valuation τ sig (Elt F)) : after opsI W (Proc.devRef .tc main_arg3) = W (Proc.devRef .tc main_arg3) := by
  unfold opsI; after_results_simp

end Cert.ReferenceIdeal.RunH

end
-- ==== Proof.RefRun.lean ====
/-
  The reference program's run: every weakly fair execution ends with the result buffer at the operations' composed
  value of the arguments and the arguments unchanged.  The operation list is walked in nine consecutive chunks along
  the data flow (squared error; the two masks; the two gradient maps; their mean absolute difference; log-softmax;
  the gathered mean; the weighted sum), each chunk's result read off the fold of its own operations, and each value a
  later chunk reads shown untouched by the chunks between.
-/
import proofs.«424299_j59854664237538_3_alg».proof.Proof.RefRunA
import proofs.«424299_j59854664237538_3_alg».proof.Proof.RefRunB
import proofs.«424299_j59854664237538_3_alg».proof.Proof.RefRunC

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold of two lists run one after the other is the second's fold of the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole list leaves the result buffer at the last stage of the arguments. -/
theorem after_main_v117 (V : Valuation τ sig (Elt F)) :
    after ops V (Proc.devRef .tc main_v117)
      = val_main_v117 (F := F) (V (Proc.devRef .tc main_arg0)) (V (Proc.devRef .tc main_arg1)) (V (Proc.devRef .tc main_arg2)) (V (Proc.devRef .tc main_arg3)) := by
  rw [ops_split]
  simp only [after_app]
  refine chunkI _ _ _ _ _ ?_ ?_ ?_
  · rw [keepH_v3, keepG_v3, keepF_v3, keepE_v3, keepD_v3, keepC_v3, keepB_v3]
    exact chunkA V _ _ rfl rfl
  · rw [keepH_v106, keepG_v106]
    refine chunkF _ _ _ ?_ ?_
    · rw [keepE_v81]
      refine chunkD _ _ ?_
      rw [keepC_v32]
      refine chunkB _ _ ?_
      rw [keepA_arg0]
    · refine chunkE _ _ ?_
      rw [keepD_v61]
      refine chunkC _ _ ?_
      rw [keepB_arg1, keepA_arg1]
  · refine chunkH _ _ _ ?_ ?_
    · refine chunkG _ _ ?_
      rw [keepF_arg2, keepE_arg2, keepD_arg2, keepC_arg2, keepB_arg2, keepA_arg2]
    · rw [keepG_arg3, keepF_arg3, keepE_arg3, keepD_arg3, keepC_arg3, keepB_arg3, keepA_arg3]

theorem after_main_arg0 (V : Valuation τ sig (Elt F)) : after ops V (Proc.devRef .tc main_arg0) = V (Proc.devRef .tc main_arg0) := by
  rw [ops_split]
  simp only [after_app]
  rw [keepI_arg0, keepH_arg0, keepG_arg0, keepF_arg0, keepE_arg0, keepD_arg0, keepC_arg0, keepB_arg0, keepA_arg0]
theorem after_main_arg1 (V : Valuation τ sig (Elt F)) : after ops V (Proc.devRef .tc main_arg1) = V (Proc.devRef .tc main_arg1) := by
  rw [ops_split]
  simp only [after_app]
  rw [keepI_arg1, keepH_arg1, keepG_arg1, keepF_arg1, keepE_arg1, keepD_arg1, keepC_arg1, keepB_arg1, keepA_arg1]
theorem after_main_arg2 (V : Valuation τ sig (Elt F)) : after ops V (Proc.devRef .tc main_arg2) = V (Proc.devRef .tc main_arg2) := by
  rw [ops_split]
  simp only [after_app]
  rw [keepI_arg2, keepH_arg2, keepG_arg2, keepF_arg2, keepE_arg2, keepD_arg2, keepC_arg2, keepB_arg2, keepA_arg2]
theorem after_main_arg3 (V : Valuation τ sig (Elt F)) : after ops V (Proc.devRef .tc main_arg3) = V (Proc.devRef .tc main_arg3) := by
  rw [ops_split]
  simp only [after_app]
  rw [keepI_arg3, keepH_arg3, keepG_arg3, keepF_arg3, keepE_arg3, keepD_arg3, keepC_arg3, keepB_arg3, keepA_arg3]

/-- THE RUN. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v117)
          = val_main_v117 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v117).trans (after_main_v117 _), (h c main_arg0).trans (after_main_arg0 _),
      (h c main_arg1).trans (after_main_arg1 _), (h c main_arg2).trans (after_main_arg2 _), (h c main_arg3).trans (after_main_arg3 _)⟩)
    (run_seq scopedRefs_eq scopedSems_eq defs main (fun _ => ops) main_eq (fun _ => ops_sub) m ρ)

end Cert.ReferenceIdeal.RunH

end
-- ==== Proof.Algebra.lean ====
/- The two arrangements of the loss are one number. -/
import proofs.«424299_j59854664237538_3_alg».proof.Proof.Spec
import Mathlib.Data.EReal.Operations
import Mathlib.Data.EReal.Inv
import Mathlib.Data.Fintype.BigOperators
import Mathlib.Algebra.BigOperators.Fin

noncomputable section

namespace Cert.Spec

open Idealize.ShloMosaic

/-! ### The three counts -/

/-- 128·3·128·512 entries. -/
theorem lit_entries : lit 0x4BC00000#32 = ((25165824 : ℝ) : EReal) := by
  show Ideal.ofBits .f32 0x4BC00000#32 = _
  simp [Ideal.ofBits, Ideal.ieee, -EReal.coe_mul]; norm_num

/-- 128·128·512 pixels. -/
theorem lit_pixels : lit 0x4B000000#32 = ((8388608 : ℝ) : EReal) := by
  show Ideal.ofBits .f32 0x4B000000#32 = _
  simp [Ideal.ofBits, Ideal.ieee, -EReal.coe_mul]

/-- 4096 rows. -/
theorem lit_rows : lit 0x45800000#32 = ((4096 : ℝ) : EReal) := by
  show Ideal.ofBits .f32 0x45800000#32 = _
  simp [Ideal.ofBits, Ideal.ieee, -EReal.coe_mul]; norm_num

/-! ### Regrouping a sum of 32·k terms: two halves of sixteen blocks of k -/

section Regroup

variable {M : Type*} [AddCommMonoid M]

/-- A sum of n·k terms is n blocks of k. -/
theorem sum_range_blocks (n k : ℕ) (f : ℕ → M) :
    ∑ i ∈ Finset.range (n * k), f i = ∑ s ∈ Finset.range n, ∑ b ∈ Finset.range k, f (k * s + b) := by
  induction n with
  | zero => simp
  | succ n ih =>
    rw [Nat.succ_mul, Finset.sum_range_add, ih, Finset.sum_range_succ, Nat.mul_comm n k]

/-- A sum of 32·k terms: blocks 0…15, then blocks 16…31. -/
theorem sum_fin_regroup (k N : ℕ) (hN : N = 32 * k) (f : ℕ → M) :
    ∑ b : Fin N, f b.val
      = ∑ s : Fin 16, ∑ b' : Fin k, f (k * (16 * 0 + s.val) + b'.val)
        + ∑ s : Fin 16, ∑ b' : Fin k, f (k * (16 * 1 + s.val) + b'.val) := by
  subst hN
  have h1 : ∀ c : ℕ, ∑ s : Fin 16, ∑ b' : Fin k, f (k * (c + s.val) + b'.val)
      = ∑ s ∈ Finset.range 16, ∑ b ∈ Finset.range k, f (k * (c + s) + b) := by
    intro c
    rw [← Fin.sum_univ_eq_sum_range (fun s => ∑ b ∈ Finset.range k, f (k * (c + s) + b)) 16]
    refine Finset.sum_congr rfl fun s _ => ?_
    exact Fin.sum_univ_eq_sum_range (fun b => f (k * (c + s.val) + b)) k
  rw [h1, h1, Fin.sum_univ_eq_sum_range f (32 * k), sum_range_blocks 32 k f,
    Finset.sum_range_add (fun s => ∑ b ∈ Finset.range k, f (k * s + b)) 16 16]
  simp

end Regroup

/-! ### Quotients by a positive real -/

/-- A quotient by a positive real distributes over every sum of two extended reals. -/
theorem div_add_pos (A B : EReal) {c : ℝ} (hc : 0 < c) :
    Ideal.div (A + B) (c : EReal) = Ideal.div A (c : EReal) + Ideal.div B (c : EReal) := by
  rw [Ideal.div_coe hc.ne', Ideal.div_coe hc.ne', Ideal.div_coe hc.ne']
  exact EReal.right_distrib_of_nonneg_of_ne_top (EReal.coe_nonneg.mpr (by positivity))
    (EReal.coe_ne_top _) A B

/-- Negation passes through a quotient by a positive real. -/
theorem neg_div_pos (A : EReal) {c : ℝ} (hc : 0 < c) :
    -(Ideal.div A (c : EReal)) = Ideal.div (-A) (c : EReal) := by
  rw [Ideal.div_coe hc.ne', Ideal.div_coe hc.ne', EReal.neg_mul]

/-- Three copies over three times the count is one copy over the count. -/
theorem div_three_copies (X : EReal) {m : ℝ} (hm : 0 < m) :
    Ideal.div (X + X + X) ((3 * m : ℝ) : EReal) = Ideal.div X (m : EReal) := by
  have h3 : (0 : ℝ) < 3 * m := by positivity
  rw [Ideal.div_coe h3.ne', Ideal.div_coe hm.ne']
  have p3 : (0 : ℝ) < 1 / (3 * m) := by positivity
  have p1 : (0 : ℝ) < 1 / m := by positivity
  induction X using EReal.rec with
  | bot =>
    have e : (⊥ : EReal) + ⊥ + ⊥ = ⊥ := by simp
    rw [e, EReal.bot_mul_coe_of_pos p3, EReal.bot_mul_coe_of_pos p1]
  | coe x =>
    rw [← EReal.coe_add, ← EReal.coe_add, ← EReal.coe_mul, ← EReal.coe_mul]
    congr 1
    field_simp
    ring
  | top =>
    have e : (⊤ : EReal) + ⊤ + ⊤ = ⊤ := by simp
    rw [e, EReal.top_mul_coe_of_pos p3, EReal.top_mul_coe_of_pos p1]

/-! ### The two pixel terms -/

/-- Sixteen tiles to a half, two halves: the batch's squared differences regrouped; a quotient by a positive
    real distributes over a sum of extended reals. -/
theorem ref_l2_eq_ker (o t : SImg.Idx → EReal) : Ref.l2 o t = Ker.l2 o t := by
  unfold Ref.l2 Ker.l2 Ker.half Ker.l2tile
  rw [lit_entries, ← div_add_pos _ _ (by norm_num : (0 : ℝ) < 25165824)]
  congr 1
  exact sum_fin_regroup 4 128 rfl
    (fun n => ∑ c : Fin 3, ∑ h : Fin 128, ∑ w : Fin 512, sqdiff o t n c h w)

/-- Three equal channel copies over three times the count is one copy over the count. -/
theorem ref_lg_eq_ker (o t : SImg.Idx → EReal) : Ref.lg o t = Ker.lg o t := by
  unfold Ref.lg Ker.lg Ker.half Ker.lgtile
  rw [lit_entries, lit_pixels, ← div_add_pos _ _ (by norm_num : (0 : ℝ) < 8388608)]
  rw [Finset.sum_comm, Fin.sum_univ_three,
    show ((25165824 : ℝ) : EReal) = ((3 * 8388608 : ℝ) : EReal) by norm_num,
    div_three_copies _ (by norm_num : (0 : ℝ) < 8388608)]
  congr 1
  exact sum_fin_regroup 4 128 rfl
    (fun n => ∑ h : Fin 128, ∑ w : Fin 512, gdiff o t n h w)

/-! ### The cross-entropy term -/

/-- A finite sum of reals, read in the extended reals. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Negation passes through a finite sum none of whose terms is ⊤ (and the sum is not ⊤ either). -/
theorem neg_sum_of_ne_top {ι : Type*} (s : Finset ι) (f : ι → EReal) (hf : ∀ i ∈ s, f i ≠ ⊤) :
    (∑ i ∈ s, f i) ≠ ⊤ ∧ -(∑ i ∈ s, f i) = ∑ i ∈ s, -f i := by
  classical
  induction s using Finset.induction_on with
  | empty => simp
  | insert a s ha ih =>
    obtain ⟨h1, h2⟩ := ih (fun i hi => hf i (Finset.mem_insert_of_mem hi))
    have ha' : f a ≠ ⊤ := hf a (Finset.mem_insert_self a s)
    rw [Finset.sum_insert ha, Finset.sum_insert ha]
    refine ⟨EReal.add_ne_top ha' h1, ?_⟩
    rw [EReal.neg_add (Or.inr h1) (Or.inl ha'), sub_eq_add_neg, h2]

/-- The maximum of a row of reals is real: below ⊤ because every entry is, above ⊥ because it
    bounds the first entry. -/
theorem rmax_real (r : Fin 10000 → ℝ) : ∃ m : ℝ, rmax (fun j => ((r j : ℝ) : EReal)) = (m : EReal) := by
  have h1 : rmax (fun j => ((r j : ℝ) : EReal)) ≠ ⊤ := by
    have h : rmax (fun j => ((r j : ℝ) : EReal)) < ⊤ := by
      unfold rmax
      rw [Finset.sup_lt_iff bot_lt_top]
      intro j _
      exact EReal.coe_lt_top _
    exact h.ne
  have h2 : rmax (fun j => ((r j : ℝ) : EReal)) ≠ ⊥ := by
    have h0 : ((r 0 : ℝ) : EReal) ≤ rmax (fun j => ((r j : ℝ) : EReal)) :=
      Finset.le_sup (f := fun j => ((r j : ℝ) : EReal)) (Finset.mem_univ 0)
    intro h
    rw [h] at h0
    exact EReal.coe_ne_bot _ (le_bot_iff.mp h0)
  exact ⟨_, (EReal.coe_toReal h1 h2).symm⟩

/-- The log-sum-exp of a row of reals is real: a finite sum of positive reals is positive. -/
theorem rlse_real (r : Fin 10000 → ℝ) : ∃ l : ℝ, rlse (fun j => ((r j : ℝ) : EReal)) = (l : EReal) := by
  obtain ⟨m, hm⟩ := rmax_real r
  have e : ∀ j : Fin 10000,
      Ideal.exp (((r j : ℝ) : EReal) - (m : EReal)) = ((Real.exp (r j - m) : ℝ) : EReal) := by
    intro j
    rw [← EReal.coe_sub, Ideal.exp_coe]
  have hpos : 0 < ∑ j : Fin 10000, Real.exp (r j - m) :=
    Finset.sum_pos (fun j _ => Real.exp_pos _) ⟨0, Finset.mem_univ _⟩
  unfold rlse
  rw [hm, Finset.sum_congr rfl (fun j _ => e j), coe_sum_real, Ideal.log_coe, if_neg (not_le.mpr hpos)]
  exact ⟨_, rfl⟩

/-- One row of reals: the log-probability is never ⊤, and its negation is
    max + log-sum-exp − the picked logit, also where the picked logit is ⊥. -/
theorem row_eq (r : Fin 10000 → EReal) (hr : ∀ j, r j ≠ ⊤ ∧ r j ≠ ⊥) (g : BitVec 32) :
    rlogp r g ≠ ⊤ ∧ -(rlogp r g) = (rmax r + rlse r) - rpick r g := by
  obtain ⟨r', rfl⟩ : ∃ r' : Fin 10000 → ℝ, r = fun j => ((r' j : ℝ) : EReal) :=
    ⟨fun j => (r j).toReal, funext fun j => (EReal.coe_toReal (hr j).1 (hr j).2).symm⟩
  obtain ⟨m, hm⟩ := rmax_real r'
  obtain ⟨l, hl⟩ := rlse_real r'
  unfold rlogp rpick
  rw [hm, hl]
  cases tgt g with
  | none =>
    dsimp only
    refine ⟨bot_ne_top, ?_⟩
    rw [EReal.neg_bot, ← EReal.coe_add, EReal.coe_sub_bot]
  | some j =>
    dsimp only
    refine ⟨?_, ?_⟩
    · rw [← EReal.coe_sub, ← EReal.coe_sub]
      exact EReal.coe_ne_top _
    · rw [← EReal.coe_sub, ← EReal.coe_sub, ← EReal.coe_neg, ← EReal.coe_add, ← EReal.coe_sub]
      rw [EReal.coe_eq_coe_iff]
      ring

/-- Every entry of every row of finite logits is real (the rows past the end are zero). -/
theorem prow_real (p : SPred.Idx → EReal) (hp : FinitePred p) (i : ℕ) (j : Fin 10000) :
    prow p i j ≠ ⊤ ∧ prow p i j ≠ ⊥ := by
  unfold prow
  split
  · exact hp _
  · exact ⟨EReal.zero_ne_top, EReal.zero_ne_bot⟩

/-- With every logit real, each row's maximum and log-sum-exp are real, so
    −((x − M) − L) = (M + L) − x row by row, also where x is the bottom element. -/
theorem ref_ce_eq_ker (p : SPred.Idx → EReal) (g : SGt.Idx → BitVec 32) (hp : FinitePred p) : Ref.ce p g = Ker.ce p g := by
  have hrow : ∀ n : ℕ, rlogp (prow p n) (gword g n) ≠ ⊤ ∧
      -(rlogp (prow p n) (gword g n))
        = (rmax (prow p n) + rlse (prow p n)) - rpick (prow p n) (gword g n) :=
    fun n => row_eq _ (prow_real p hp n) _
  have hneg : -(∑ i : Fin 4096, rlogp (prow p i.val) (gword g i.val))
      = ∑ i : Fin 4096, -(rlogp (prow p i.val) (gword g i.val)) :=
    (neg_sum_of_ne_top Finset.univ (fun i : Fin 4096 => rlogp (prow p i.val) (gword g i.val))
      (fun i _ => (hrow i.val).1)).2
  unfold Ref.ce Ker.ce Ker.half Ker.cetile
  rw [lit_rows, neg_div_pos _ (by norm_num : (0 : ℝ) < 4096), hneg,
    ← div_add_pos _ _ (by norm_num : (0 : ℝ) < 4096)]
  congr 1
  rw [Finset.sum_congr rfl (fun i _ => (hrow i.val).2)]
  exact sum_fin_regroup 128 4096 rfl
    (fun n => (rmax (prow p n) + rlse (prow p n)) - rpick (prow p n) (gword g n))

theorem ref_loss_eq_ker (o t : SImg.Idx → EReal) (p : SPred.Idx → EReal) (g : SGt.Idx → BitVec 32) (hp : FinitePred p) :
    Ref.loss o t p g = Ker.loss o t p g := by
  unfold Ref.loss Ker.loss
  rw [ref_l2_eq_ker, ref_lg_eq_ker, ref_ce_eq_ker p g hp]

end Cert.Spec

end
-- ==== Proof.Finite.lean ====
/- The precondition says every logit is a real number. -/
import proofs.«424299_j59854664237538_3_alg».proof.Pre_finite_inputs
import proofs.«424299_j59854664237538_3_alg».proof.Proof.Gen.Pre_finite_inputs
import proofs.«424299_j59854664237538_3_alg».proof.Proof.Spec
import Idealize.ShloMosaic.Lib.ReduceAll

noncomputable section

namespace Cert.Spec

open Idealize.ShloMosaic Idealize.ShloMosaic.ValueIdx

/-- A shape of rank zero has a single index. -/
instance subsingleton_scalarIdx : Subsingleton Cert.Pre_finite_inputs.S_.Idx :=
  ⟨fun a b => funext fun d => d.elim0⟩

/-- An extended real whose absolute value, max x (−x), lies strictly below +∞ is neither +∞ nor −∞:
    at x = +∞ the maximum is +∞ itself, and at x = −∞ its negation is +∞. -/
theorem ne_top_bot_of_abs_lt_top (x : EReal) (hx : max x (-x) < ⊤) : x ≠ ⊤ ∧ x ≠ ⊥ := by
  refine ⟨?_, ?_⟩
  · rintro rfl
    exact absurd hx (by simp)
  · rintro rfl
    exact absurd hx (by simp)

/-- The comparison word "|x| < the value of the pattern 0x7F800000" being 1 says |x| < +∞. -/
theorem abs_lt_top_of_cmp (x : EReal)
    (hx : Ideal.cmp .olt (max x (-x)) (Ideal.ofBits .f32 0x7F800000#32) = 1#1) : max x (-x) < ⊤ := by
  have htop : Ideal.ofBits .f32 0x7F800000#32 = ⊤ := by simp [Ideal.ofBits, Ideal.ieee]
  rw [htop] at hx
  by_contra hn
  simp [Ideal.cmp, hn] at hx

/-- If the printed predicate is all ones, the third argument (the logits) has no infinite entry. -/
theorem finitePred_of_pre (a0 a1 : FVec Ideal Cert.Pre_finite_inputs.S128x3x128x512 .f32) (a2 : FVec Ideal Cert.Pre_finite_inputs.S4096x10000 .f32)
    (a3 : IVec Cert.Pre_finite_inputs.S4096 32)
    (h : Cert.Pre_finite_inputs.fn (F := Ideal) a0 a1 a2 a3 = fun _ => 1#1) : FinitePred a2 := by
  -- the predicate's single entry
  have h0 := congrFun h ValueIdx.ix0
  dsimp only [Cert.Pre_finite_inputs.fn] at h0
  -- the last conjunct: the and-reduction over both axes of the logits' comparison
  have h12 := (IntOp.andi_eq_one.1 h0).2
  intro i
  -- every entry of the reduced array is 1
  have hi := Host.reduce_andi_all _ _ _ _ _ h12 i
  exact ne_top_bot_of_abs_lt_top (a2 i) (abs_lt_top_of_cmp (a2 i) hi)

end Cert.Spec

end
-- ==== Proof.lean ====
/-
  The certificate's five claims.

  The kernel program runs two pipelined kernels: the image kernel accumulates, tile by tile, the squared
  differences and the mask-gradient differences of the two image batches (sixteen tiles to each half of the batch,
  each half divided by the term's count at its last tile), the cross-entropy kernel the same for each row's
  max + log-sum-exp − target logit; the host lines add the halves, weight the three terms and sum them.  The
  reference computes the same three means over the whole batch at once.  Over the extended reals the two are one
  number: a quotient by a positive real distributes over a sum; three identical channel copies over three times the
  count are one copy over the count; and with every logit real, −((x − M) − L) = (M + L) − x row by row, both sides
  the top element where a row's target column is out of range.  The frames: each region's body run at every grid
  point, the accumulator carried in the region's invariant.
-/
import proofs.«424299_j59854664237538_3_alg».proof.Defs
import proofs.«424299_j59854664237538_3_alg».proof.Proof.Gen.Kernel
import proofs.«424299_j59854664237538_3_alg».proof.Proof.Gen.KernelIdeal
import proofs.«424299_j59854664237538_3_alg».proof.Proof.Gen.ReferenceIdeal
import proofs.«424299_j59854664237538_3_alg».proof.Proof.Gen.Pre_finite_inputs
import proofs.«424299_j59854664237538_3_alg».proof.Proof.KAsmB
import proofs.«424299_j59854664237538_3_alg».proof.Proof.AsmB
import proofs.«424299_j59854664237538_3_alg».proof.Proof.KerVal
import proofs.«424299_j59854664237538_3_alg».proof.Proof.RefLoss
import proofs.«424299_j59854664237538_3_alg».proof.Proof.RefRun
import proofs.«424299_j59854664237538_3_alg».proof.Proof.Algebra
import proofs.«424299_j59854664237538_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- Both programs end at the loss of their (agreeing) arguments: the kernel program at the tile-by-tile arrangement,
    the reference at the whole-batch one, equal because the precondition makes every logit real. -/
theorem algebraic : Cert.algebraic_KernelIdeal_ReferenceIdeal := by
  intro m ρ m' ρ' hpre hagree
  refine ⟨fun c _ => Cert.Spec.Ker.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Hand.run_result m ρ)
    funext i
    obtain rfl : i = ix0 := eq_ix0 i
    exact Cert.KernelIdeal.Hand.kernel_value m c
  · refine (θ_run Cert.ReferenceIdeal.defs _ _).mono (fun _ h c => ⟨(h c).1.trans ?_, (h c).2⟩)
      (Cert.ReferenceIdeal.RunH.run (F := Ideal) m' ρ')
    rw [Cert.RefSide.loss_eq, (hagree c).1, (hagree c).2.1, (hagree c).2.2.1, (hagree c).2.2.2]
    funext _
    exact Cert.Spec.ref_loss_eq_ker _ _ _ _ (Cert.Spec.finitePred_of_pre _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
